-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  IdealRules.truncf_extf.Statement Cert.KernelIdeal.S10000x128 .f32 .bf16
  ∧ IdealRules.truncf_extf.Statement Cert.KernelIdeal.S10000x256 .f32 .bf16
  ∧ IdealRules.truncf_extf.Statement Cert.KernelIdeal.S10000x128 .f32 .bf16
  ∧ IdealRules.truncf_extf.Statement Cert.KernelIdeal.S10000x256 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S600000x128 : Shape := ⟨2, ![600000, 128]⟩
abbrev S256x128 : Shape := ⟨2, ![256, 128]⟩
abbrev S500000 : Shape := ⟨1, ![500000]⟩
abbrev S600000 : Shape := ⟨1, ![600000]⟩
abbrev S384x32 : Shape := ⟨2, ![384, 32]⟩
abbrev S32 : Shape := ⟨1, ![32]⟩
abbrev S32x128 : Shape := ⟨2, ![32, 128]⟩
abbrev S128 : Shape := ⟨1, ![128]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S256x128 : S_.BroadcastsInDim S256x128 (![] : Fin 0 → Fin S256x128.rank)
  reducesTo_S256x128_S_d0_1 : S256x128.ReducesTo [0, 1] S_
  bcast_S_S500000 : S_.BroadcastsInDim S500000 (![] : Fin 0 → Fin S500000.rank)
  reducesTo_S500000_S_d0 : S500000.ReducesTo [0] S_
  bcast_S_S600000 : S_.BroadcastsInDim S600000 (![] : Fin 0 → Fin S600000.rank)
  reducesTo_S600000_S_d0 : S600000.ReducesTo [0] S_
  bcast_S_S384x32 : S_.BroadcastsInDim S384x32 (![] : Fin 0 → Fin S384x32.rank)
  reducesTo_S384x32_S_d0_1 : S384x32.ReducesTo [0, 1] S_
  bcast_S_S32 : S_.BroadcastsInDim S32 (![] : Fin 0 → Fin S32.rank)
  reducesTo_S32_S_d0 : S32.ReducesTo [0] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S32x128 .f32) (main_arg10 : FVec F S128 .f32) (main_v33 : IVec S_ 1) : IVec S_ 1 :=
  let main_v34 : FVec F S32x128 .f32 := Host.absf main_arg9
  let main_cst_12 : FVec F S_ .f32 := constant S_ .f32 0x7F800000#32
  let main_v35 : FVec F S32x128 .f32 := broadcastInDim S32x128 ![] bcast_S_S32x128 main_cst_12
  let main_v36 : IVec S32x128 1 := cmpf .olt main_v34 main_v35
  let main_c_13 : IVec S_ 1 := constantI S_ 1 1#1
  let main_v37 : IVec S_ 1 := (fun x v => Host.reduce IntOp.andi x v reducesTo_S32x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg6 : FVec F S600000 .f32) (main_arg7 : FVec F S384x32 .f32) (main_arg8 : FVec F S32 .f32) (main_arg9 : FVec F S32x128 .f32) (main_arg10 : FVec F S128 .f32) (main_v13 : IVec S_ 1) (main_v16 : IVec S500000 1) : IVec S_ 1 :=
  let main_c_5 : IVec S_ 1 := constantI S_ 1 1#1
  let main_v17 : IVec S_ 1 := (fun x v => Host.reduce IntOp.andi x v reducesTo_S500000_S_d0 h_S_) main_v16 main_c_5
  let main_v18 : IVec S_ 1 := andi main_v13 main_v17
  let main_v19 : FVec F S600000 .f32 := Host.absf main_arg6
  let main_cst_6 : FVec F S_ .f32 := constant S_ .f32 0x7F800000#32
  let main_v20 : FVec F S600000 .f32 := broadcastInDim S600000 ![] bcast_S_S600000 main_cst_6
  let main_v21 : IVec S600000 1 := cmpf .olt main_v19 main_v20
  let main_c_7 : IVec S_ 1 := constantI S_ 1 1#1
  let main_v22 : IVec S_ 1 := (fun x v => Host.reduce IntOp.andi x v reducesTo_S600000_S_d0 h_S_) main_v21 main_c_7
  let main_v23 : IVec S_ 1 := andi main_v18 main_v22
  let main_v24 : FVec F S384x32 .f32 := Host.absf main_arg7
  let main_cst_8 : FVec F S_ .f32 := constant S_ .f32 0x7F800000#32
  let main_v25 : FVec F S384x32 .f32 := broadcastInDim S384x32 ![] bcast_S_S384x32 main_cst_8
  let main_v26 : IVec S384x32 1 := cmpf .olt main_v24 main_v25
  let main_c_9 : IVec S_ 1 := constantI S_ 1 1#1
  let main_v27 : IVec S_ 1 := (fun x v => Host.reduce IntOp.andi x v reducesTo_S384x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_v33

def fn {F : FTy → Type} [FloatOps F] (main_arg0 : FVec F S500000x128 .f32) (main_arg1 : FVec F S600000x128 .f32) (main_arg2 : FVec F S256x128 .f32) (main_arg3 : IVec S500000 32) (main_arg4 : IVec S600000 32) (main_arg5 : FVec F S500000 .f32) (main_arg6 : FVec F S600000 .f32) (main_arg7 : FVec F S384x32 .f32) (main_arg8 : FVec F S32 .f32) (main_arg9 : FVec F S32x128 .f32) (main_arg10 : FVec F S128 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S600000x128 .f32 := Host.absf main_arg1
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S500000 .f32 := Host.absf main_arg5
  let main_cst_4 : FVec F S_ .f32 := constant S_ .f32 0x7F800000#32
  let main_v15 : FVec F S500000 .f32 := broadcastInDim S500000 ![] bcast_S_S500000 main_cst_4
  let main_v16 : IVec S500000 1 := cmpf .olt main_v14 main_v15
  fn_part1 (F := F) main_arg6 main_arg7 main_arg8 main_arg9 main_arg10 main_v13 main_v16
-- ==== Kernel.lean ====
abbrev S500000x128 : Shape := ⟨2, ![500000, 128]⟩
abbrev S600000x128 : Shape := ⟨2, ![600000, 128]⟩
abbrev S256x128 : Shape := ⟨2, ![256, 128]⟩
abbrev S500000 : Shape := ⟨1, ![500000]⟩
abbrev S600000 : Shape := ⟨1, ![600000]⟩
abbrev S384x32 : Shape := ⟨2, ![384, 32]⟩
abbrev S32 : Shape := ⟨1, ![32]⟩
abbrev S32x128 : Shape := ⟨2, ![32, 128]⟩
abbrev S128 : Shape := ⟨1, ![128]⟩
abbrev S600000x1 : Shape := ⟨2, ![600000, 1]⟩
abbrev S500000x1 : Shape := ⟨2, ![500000, 1]⟩
abbrev S2x256x128 : Shape := ⟨3, ![2, 256, 128]⟩
abbrev S2x1x256 : Shape := ⟨3, ![2, 1, 256]⟩
abbrev S10000x128 : Shape := ⟨2, ![10000, 128]⟩
abbrev S10000x1 : Shape := ⟨2, ![10000, 1]⟩
abbrev S1x256x128 : Shape := ⟨3, ![1, 256, 128]⟩
abbrev S1x1x256 : Shape := ⟨3, ![1, 1, 256]⟩
abbrev S1x256 : Shape := ⟨2, ![1, 256]⟩
abbrev S10000x256 : Shape := ⟨2, ![10000, 256]⟩
abbrev S256 : Shape := ⟨1, ![256]⟩
abbrev S1x32 : Shape := ⟨2, ![1, 32]⟩
abbrev S1x128 : Shape := ⟨2, ![1, 128]⟩
abbrev S256x1 : Shape := ⟨2, ![256, 1]⟩
abbrev S256x384 : Shape := ⟨2, ![256, 384]⟩
abbrev S256x32 : Shape := ⟨2, ![256, 32]⟩

abbrev nBuf : Space → Nat
  | .hbm => 22
  | .vmem => 30
  | .smem => 0
  | _ => 0

abbrev bufTy : (tb : Table) → Fin (tcTables nBuf tb) → BufTy
  | .hbm, ⟨0, _⟩ => ⟨S500000x128, .f32⟩
  | .hbm, ⟨1, _⟩ => ⟨S600000x128, .f32⟩
  | .hbm, ⟨2, _⟩ => ⟨S256x128, .f32⟩
  | .hbm, ⟨3, _⟩ => ⟨S500000, .i32⟩
  | .hbm, ⟨4, _⟩ => ⟨S600000, .i32⟩
  | .hbm, ⟨5, _⟩ => ⟨S500000, .f32⟩
  | .hbm, ⟨6, _⟩ => ⟨S600000, .f32⟩
  | .hbm, ⟨7, _⟩ => ⟨S384x32, .f32⟩
  | .hbm, ⟨8, _⟩ => ⟨S32, .f32⟩
  | .hbm, ⟨9, _⟩ => ⟨S32x128, .f32⟩
  | .hbm, ⟨10, _⟩ => ⟨S128, .f32⟩
  | .hbm, ⟨11, _⟩ => ⟨S600000x1, .i32⟩
  | .hbm, ⟨12, _⟩ => ⟨S500000x1, .i32⟩
  | .hbm, ⟨13, _⟩ => ⟨S600000x1, .f32⟩
  | .hbm, ⟨14, _⟩ => ⟨S500000x1, .f32⟩
  | .hbm, ⟨15, _⟩ => ⟨S2x256x128, .f32⟩
  | .hbm, ⟨16, _⟩ => ⟨S2x1x256, .f32⟩
  | .hbm, ⟨17, _⟩ => ⟨S2x256x128, .f32⟩
  | .hbm, ⟨18, _⟩ => ⟨S2x1x256, .f32⟩
  | .hbm, ⟨19, _⟩ => ⟨S1x32, .f32⟩
  | .hbm, ⟨20, _⟩ => ⟨S1x128, .f32⟩
  | .hbm, ⟨21, _⟩ => ⟨S256x128, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S10000x1, .i32⟩
  | .local _ .vmem, ⟨5, _⟩ => ⟨S10000x1, .i32⟩
  | .local _ .vmem, ⟨6, _⟩ => ⟨S1x256x128, .f32⟩
  | .local _ .vmem, ⟨7, _⟩ => ⟨S1x256x128, .f32⟩
  | .local _ .vmem, ⟨8, _⟩ => ⟨S1x1x256, .f32⟩
  | .local _ .vmem, ⟨9, _⟩ => ⟨S1x1x256, .f32⟩
  | .local _ .vmem, ⟨10, _⟩ => ⟨S10000x128, .f32⟩
  | .local _ .vmem, ⟨11, _⟩ => ⟨S10000x128, .f32⟩
  | .local _ .vmem, ⟨12, _⟩ => ⟨S10000x1, .f32⟩
  | .local _ .vmem, ⟨13, _⟩ => ⟨S10000x1, .f32⟩
  | .local _ .vmem, ⟨14, _⟩ => ⟨S10000x1, .i32⟩
  | .local _ .vmem, ⟨15, _⟩ => ⟨S10000x1, .i32⟩
  | .local _ .vmem, ⟨16, _⟩ => ⟨S1x256x128, .f32⟩
  | .local _ .vmem, ⟨17, _⟩ => ⟨S1x256x128, .f32⟩
  | .local _ .vmem, ⟨18, _⟩ => ⟨S1x1x256, .f32⟩
  | .local _ .vmem, ⟨19, _⟩ => ⟨S1x1x256, .f32⟩
  | .local _ .vmem, ⟨20, _⟩ => ⟨S2x256x128, .f32⟩
  | .local _ .vmem, ⟨21, _⟩ => ⟨S2x1x256, .f32⟩
  | .local _ .vmem, ⟨22, _⟩ => ⟨S2x256x128, .f32⟩
  | .local _ .vmem, ⟨23, _⟩ => ⟨S2x1x256, .f32⟩
  | .local _ .vmem, ⟨24, _⟩ => ⟨S256x128, .f32⟩
  | .local _ .vmem, ⟨25, _⟩ => ⟨S384x32, .f32⟩
  | .local _ .vmem, ⟨26, _⟩ => ⟨S1x32, .f32⟩
  | .local _ .vmem, ⟨27, _⟩ => ⟨S32x128, .f32⟩
  | .local _ .vmem, ⟨28, _⟩ => ⟨S1x128, .f32⟩
  | .local _ .vmem, ⟨29, _⟩ => ⟨S256x128, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v5_0 : Ref sig .tc := ⟨.hbm, 17, rfl⟩
abbrev main_v5_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc2_stg0_0 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg8_0 : Ref sig .tc := ⟨.vmem, 28, rfl⟩
abbrev cc2_stg9_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem1_0 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem8_0 : DmaSem sig := 28
abbrev cc2_sem9_0 : DmaSem sig := 29

abbrev nD : Nat := 1
abbrev τ : Topo := Topo.v7x

variable {F : FTy → Type} [FloatOps F]

abbrev grid0 : Pipeline.Grid := ⟨2, ![2, 30], ![false, false]⟩

def cc0_transform_0 (i : grid0.Coords) : Fin 2 → Nat :=
  let arg0 : BitVec 32 := BitVec.ofNat 32 (i 0).val
  let arg1 : BitVec 32 := BitVec.ofNat 32 (i 1).val
  let c30_i32 : BitVec 32 := 30#32
  let v0 : BitVec 32 := Scalar.muli arg0 c30_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c30_i32 : BitVec 32 := 30#32
  let v0 : BitVec 32 := Scalar.muli arg0 c30_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c30_i32 : BitVec 32 := 30#32
  let v0 : BitVec 32 := Scalar.muli arg0 c30_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S10000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![2, 25], ![false, false]⟩

def cc1_transform_0 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S10000x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨1, ![1], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S2x256x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S2x1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S2x256x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2x1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S384x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S32x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S256x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

class Facts₀ : Prop where
  shapeCasts_S600000_S600000x1 : S600000.ShapeCasts S600000x1
  shapeCasts_S500000_S500000x1 : S500000.ShapeCasts S500000x1
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  shapeCasts_S256x128_S1x256x128 : S256x128.ShapeCasts S1x256x128
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S10000x128_S10000x128_0_0 : ∀ a, (![0, 0] : Fin 2 → Nat) a + S10000x128.size a ≤ S10000x128.size a
  h_S10000x128 : 0 < S10000x128.numel
  iota_S10000x256_d1_w32 : S10000x256.Iotas .tc 32 [1]
  broadcasts_S10000x1_S10000x256 : S10000x1.Broadcasts S10000x256
  natLt_1_32 : 1 < 32
  bitsLt_bf16_f32 : FTy.bits .bf16 < FTy.bits .f32
  broadcasts_S10000x1_S10000x128 : S10000x1.Broadcasts S10000x128
  reduces_S10000x256_S256 : S10000x256.Reduces [0] S256
  shapeCasts_S256_S1x256 : S256.ShapeCasts S1x256
  shapeCasts_S32_S1x32 : S32.ShapeCasts S1x32
  shapeCasts_S128_S1x128 : S128.ShapeCasts S1x128
  inb_S2x256x128_S2x256x128_0_0_0 : ∀ a, (![0, 0, 0] : Fin 3 → Nat) a + S2x256x128.size a ≤ S2x256x128.size a
  h_S2x256x128 : 0 < S2x256x128.numel
  shapeCasts_S2x256x128_S2x256x128 : S2x256x128.ShapeCasts S2x256x128
  reduces_S2x256x128_S256x128 : S2x256x128.Reduces [0] S256x128
  inb_S2x1x256_S2x1x256_0_0_0 : ∀ a, (![0, 0, 0] : Fin 3 → Nat) a + S2x1x256.size a ≤ S2x1x256.size a
  h_S2x1x256 : 0 < S2x1x256.numel
  shapeCasts_S2x1x256_S2x1x256 : S2x1x256.ShapeCasts S2x1x256
  reduces_S2x1x256_S1x256 : S2x1x256.Reduces [0] S1x256
  transposes_S1x256_p1_0_S256x1 : S1x256.Transposes [1, 0] S256x1
  broadcasts_S256x1_S256x128 : S256x1.Broadcasts S256x128
  inb_S256x128_S256x128_0_0 : ∀ a, (![0, 0] : Fin 2 → Nat) a + S256x128.size a ≤ S256x128.size a
  h_S256x128 : 0 < S256x128.numel
  concatenates_S256x128_S256x128_S256x128_S256x384_d1 : Shape.Concatenates [S256x128, S256x128, S256x128] S256x384 1
  inb_S384x32_S384x32_0_0 : ∀ a, (![0, 0] : Fin 2 → Nat) a + S384x32.size a ≤ S384x32.size a
  h_S384x32 : 0 < S384x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S256x32 : S1x32.Broadcasts S256x32
  inb_S32x128_S32x128_0_0 : ∀ a, (![0, 0] : Fin 2 → Nat) a + S32x128.size a ≤ S32x128.size a
  h_S32x128 : 0 < S32x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  dot_S10000x256_S10000x128_S256x128_0_0_1_1_n_n_wf : DotDims.WF S10000x256 S10000x128 S256x128 [0] [0] [1] [1] [] []
  dot_S256x384_S384x32_S256x32_1_0_0_1_n_n_wf : DotDims.WF S256x384 S384x32 S256x32 [1] [0] [0] [1] [] []
  dot_S256x32_S32x128_S256x128_1_0_0_1_n_n_wf : DotDims.WF S256x32 S32x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S600000x128.size a
  hwx0_0 : ∀ i : grid0.Coords, EltTy.bits .f32 = 32 ∨ (Rect.block (s := S600000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S600000x1.size a
  hwx0_1 : ∀ i : grid0.Coords, EltTy.bits .f32 = 32 ∨ (Rect.block (s := S600000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S600000x1.size a
  hwx0_2 : ∀ i : grid0.Coords, EltTy.bits .i32 = 32 ∨ (Rect.block (s := S600000x1) S10000x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x128.size a ≤ S2x256x128.size a
  hwx0_3 : ∀ i : grid0.Coords, EltTy.bits .f32 = 32 ∨ (Rect.block (s := S2x256x128) S1x256x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256.size a ≤ S2x1x256.size a
  hwx0_4 : ∀ i : grid0.Coords, EltTy.bits .f32 = 32 ∨ (Rect.block (s := S2x1x256) S1x1x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S500000x128.size a
  hwx1_0 : ∀ i : grid1.Coords, EltTy.bits .f32 = 32 ∨ (Rect.block (s := S500000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S500000x1.size a
  hwx1_1 : ∀ i : grid1.Coords, EltTy.bits .f32 = 32 ∨ (Rect.block (s := S500000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S500000x1.size a
  hwx1_2 : ∀ i : grid1.Coords, EltTy.bits .i32 = 32 ∨ (Rect.block (s := S500000x1) S10000x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x128.size a ≤ S2x256x128.size a
  hwx1_3 : ∀ i : grid1.Coords, EltTy.bits .f32 = 32 ∨ (Rect.block (s := S2x256x128) S1x256x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x256.size a ≤ S2x1x256.size a
  hwx1_4 : ∀ i : grid1.Coords, EltTy.bits .f32 = 32 ∨ (Rect.block (s := S2x1x256) S1x1x256.size (cc1_transform_4 i) (hinb1_4 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S2x256x128.size a ≤ S2x256x128.size a
  hwx2_0 : ∀ i : grid2.Coords, EltTy.bits .f32 = 32 ∨ (Rect.block (s := S2x256x128) S2x256x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2x1x256.size a ≤ S2x1x256.size a
  hwx2_1 : ∀ i : grid2.Coords, EltTy.bits .f32 = 32 ∨ (Rect.block (s := S2x1x256) S2x1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S2x256x128.size a ≤ S2x256x128.size a
  hwx2_2 : ∀ i : grid2.Coords, EltTy.bits .f32 = 32 ∨ (Rect.block (s := S2x256x128) S2x256x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S2x1x256.size a ≤ S2x1x256.size a
  hwx2_3 : ∀ i : grid2.Coords, EltTy.bits .f32 = 32 ∨ (Rect.block (s := S2x1x256) S2x1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x128.size a ≤ S256x128.size a
  hwx2_4 : ∀ i : grid2.Coords, EltTy.bits .f32 = 32 ∨ (Rect.block (s := S256x128) S256x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S384x32.size a ≤ S384x32.size a
  hwx2_5 : ∀ i : grid2.Coords, EltTy.bits .f32 = 32 ∨ (Rect.block (s := S384x32) S384x32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x32.size a ≤ S1x32.size a
  hwx2_6 : ∀ i : grid2.Coords, EltTy.bits .f32 = 32 ∨ (Rect.block (s := S1x32) S1x32.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S32x128.size a ≤ S32x128.size a
  hwx2_7 : ∀ i : grid2.Coords, EltTy.bits .f32 = 32 ∨ (Rect.block (s := S32x128) S32x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S256x128.size a ≤ S256x128.size a
  hwx2_9 : ∀ i : grid2.Coords, EltTy.bits .f32 = 32 ∨ (Rect.block (s := S256x128) S256x128.size (cc2_transform_9 i) (hinb2_9 i)).WholeWords (EltTy.packing .f32)

variable [Facts₀]

def dot_S10000x256_S10000x128_S256x128_0_0_1_1_n_n : DotDims S10000x256 S10000x128 S256x128 where
  lhsContracting := [0]
  rhsContracting := [0]
  lhsNonContracting := [1]
  rhsNonContracting := [1]
  lhsBatch := []
  rhsBatch := []
  wf := dot_S10000x256_S10000x128_S256x128_0_0_1_1_n_n_wf
def dot_S256x384_S384x32_S256x32_1_0_0_1_n_n : DotDims S256x384 S384x32 S256x32 where
  lhsContracting := [1]
  rhsContracting := [0]
  lhsNonContracting := [0]
  rhsNonContracting := [1]
  lhsBatch := []
  rhsBatch := []
  wf := dot_S256x384_S384x32_S256x32_1_0_0_1_n_n_wf
def dot_S256x32_S32x128_S256x128_1_0_0_1_n_n : DotDims S256x32 S32x128 S256x128 where
  lhsContracting := [1]
  rhsContracting := [0]
  lhsNonContracting := [0]
  rhsNonContracting := [1]
  lhsBatch := []
  rhsBatch := []
  wf := dot_S256x32_S32x128_S256x128_1_0_0_1_n_n_wf

abbrev win0_0 : Pipeline.Window sig grid0 :=
  Pipeline.Window.ofSpec (Memref.whole main_arg1) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S1x256x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S1x1x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5_0) S1x256x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5_1) S1x1x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v4_0) S2x256x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v4_1) S2x1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v5_0) S2x256x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5_1) S2x1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg2) S256x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg7) S384x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v6) S1x32.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg9) S32x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v7) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v8) S256x128.size cc2_transform_9 reads2_9 true true 1 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S500000x128 : Shape := ⟨2, ![500000, 128]⟩
abbrev S600000x128 : Shape := ⟨2, ![600000, 128]⟩
abbrev S256x128 : Shape := ⟨2, ![256, 128]⟩
abbrev S500000 : Shape := ⟨1, ![500000]⟩
abbrev S600000 : Shape := ⟨1, ![600000]⟩
abbrev S384x32 : Shape := ⟨2, ![384, 32]⟩
abbrev S32 : Shape := ⟨1, ![32]⟩
abbrev S32x128 : Shape := ⟨2, ![32, 128]⟩
abbrev S128 : Shape := ⟨1, ![128]⟩
abbrev S600000x1 : Shape := ⟨2, ![600000, 1]⟩
abbrev S_ : Shape := ⟨0, ![]⟩
abbrev S256 : Shape := ⟨1, ![256]⟩
abbrev S256x1 : Shape := ⟨2, ![256, 1]⟩
abbrev S500000x1 : Shape := ⟨2, ![500000, 1]⟩
abbrev S256x384 : Shape := ⟨2, ![256, 384]⟩
abbrev S256x32 : Shape := ⟨2, ![256, 32]⟩
abbrev S1x32 : Shape := ⟨2, ![1, 32]⟩
abbrev S1x128 : Shape := ⟨2, ![1, 128]⟩

abbrev nBuf : Space → Nat
  | .hbm => 61
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S600000x128, .f32⟩
  | .hbm, ⟨2, _⟩ => ⟨S256x128, .f32⟩
  | .hbm, ⟨3, _⟩ => ⟨S500000, .i32⟩
  | .hbm, ⟨4, _⟩ => ⟨S600000, .i32⟩
  | .hbm, ⟨5, _⟩ => ⟨S500000, .f32⟩
  | .hbm, ⟨6, _⟩ => ⟨S600000, .f32⟩
  | .hbm, ⟨7, _⟩ => ⟨S384x32, .f32⟩
  | .hbm, ⟨8, _⟩ => ⟨S32, .f32⟩
  | .hbm, ⟨9, _⟩ => ⟨S32x128, .f32⟩
  | .hbm, ⟨10, _⟩ => ⟨S128, .f32⟩
  | .hbm, ⟨11, _⟩ => ⟨S600000x1, .f32⟩
  | .hbm, ⟨12, _⟩ => ⟨S600000x128, .f32⟩
  | .hbm, ⟨13, _⟩ => ⟨S600000x128, .f32⟩
  | .hbm, ⟨14, _⟩ => ⟨S_, .f32⟩
  | .hbm, ⟨15, _⟩ => ⟨S256x128, .f32⟩
  | .hbm, ⟨16, _⟩ => ⟨S600000x1, .i32⟩
  | .hbm, ⟨17, _⟩ => ⟨S256x128, .f32⟩
  | .hbm, ⟨18, _⟩ => ⟨S_, .f32⟩
  | .hbm, ⟨19, _⟩ => ⟨S600000, .f32⟩
  | .hbm, ⟨20, _⟩ => ⟨S_, .f32⟩
  | .hbm, ⟨21, _⟩ => ⟨S256, .f32⟩
  | .hbm, ⟨22, _⟩ => ⟨S600000x1, .i32⟩
  | .hbm, ⟨23, _⟩ => ⟨S256, .f32⟩
  | .hbm, ⟨24, _⟩ => ⟨S_, .f32⟩
  | .hbm, ⟨25, _⟩ => ⟨S256, .f32⟩
  | .hbm, ⟨26, _⟩ => ⟨S256, .f32⟩
  | .hbm, ⟨27, _⟩ => ⟨S256x1, .f32⟩
  | .hbm, ⟨28, _⟩ => ⟨S256x128, .f32⟩
  | .hbm, ⟨29, _⟩ => ⟨S256x128, .f32⟩
  | .hbm, ⟨30, _⟩ => ⟨S500000x1, .f32⟩
  | .hbm, ⟨31, _⟩ => ⟨S500000x128, .f32⟩
  | .hbm, ⟨32, _⟩ => ⟨S500000x128, .f32⟩
  | .hbm, ⟨33, _⟩ => ⟨S_, .f32⟩
  | .hbm, ⟨34, _⟩ => ⟨S256x128, .f32⟩
  | .hbm, ⟨35, _⟩ => ⟨S500000x1, .i32⟩
  | .hbm, ⟨36, _⟩ => ⟨S256x128, .f32⟩
  | .hbm, ⟨37, _⟩ => ⟨S_, .f32⟩
  | .hbm, ⟨38, _⟩ => ⟨S500000, .f32⟩
  | .hbm, ⟨39, _⟩ => ⟨S_, .f32⟩
  | .hbm, ⟨40, _⟩ => ⟨S256, .f32⟩
  | .hbm, ⟨41, _⟩ => ⟨S500000x1, .i32⟩
  | .hbm, ⟨42, _⟩ => ⟨S256, .f32⟩
  | .hbm, ⟨43, _⟩ => ⟨S_, .f32⟩
  | .hbm, ⟨44, _⟩ => ⟨S256, .f32⟩
  | .hbm, ⟨45, _⟩ => ⟨S256, .f32⟩
  | .hbm, ⟨46, _⟩ => ⟨S256x1, .f32⟩
  | .hbm, ⟨47, _⟩ => ⟨S256x128, .f32⟩
  | .hbm, ⟨48, _⟩ => ⟨S256x128, .f32⟩
  | .hbm, ⟨49, _⟩ => ⟨S256x384, .f32⟩
  | .hbm, ⟨50, _⟩ => ⟨S256x32, .f32⟩
  | .hbm, ⟨51, _⟩ => ⟨S1x32, .f32⟩
  | .hbm, ⟨52, _⟩ => ⟨S256x32, .f32⟩
  | .hbm, ⟨53, _⟩ => ⟨S256x32, .f32⟩
  | .hbm, ⟨54, _⟩ => ⟨S_, .f32⟩
  | .hbm, ⟨55, _⟩ => ⟨S256x32, .f32⟩
  | .hbm, ⟨56, _⟩ => ⟨S256x32, .f32⟩
  | .hbm, ⟨57, _⟩ => ⟨S256x128, .f32⟩
  | .hbm, ⟨58, _⟩ => ⟨S1x128, .f32⟩
  | .hbm, ⟨59, _⟩ => ⟨S256x128, .f32⟩
  | .hbm, ⟨60, _⟩ => ⟨S256x128, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_cst_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_call0_cst : Ref sig .tc := ⟨.hbm, 54, rfl⟩
abbrev main_call0_v0 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩

abbrev nD : Nat := 1
abbrev τ : Topo := Topo.v7x

variable {F : FTy → Type} [FloatOps F]

class Facts₀ : Prop where
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S256x128 : S_.BroadcastsInDim S256x128 (![] : Fin 0 → Fin S256x128.rank)
  bcast_S_S600000 : S_.BroadcastsInDim S600000 (![] : Fin 0 → Fin S600000.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S500000_S500000x1_0 : S500000.BroadcastsInDim S500000x1 (![0] : Fin 1 → Fin S500000x1.rank)
  bcast_S500000x1_S500000x128_0_1 : S500000x1.BroadcastsInDim S500000x128 (![0, 1] : Fin 2 → Fin S500000x128.rank)
  bcast_S_S500000 : S_.BroadcastsInDim S500000 (![] : Fin 0 → Fin S500000.rank)
  concatenates_S256x128_S256x128_S256x128_S256x384_d1 : Shape.Concatenates [S256x128, S256x128, S256x128] S256x384 1
  bcast_S32_S1x32_1 : S32.BroadcastsInDim S1x32 (![1] : Fin 1 → Fin S1x32.rank)
  bcast_S1x32_S256x32_0_1 : S1x32.BroadcastsInDim S256x32 (![0, 1] : Fin 2 → Fin S256x32.rank)
  bcast_S_S256x32 : S_.BroadcastsInDim S256x32 (![] : Fin 0 → Fin S256x32.rank)
  bcast_S128_S1x128_1 : S128.BroadcastsInDim S1x128 (![1] : Fin 1 → Fin S1x128.rank)
  bcast_S1x128_S256x128_0_1 : S1x128.BroadcastsInDim S256x128 (![0, 1] : Fin 2 → Fin S256x128.rank)
  scatter_S256x128_S600000x1_S600000x128_1_0_0_1_wf : ScatterDims.WF S256x128 S600000x1 S600000x128 [1] [0] [0] 1
  scatter_S256_S600000x1_S600000_n_0_0_1_wf : ScatterDims.WF S256 S600000x1 S600000 [] [0] [0] 1
  scatter_S256x128_S500000x1_S500000x128_1_0_0_1_wf : ScatterDims.WF S256x128 S500000x1 S500000x128 [1] [0] [0] 1
  scatter_S256_S500000x1_S500000_n_0_0_1_wf : ScatterDims.WF S256 S500000x1 S500000 [] [0] [0] 1
  dot_S256x384_S384x32_S256x32_1_0_0_1_n_n_wf : DotDims.WF S256x384 S384x32 S256x32 [1] [0] [0] [1] [] []
  dot_S256x32_S32x128_S256x128_1_0_0_1_n_n_wf : DotDims.WF S256x32 S32x128 S256x128 [1] [0] [0] [1] [] []

variable [Facts₀]

def scatter_S256x128_S600000x1_S600000x128_1_0_0_1 : ScatterDims S256x128 S600000x1 S600000x128 where
  updateWindowDims := [1]
  insertedWindowDims := [0]
  scatterDimsToOperandDims := [0]
  indexVectorDim := 1
  wf := scatter_S256x128_S600000x1_S600000x128_1_0_0_1_wf
def scatter_S256_S600000x1_S600000_n_0_0_1 : ScatterDims S256 S600000x1 S600000 where
  updateWindowDims := []
  insertedWindowDims := [0]
  scatterDimsToOperandDims := [0]
  indexVectorDim := 1
  wf := scatter_S256_S600000x1_S600000_n_0_0_1_wf
def scatter_S256x128_S500000x1_S500000x128_1_0_0_1 : ScatterDims S256x128 S500000x1 S500000x128 where
  updateWindowDims := [1]
  insertedWindowDims := [0]
  scatterDimsToOperandDims := [0]
  indexVectorDim := 1
  wf := scatter_S256x128_S500000x1_S500000x128_1_0_0_1_wf
def scatter_S256_S500000x1_S500000_n_0_0_1 : ScatterDims S256 S500000x1 S500000 where
  updateWindowDims := []
  insertedWindowDims := [0]
  scatterDimsToOperandDims := [0]
  indexVectorDim := 1
  wf := scatter_S256_S500000x1_S500000_n_0_0_1_wf
def dot_S256x384_S384x32_S256x32_1_0_0_1_n_n : DotDims S256x384 S384x32 S256x32 where
  lhsContracting := [1]
  rhsContracting := [0]
  lhsNonContracting := [0]
  rhsNonContracting := [1]
  lhsBatch := []
  rhsBatch := []
  wf := dot_S256x384_S384x32_S256x32_1_0_0_1_n_n_wf
def dot_S256x32_S32x128_S256x128_1_0_0_1_n_n : DotDims S256x32 S32x128 S256x128 where
  lhsContracting := [1]
  rhsContracting := [0]
  lhsNonContracting := [0]
  rhsNonContracting := [1]
  lhsBatch := []
  rhsBatch := []
  wf := dot_S256x32_S32x128_S256x128_1_0_0_1_n_n_wf

class Facts : Prop extends Facts₀ where

variable [Facts]
-- ==== Proof.Thread.lean ====
/-
  The contents each region is entered with, read back to the launch memory.

  No host operation and no region writes an argument, so an argument read at any boundary is the launch memory's.
  The two index vectors and the two masks enter the reductions as one-column reshapes of the arguments; the two
  biases enter the last kernel as one-row reshapes; and the last kernel's first four operands are what the two
  reductions' write-backs left in their result arrays.
-/
import proofs.«425581_j16449724745524_3_alg».proof.Proof.Gen.KernelIdeal.Frame
import Idealize.ShloMosaic.Lib.Pipeline.Value
import Idealize.ShloMosaic.Lib.StableHlo.Run
import Idealize.ShloMosaic.PureOps.Ideal

set_option maxRecDepth 16384

noncomputable section

open Idealize.ShloMosaic Idealize.ShloMosaic.TcCoe Idealize.SL.Sem

namespace Cert.KernelIdeal.Thread

open Cert.KernelIdeal Cert.KernelIdeal.Gen

variable (m : (ℓ : Loc nD τ sig) → Buf (Elt Ideal) ℓ) (ρ : Dev nD → PrngReg)

/-! ## The first reduction's operands -/

theorem r0_attr (c : Dev nD) :
    (V1 m ρ c (Pipeline.arrRef spec0 0) : FVec Ideal S600000x128 .f32) = m ((c : Thread nD τ).loc main_arg1) := by
  show StableHlo.after hostOps0 (W0 m ρ c) (Proc.devRef .tc main_arg1) = _
  exact StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem r0_mask (c : Dev nD) :
    (V1 m ρ c (Pipeline.arrRef spec0 1) : FVec Ideal S600000x1 .f32)
      = shapeCast S600000x1 (m ((c : Thread nD τ).loc main_arg6) : FVec Ideal S600000 .f32) shapeCasts_S600000_S600000x1 := by
  show StableHlo.after hostOps0 (W0 m ρ c) (Proc.devRef .tc main_v2) = _
  after_results
  rfl

theorem r0_idx (c : Dev nD) :
    (V1 m ρ c (Pipeline.arrRef spec0 2) : IVec S600000x1 32)
      = shapeCast S600000x1 (m ((c : Thread nD τ).loc main_arg4) : IVec S600000 32) shapeCasts_S600000_S600000x1 := by
  show StableHlo.after hostOps0 (W0 m ρ c) (Proc.devRef .tc main_v0) = _
  after_results
  rfl

/-! ## The second reduction's operands -/

theorem r1_attr (c : Dev nD) :
    (V2 m ρ c (Pipeline.arrRef spec1 0) : FVec Ideal S500000x128 .f32) = m ((c : Thread nD τ).loc main_arg0) := by
  show W2 m ρ c (Proc.devRef .tc main_arg0) = _
  exact (W2_of_ne m ρ c main_arg0 (by decide)).trans (StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))

theorem r1_mask (c : Dev nD) :
    (V2 m ρ c (Pipeline.arrRef spec1 1) : FVec Ideal S500000x1 .f32)
      = shapeCast S500000x1 (m ((c : Thread nD τ).loc main_arg5) : FVec Ideal S500000 .f32) shapeCasts_S500000_S500000x1 := by
  show W2 m ρ c (Proc.devRef .tc main_v3) = _
  refine (W2_of_ne m ρ c main_v3 (by decide)).trans ?_
  show StableHlo.after hostOps0 (W0 m ρ c) (Proc.devRef .tc main_v3) = _
  after_results
  rfl

theorem r1_idx (c : Dev nD) :
    (V2 m ρ c (Pipeline.arrRef spec1 2) : IVec S500000x1 32)
      = shapeCast S500000x1 (m ((c : Thread nD τ).loc main_arg3) : IVec S500000 32) shapeCasts_S500000_S500000x1 := by
  show W2 m ρ c (Proc.devRef .tc main_v1) = _
  refine (W2_of_ne m ρ c main_v1 (by decide)).trans ?_
  show StableHlo.after hostOps0 (W0 m ρ c) (Proc.devRef .tc main_v1) = _
  after_results
  rfl

/-! ## The last kernel's operands -/

theorem r2_sumsE (c : Dev nD) :
    (V4 m ρ c (Pipeline.arrRef spec2 0) : FVec Ideal S2x256x128 .f32) = (dat0 (V1 m ρ) c).arrAt 3 cfg0.N := by
  show StableHlo.after hostOps2 (W3 m ρ c) (Proc.devRef .tc main_v4_0) = _
  refine (StableHlo.after_of_forall_not_mem (b := Proc.devRef .tc main_v4_0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans ?_
  exact (W3_of_ne m ρ c main_v4_0 (by decide)).trans (W2_arr m ρ c 3)

theorem r2_cntsE (c : Dev nD) :
    (V4 m ρ c (Pipeline.arrRef spec2 1) : FVec Ideal S2x1x256 .f32) = (dat0 (V1 m ρ) c).arrAt 4 cfg0.N := by
  show StableHlo.after hostOps2 (W3 m ρ c) (Proc.devRef .tc main_v4_1) = _
  refine (StableHlo.after_of_forall_not_mem (b := Proc.devRef .tc main_v4_1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans ?_
  exact (W3_of_ne m ρ c main_v4_1 (by decide)).trans (W2_arr m ρ c 4)

theorem r2_sumsN (c : Dev nD) :
    (V4 m ρ c (Pipeline.arrRef spec2 2) : FVec Ideal S2x256x128 .f32) = (dat1 (V2 m ρ) c).arrAt 3 cfg1.N := by
  show StableHlo.after hostOps2 (W3 m ρ c) (Proc.devRef .tc main_v5_0) = _
  refine (StableHlo.after_of_forall_not_mem (b := Proc.devRef .tc main_v5_0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans ?_
  exact W3_arr m ρ c 3

theorem r2_cntsN (c : Dev nD) :
    (V4 m ρ c (Pipeline.arrRef spec2 3) : FVec Ideal S2x1x256 .f32) = (dat1 (V2 m ρ) c).arrAt 4 cfg1.N := by
  show StableHlo.after hostOps2 (W3 m ρ c) (Proc.devRef .tc main_v5_1) = _
  refine (StableHlo.after_of_forall_not_mem (b := Proc.devRef .tc main_v5_1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans ?_
  exact W3_arr m ρ c 4

theorem r2_global (c : Dev nD) :
    (V4 m ρ c (Pipeline.arrRef spec2 4) : FVec Ideal S256x128 .f32) = m ((c : Thread nD τ).loc main_arg2) := by
  show StableHlo.after hostOps2 (W3 m ρ c) (Proc.devRef .tc main_arg2) = _
  refine (StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans ?_
  exact ((W3_of_ne m ρ c main_arg2 (by decide)).trans ((W2_of_ne m ρ c main_arg2 (by decide)).trans (StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))))

theorem r2_W1 (c : Dev nD) :
    (V4 m ρ c (Pipeline.arrRef spec2 5) : FVec Ideal S384x32 .f32) = m ((c : Thread nD τ).loc main_arg7) := by
  show StableHlo.after hostOps2 (W3 m ρ c) (Proc.devRef .tc main_arg7) = _
  refine (StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans ?_
  exact ((W3_of_ne m ρ c main_arg7 (by decide)).trans ((W2_of_ne m ρ c main_arg7 (by decide)).trans (StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))))

theorem r2_W2 (c : Dev nD) :
    (V4 m ρ c (Pipeline.arrRef spec2 7) : FVec Ideal S32x128 .f32) = m ((c : Thread nD τ).loc main_arg9) := by
  show StableHlo.after hostOps2 (W3 m ρ c) (Proc.devRef .tc main_arg9) = _
  refine (StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans ?_
  exact ((W3_of_ne m ρ c main_arg9 (by decide)).trans ((W2_of_ne m ρ c main_arg9 (by decide)).trans (StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))))

theorem w3_b1 (c : Dev nD) : W3 m ρ c (Proc.devRef .tc main_arg8) = m ((c : Thread nD τ).loc main_arg8) :=
  ((W3_of_ne m ρ c main_arg8 (by decide)).trans ((W2_of_ne m ρ c main_arg8 (by decide)).trans (StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))))

theorem w3_b2 (c : Dev nD) : W3 m ρ c (Proc.devRef .tc main_arg10) = m ((c : Thread nD τ).loc main_arg10) :=
  ((W3_of_ne m ρ c main_arg10 (by decide)).trans ((W2_of_ne m ρ c main_arg10 (by decide)).trans (StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))))

theorem r2_b1 (c : Dev nD) :
    (V4 m ρ c (Pipeline.arrRef spec2 6) : FVec Ideal S1x32 .f32)
      = shapeCast S1x32 (m ((c : Thread nD τ).loc main_arg8) : FVec Ideal S32 .f32) shapeCasts_S32_S1x32 := by
  show StableHlo.after hostOps2 (W3 m ρ c) (Proc.devRef .tc main_v6) = _
  after_results
  rw [w3_b1 m ρ c]
  rfl

theorem r2_b2 (c : Dev nD) :
    (V4 m ρ c (Pipeline.arrRef spec2 8) : FVec Ideal S1x128 .f32)
      = shapeCast S1x128 (m ((c : Thread nD τ).loc main_arg10) : FVec Ideal S128 .f32) shapeCasts_S128_S1x128 := by
  show StableHlo.after hostOps2 (W3 m ρ c) (Proc.devRef .tc main_v7) = _
  after_results
  rw [w3_b2 m ρ c]
  rfl

/-- The result buffer after the run is the last kernel's result array after its write-back. -/
theorem result (c : Dev nD) : W5 m ρ c (Proc.devRef .tc main_v8) = (dat2 (V4 m ρ) c).arrAt 9 cfg2.N :=
  W5_arr m ρ c 9

end Cert.KernelIdeal.Thread

end
-- ==== Proof.R0Pieces.lean ====
/-
  What one grid point of the edges' reduction leaves in its two carried blocks, as pure terms of what the point loads.

  The body adds to the [1,256,128] sums block two matrix products of the one-hot matrix of the tile's index column
  against the tile's masked rows (the rows themselves, then the rows minus themselves), and to the [1,1,256] counts
  block the column sums of the one-hot matrix. At the first tile of a core's run it first stores zeros in both
  blocks and reads them back; elsewhere it reads what the tile before left. Each block's last store is of the whole
  block, so it alone decides what the block holds; a load of a block right after a whole-block store reads that
  store's value.
-/
import proofs.«425581_j16449724745524_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.R0

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The sums block after a tile, from the block before it: both products added. -/
abbrev stepS (idx : Vec F S10000x1 .i32) (mask : Vec F S10000x1 .f32) (attr : Vec F S10000x128 .f32)
    (acc : Vec F S1x256x128 .f32) : Vec F S1x256x128 .f32 :=
  k0_pay8 idx mask attr (k0_pay7 idx mask attr acc)

/-- The counts block after a tile, from the block before it. -/
abbrev stepC (idx : Vec F S10000x1 .i32) (acc : Vec F S1x1x256 .f32) : Vec F S1x1x256 .f32 :=
  k0_pay1 (k0_pay4 idx) acc

/-- First tile of a run, sums: the step from the zero block. -/
theorem outA_3 (c : Dev nD) (i : grid0.Coords) (arg2 : Memref sig .tc .vmem S10000x128 .f32) (harg2 : arg2.IsWhole) (arg3 : Memref sig .tc .vmem S10000x1 .f32) (harg3 : arg3.IsWhole) (arg4 : Memref sig .tc .vmem S10000x1 .i32) (harg4 : arg4.IsWhole) (arg5 : Memref sig .tc .vmem S1x256x128 .f32) (harg5 : arg5.IsWhole) (arg6 : Memref sig .tc .vmem S1x1x256 .f32) (harg6 : arg6.IsWhole) (hc0 : cond0_0 i)
    (x0 : Vec F S10000x128 .f32) (x1 : Vec F S10000x1 .f32) (x2 : Vec F S10000x1 .i32) :
    out0_A_3 c i arg2 harg2 arg3 harg3 arg4 harg4 arg5 harg5 arg6 harg6 hc0 x0 x1 x2 = stepS x2 x1 x0 k0_pay2 := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_cons_unit_zero (S := S1x256x128) hz3]
  simp only [View.readCov_cons_toLoadRect, View.readAt_eq_ld, harg2.read_unread, harg3.read_unread, harg4.read_unread,
    View.ld_unit_zero (S := S10000x1) hz2, View.ld_unit_zero (S := S10000x128) hz2]

/-- First tile of a run, counts: the step from the zero block. -/
theorem outA_4 (c : Dev nD) (i : grid0.Coords) (arg2 : Memref sig .tc .vmem S10000x128 .f32) (harg2 : arg2.IsWhole) (arg3 : Memref sig .tc .vmem S10000x1 .f32) (harg3 : arg3.IsWhole) (arg4 : Memref sig .tc .vmem S10000x1 .i32) (harg4 : arg4.IsWhole) (arg5 : Memref sig .tc .vmem S1x256x128 .f32) (harg5 : arg5.IsWhole) (arg6 : Memref sig .tc .vmem S1x1x256 .f32) (harg6 : arg6.IsWhole) (hc0 : cond0_0 i)
    (x0 : Vec F S10000x128 .f32) (x1 : Vec F S10000x1 .f32) (x2 : Vec F S10000x1 .i32) :
    out0_A_4 c i arg2 harg2 arg3 harg3 arg4 harg4 arg5 harg5 arg6 harg6 hc0 x0 x1 x2 = stepC x2 k0_pay3 := by
  unfold out0_A_4
  rw [View.read_writes_eq_canon _ _ _ (cover0_A_4 c i arg2 harg2 arg3 harg3 arg4 harg4 arg5 harg5 arg6 harg6 hc0 x0 x1 x2)]
  unfold kernelRun0_A
  dsimp only
  sl_unfold_words
  rw [View.canon_cons_unit_zero (S := S1x1x256) hz3]
  simp only [View.readCov_unit_zero (S := S1x1x256) _ hz3, View.readAt_eq_ld, harg4.read_unread,
    View.ld_unit_zero (S := S10000x1) hz2]

/-- A later tile, sums: the step from what the tile before left. -/
theorem outB_3 (c : Dev nD) (i : grid0.Coords) (arg2 : Memref sig .tc .vmem S10000x128 .f32) (harg2 : arg2.IsWhole) (arg3 : Memref sig .tc .vmem S10000x1 .f32) (harg3 : arg3.IsWhole) (arg4 : Memref sig .tc .vmem S10000x1 .i32) (harg4 : arg4.IsWhole) (arg5 : Memref sig .tc .vmem S1x256x128 .f32) (harg5 : arg5.IsWhole) (arg6 : Memref sig .tc .vmem S1x1x256 .f32) (harg6 : arg6.IsWhole) (hc0 : ¬cond0_0 i)
    (x0 : Vec F S10000x128 .f32) (x1 : Vec F S10000x1 .f32) (x2 : Vec F S10000x1 .i32)
    (xo3 : Vec F S1x256x128 .f32) (xo4 : Vec F S1x1x256 .f32) :
    out0_B_3 c i arg2 harg2 arg3 harg3 arg4 harg4 arg5 harg5 arg6 harg6 hc0 x0 x1 x2 xo3 xo4 = stepS x2 x1 x0 xo3 := by
  unfold out0_B_3
  rw [View.read_writes_eq_canon _ _ _ (cover0_B_3 c i arg2 harg2 arg3 harg3 arg4 harg4 arg5 harg5 arg6 harg6 hc0 x0 x1 x2 xo3 xo4)]
  unfold kernelRun0_B
  dsimp only
  sl_unfold_words
  rw [View.canon_cons_unit_zero (S := S1x256x128) hz3]
  simp only [View.readCov_cons_toLoadRect, View.readAt_eq_ld, harg2.read_unread, harg3.read_unread, harg4.read_unread,
    harg5.read_unread, View.ld_unit_zero (S := S10000x1) hz2, View.ld_unit_zero (S := S10000x128) hz2,
    View.ld_unit_zero (S := S1x256x128) hz3]

/-- A later tile, counts: the step from what the tile before left. -/
theorem outB_4 (c : Dev nD) (i : grid0.Coords) (arg2 : Memref sig .tc .vmem S10000x128 .f32) (harg2 : arg2.IsWhole) (arg3 : Memref sig .tc .vmem S10000x1 .f32) (harg3 : arg3.IsWhole) (arg4 : Memref sig .tc .vmem S10000x1 .i32) (harg4 : arg4.IsWhole) (arg5 : Memref sig .tc .vmem S1x256x128 .f32) (harg5 : arg5.IsWhole) (arg6 : Memref sig .tc .vmem S1x1x256 .f32) (harg6 : arg6.IsWhole) (hc0 : ¬cond0_0 i)
    (x0 : Vec F S10000x128 .f32) (x1 : Vec F S10000x1 .f32) (x2 : Vec F S10000x1 .i32)
    (xo3 : Vec F S1x256x128 .f32) (xo4 : Vec F S1x1x256 .f32) :
    out0_B_4 c i arg2 harg2 arg3 harg3 arg4 harg4 arg5 harg5 arg6 harg6 hc0 x0 x1 x2 xo3 xo4 = stepC x2 xo4 := by
  unfold out0_B_4
  rw [View.read_writes_eq_canon _ _ _ (cover0_B_4 c i arg2 harg2 arg3 harg3 arg4 harg4 arg5 harg5 arg6 harg6 hc0 x0 x1 x2 xo3 xo4)]
  unfold kernelRun0_B
  dsimp only
  sl_unfold_words
  rw [View.canon_unit_zero (S := S1x1x256) hz3]
  simp only [View.readAt_eq_ld, harg4.read_unread, harg6.read_unread, View.ld_unit_zero (S := S10000x1) hz2,
    View.ld_unit_zero (S := S1x1x256) hz3]

end Cert.KernelIdeal.R0

end
-- ==== Proof.Tail.lean ====
/-
  The value both programs compute, as one term of named pieces.

  For one aggregate (the edges', the nodes'): `seg` is the masked segment sum — bucket `b`, feature `d` holds the
  sum of `attr[n, d] · mask[n]` over the rows `n` whose index is `b` —, `cnt` the number of such rows, and `agg` the
  mean `seg / max(cnt, 1)`. `tail` lays the global features and the two means side by side, 384 features a bucket,
  and applies the two-layer perceptron: `max(x · W1 + b1, 0) · W2 + b2`. They are written with the reference's own
  operations, so that the reference's result is this term by definition.

  `sum2` and `cnt2` add the two per-core partial results of a reduction (slot 0 and slot 1 of its leading axis);
  `row` reads a bias that was reshaped to one row back as a vector.
-/
import proofs.«425581_j16449724745524_3_alg».proof.ReferenceIdeal
import proofs.«425581_j16449724745524_3_alg».proof.KernelIdeal
import proofs.«425581_j16449724745524_3_alg».proof.Proof.Gen.ReferenceIdeal
import Idealize.ShloMosaic.PureOps.Ideal
import Idealize.ShloMosaic.Lib.ValueIdx

noncomputable section

namespace Cert.Bridge

open Idealize.ShloMosaic Idealize.ShloMosaic.ValueIdx
open Cert.ReferenceIdeal Cert.ReferenceIdeal.Facts₀

/-- The mean of a bucket: its sum over `max(count, 1)`, the divisor laid along the features. -/
def agg (sums : FVec Ideal S256x128 .f32) (cnt : FVec Ideal S256 .f32) : FVec Ideal S256x128 .f32 :=
  Host.divf (F := Ideal) sums (broadcastInDim S256x128 ![0, 1] bcast_S256x1_S256x128_0_1
    (broadcastInDim S256x1 ![0] bcast_S256_S256x1_0
      (maximumf cnt (broadcastInDim S256 ![] bcast_S_S256 (constant (F := Ideal) S_ .f32 0x3F800000#32)))))

/-- The perceptron over the three feature blocks laid side by side. -/
def tail (g aE aN : FVec Ideal S256x128 .f32) (W1 : FVec Ideal S384x32 .f32) (b1 : FVec Ideal S32 .f32)
    (W2 : FVec Ideal S32x128 .f32) (b2 : FVec Ideal S128 .f32) : FVec Ideal S256x128 .f32 :=
  addf (Host.dotGeneral (F := Ideal) dot_S256x32_S32x128_S256x128_1_0_0_1_n_n none
      (maximumf (addf (Host.dotGeneral (F := Ideal) dot_S256x384_S384x32_S256x32_1_0_0_1_n_n none
          (concatenate S256x384 1 [⟨S256x128, g⟩, ⟨S256x128, aE⟩, ⟨S256x128, aN⟩]
            concatenates_S256x128_S256x128_S256x128_S256x384_d1) W1)
        (broadcastInDim S256x32 ![0, 1] bcast_S1x32_S256x32_0_1 (broadcastInDim S1x32 ![1] bcast_S32_S1x32_1 b1)))
        (broadcastInDim S256x32 ![] bcast_S_S256x32 (constant (F := Ideal) S_ .f32 0x00000000#32))) W2)
    (broadcastInDim S256x128 ![0, 1] bcast_S1x128_S256x128_0_1 (broadcastInDim S1x128 ![1] bcast_S128_S1x128_1 b2))

/-- The edges' masked segment sum. -/
def segE (idx : IVec S600000 32) (attr : FVec Ideal S600000x128 .f32) (mask : FVec Ideal S600000 .f32) :
    FVec Ideal S256x128 .f32 :=
  Host.scatterAdd (F := Ideal) scatter_S256x128_S600000x1_S600000x128_1_0_0_1
    (broadcastInDim S256x128 ![] bcast_S_S256x128 (constant (F := Ideal) S_ .f32 0x00000000#32))
    (broadcastInDim S600000x1 ![0] bcast_S600000_S600000x1_0 idx)
    (mulf attr (broadcastInDim S600000x128 ![0, 1] bcast_S600000x1_S600000x128_0_1
      (broadcastInDim S600000x1 ![0] bcast_S600000_S600000x1_0 mask)))

/-- The edges' bucket counts. -/
def cntE (idx : IVec S600000 32) : FVec Ideal S256 .f32 :=
  Host.scatterAdd (F := Ideal) scatter_S256_S600000x1_S600000_n_0_0_1
    (broadcastInDim S256 ![] bcast_S_S256 (constant (F := Ideal) S_ .f32 0x00000000#32))
    (broadcastInDim S600000x1 ![0] bcast_S600000_S600000x1_0 idx)
    (broadcastInDim S600000 ![] bcast_S_S600000 (constant (F := Ideal) S_ .f32 0x3F800000#32))

/-- The nodes' masked segment sum. -/
def segN (idx : IVec S500000 32) (attr : FVec Ideal S500000x128 .f32) (mask : FVec Ideal S500000 .f32) :
    FVec Ideal S256x128 .f32 :=
  Host.scatterAdd (F := Ideal) scatter_S256x128_S500000x1_S500000x128_1_0_0_1
    (broadcastInDim S256x128 ![] bcast_S_S256x128 (constant (F := Ideal) S_ .f32 0x00000000#32))
    (broadcastInDim S500000x1 ![0] bcast_S500000_S500000x1_0 idx)
    (mulf attr (broadcastInDim S500000x128 ![0, 1] bcast_S500000x1_S500000x128_0_1
      (broadcastInDim S500000x1 ![0] bcast_S500000_S500000x1_0 mask)))

/-- The nodes' bucket counts. -/
def cntN (idx : IVec S500000 32) : FVec Ideal S256 .f32 :=
  Host.scatterAdd (F := Ideal) scatter_S256_S500000x1_S500000_n_0_0_1
    (broadcastInDim S256 ![] bcast_S_S256 (constant (F := Ideal) S_ .f32 0x00000000#32))
    (broadcastInDim S500000x1 ![0] bcast_S500000_S500000x1_0 idx)
    (broadcastInDim S500000 ![] bcast_S_S500000 (constant (F := Ideal) S_ .f32 0x3F800000#32))

/-- The one-hot factor of row index word `w` against bucket `b`. -/
def hot (w : BitVec 32) (b : Fin 256) : EReal := if w = BitVec.ofNat 32 b.val then 1 else 0

/-- The two per-core partial sums added: bucket `b`, feature `d`. -/
def sum2 (x : FVec Ideal Cert.KernelIdeal.S2x256x128 .f32) : FVec Ideal S256x128 .f32 :=
  fun i => x (ix3 (0 : Fin 2) (i 0 : Fin 256) (i 1 : Fin 128)) + x (ix3 (1 : Fin 2) (i 0 : Fin 256) (i 1 : Fin 128))

/-- The two per-core partial counts added: bucket `b`. -/
def cnt2 (x : FVec Ideal Cert.KernelIdeal.S2x1x256 .f32) : FVec Ideal S256 .f32 :=
  fun i => x (ix3 (0 : Fin 2) (0 : Fin 1) (i 0 : Fin 256)) + x (ix3 (1 : Fin 2) (0 : Fin 1) (i 0 : Fin 256))

/-- The first-layer bias, reshaped to one row, read back as a vector. -/
def row32 (x : FVec Ideal S1x32 .f32) : FVec Ideal S32 .f32 := fun i => x (ix2 (0 : Fin 1) (i 0 : Fin 32))

/-- The second-layer bias, reshaped to one row, read back as a vector. -/
def row128 (x : FVec Ideal S1x128 .f32) : FVec Ideal S128 .f32 := fun i => x (ix2 (0 : Fin 1) (i 0 : Fin 128))

end Cert.Bridge

end
-- ==== Proof.R0Step.lean ====
/-
  One tile's step of the edges' reduction, read at an index over the extended reals.

  The one-hot matrix has a 1 at (row r, bucket b) exactly when row r's index word is b, else 0. The sums block gains,
  at bucket b and feature d, the sum over the tile's rows of that factor times `attr[r, d] · mask[r]`: the first
  product contributes exactly this, and the second contributes the same sum with `x − x` in place of `x`, which is a
  sum of zeros because every masked entry is a finite real (at an infinity `x − x` would not be zero: here, and only
  here, finiteness of the inputs is used). The counts block gains at bucket b the number of the tile's rows whose
  index is b. A change of float format is the identity over the extended reals.
-/
import proofs.«425581_j16449724745524_3_alg».proof.Proof.Tail
import proofs.«425581_j16449724745524_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.Bridge

open Idealize.ShloMosaic Idealize.ShloMosaic.ValueIdx
open Cert.KernelIdeal Cert.KernelIdeal.Gen

/-! ## Words: the comparison bit as a number -/

/-- The comparison bit of two words, widened to a word and converted, is 1 when they are equal and 0 otherwise. -/
private theorem sitofp_eq_bit (x y : BitVec 32) :
    (FloatOps.sitofp .f32 ((IntOp.cmpi .eq x y).setWidth 32) : Ideal .f32) = if x = y then (1 : EReal) else 0 := by
  by_cases h : x = y
  · have hb : IntOp.cmpi .eq x y = 1#1 := by
      show BitVec.ofBool (x == y) = 1#1
      rw [beq_iff_eq.mpr h]; rfl
    rw [if_pos h, hb]
    show ((((1#1 : BitVec 1).setWidth 32).toInt : ℝ) : EReal) = 1
    have e : ((1#1 : BitVec 1).setWidth 32).toInt = 1 := by decide
    rw [e]; norm_num
  · have hb : IntOp.cmpi .eq x y = 0#1 := by
      show BitVec.ofBool (x == y) = 0#1
      rw [beq_eq_false_iff_ne.mpr h]; rfl
    rw [if_neg h, hb]
    show ((((0#1 : BitVec 1).setWidth 32).toInt : ℝ) : EReal) = 0
    have e : ((0#1 : BitVec 1).setWidth 32).toInt = 0 := by decide
    rw [e]; norm_num

/-! ## The two operands at an index -/

/-- A column `[n, 1]` laid along `m` lanes reads, at (r, c), the column at (r, 0). -/
private theorem column_apply {α : Type} (x : S10000x1.Idx → α) {m : ℕ}
    (h : S10000x1.Broadcasts ⟨2, ![10000, m]⟩) (r : Fin 10000) (c : Fin m) :
    broadcastTo ⟨2, ![10000, m]⟩ x h (ix2 r c) = x (ix2 r (0 : Fin 1)) := by
  refine broadcastTo_apply x h (ix2 r c) (ix2 r (0 : Fin 1)) ?_
  intro a
  match a with
  | ⟨0, _⟩ => show r.val = if (10000 : ℕ) = 1 then 0 else r.val; rw [if_neg (by decide)]
  | ⟨1, _⟩ => show 0 = if (1 : ℕ) = 1 then 0 else c.val; rw [if_pos rfl]

/-- The one-hot matrix at (row r, bucket b): 1 when row r's index word is the word of b, else 0. -/
private theorem onehot_apply (idx : IVec S10000x1 32) (r : Fin 10000) (b : Fin 256) :
    k0_pay4 (F := Ideal) idx (ix2 r b) = hot (idx (ix2 r (0 : Fin 1))) b := by
  unfold k0_pay4
  have e2 : broadcastTo S10000x256 (shapeCast S10000x1 idx Facts₀.shapeCasts_S10000x1_S10000x1)
      Facts₀.broadcasts_S10000x1_S10000x256 (ix2 r b) = idx (ix2 r (0 : Fin 1)) :=
    (column_apply _ Facts₀.broadcasts_S10000x1_S10000x256 r b).trans
      (congrFun (shapeCast_self idx Facts₀.shapeCasts_S10000x1_S10000x1) _)
  have e3 : iota .tc S10000x256 32 [1] Facts₀.iota_S10000x256_d1_w32 (ix2 r b) = BitVec.ofNat 32 b.val :=
    iota_single_apply .tc S10000x256 32 1 _ (ix2 r b)
  show (FloatOps.sitofp .f32 ((IntOp.cmpi .eq
      (broadcastTo S10000x256 (shapeCast S10000x1 idx Facts₀.shapeCasts_S10000x1_S10000x1)
        Facts₀.broadcasts_S10000x1_S10000x256 (ix2 r b))
      (iota .tc S10000x256 32 [1] Facts₀.iota_S10000x256_d1_w32 (ix2 r b))).setWidth 32) : Ideal .f32) = _
  rw [e2, e3]
  exact sitofp_eq_bit _ _

/-- The masked features at (row r, feature d): `attr[r, d] · mask[r]`. -/
private theorem masked_apply (mask : FVec Ideal S10000x1 .f32) (attr : FVec Ideal S10000x128 .f32) (r : Fin 10000) (d : Fin 128) :
    k0_pay6 (F := Ideal) mask attr (ix2 r d) = attr (ix2 r d) * mask (ix2 r (0 : Fin 1)) := by
  unfold k0_pay6
  refine (mulf_apply _ _ _).trans ?_
  exact congrArg (attr (ix2 r d) * ·)
    ((column_apply _ Facts₀.broadcasts_S10000x1_S10000x128 r d).trans
      (congrFun (shapeCast_self mask Facts₀.shapeCasts_S10000x1_S10000x1) _))

/-! ## The product over the tile's rows, read at an index -/

private theorem lhs_tile_0 (j : S256x128.Idx) (q : dot_S10000x256_S10000x128_S256x128_0_0_1_1_n_n.contr.Idx) :
    (dot_S10000x256_S10000x128_S256x128_0_0_1_1_n_n.lhsIdx j q 0).val = (q ⟨0, by decide⟩).val :=
  dot_S10000x256_S10000x128_S256x128_0_0_1_1_n_n.lhsIdx_val_of_single rfl j q
private theorem lhs_tile_1 (j : S256x128.Idx) (q : dot_S10000x256_S10000x128_S256x128_0_0_1_1_n_n.contr.Idx) :
    (dot_S10000x256_S10000x128_S256x128_0_0_1_1_n_n.lhsIdx j q 1).val = (j 0).val := by
  unfold DotDims.lhsIdx
  rw [dif_neg (show ¬(1 : Fin S10000x256.rank) ∈ dot_S10000x256_S10000x128_S256x128_0_0_1_1_n_n.lhsBatch by decide), dif_pos (show (1 : Fin S10000x256.rank) ∈ dot_S10000x256_S10000x128_S256x128_0_0_1_1_n_n.lhsNonContracting by decide)]
  rfl
private theorem rhs_tile_0 (j : S256x128.Idx) (q : dot_S10000x256_S10000x128_S256x128_0_0_1_1_n_n.contr.Idx) :
    (dot_S10000x256_S10000x128_S256x128_0_0_1_1_n_n.rhsIdx j q 0).val = (q ⟨0, by decide⟩).val :=
  dot_S10000x256_S10000x128_S256x128_0_0_1_1_n_n.rhsIdx_val_of_single rfl j q
private theorem rhs_tile_1 (j : S256x128.Idx) (q : dot_S10000x256_S10000x128_S256x128_0_0_1_1_n_n.contr.Idx) :
    (dot_S10000x256_S10000x128_S256x128_0_0_1_1_n_n.rhsIdx j q 1).val = (j 1).val := by
  unfold DotDims.rhsIdx
  rw [dif_neg (show ¬(1 : Fin S10000x128.rank) ∈ dot_S10000x256_S10000x128_S256x128_0_0_1_1_n_n.rhsBatch by decide), dif_pos (show (1 : Fin S10000x128.rank) ∈ dot_S10000x256_S10000x128_S256x128_0_0_1_1_n_n.rhsNonContracting by decide)]
  rfl

/-- A product contracting the rows of both operands into a zero block, read at bucket b and feature d: the sum over
    the tile's rows r of `lhs[r, b] · rhs[r, d]`. -/
private theorem matmul_tile_apply (lhs : FVec Ideal S10000x256 .bf16) (rhs : FVec Ideal S10000x128 .bf16) (b : Fin 256) (d : Fin 128) :
    matmul (F := Ideal) dot_S10000x256_S10000x128_S256x128_0_0_1_1_n_n none lhs rhs (constant (F := Ideal) S256x128 .f32 0x00000000#32) (ix2 b d)
      = ∑ r : Fin 10000, lhs (ix2 r b) * rhs (ix2 r d) := by
  simp only [matmul]
  rw [Ideal.matmul_constant_zero_apply, ← Equiv.sum_comp (contrEquiv1 dot_S10000x256_S10000x128_S256x128_0_0_1_1_n_n 10000 rfl rfl).symm]
  refine Finset.sum_congr rfl fun k _ => ?_
  have hk := contrEquiv1_symm_val dot_S10000x256_S10000x128_S256x128_0_0_1_1_n_n 10000 rfl rfl k
  have el : dot_S10000x256_S10000x128_S256x128_0_0_1_1_n_n.lhsIdx (ix2 b d) ((contrEquiv1 dot_S10000x256_S10000x128_S256x128_0_0_1_1_n_n 10000 rfl rfl).symm k) = ix2 k b := funext fun a => Fin.ext (by
    match a with
    | ⟨0, _⟩ => exact (lhs_tile_0 _ _).trans hk
    | ⟨1, _⟩ => exact lhs_tile_1 _ _)
  have er : dot_S10000x256_S10000x128_S256x128_0_0_1_1_n_n.rhsIdx (ix2 b d) ((contrEquiv1 dot_S10000x256_S10000x128_S256x128_0_0_1_1_n_n 10000 rfl rfl).symm k) = ix2 k d := funext fun a => Fin.ext (by
    match a with
    | ⟨0, _⟩ => exact (rhs_tile_0 _ _).trans hk
    | ⟨1, _⟩ => exact rhs_tile_1 _ _)
  rw [el, er]

/-! ## A vector viewed as one row -/

/-- An `[a]` vector cast to `[1, a]` reads, at (u, i), the vector at i. -/
private theorem shapeCast_a_1a_apply {α : Type} {a : ℕ} (x : (⟨1, ![a]⟩ : Shape).Idx → α)
    (h : (⟨1, ![a]⟩ : Shape).ShapeCasts ⟨2, ![1, a]⟩) (u : Fin 1) (i : Fin a) :
    shapeCast ⟨2, ![1, a]⟩ x h (ix2 u i) = x (ix1 i) :=
  shapeCast_apply x h _ _ (by
    have hu : u.val = 0 := by omega
    rw [Shape.rowMajor_val_one, Shape.rowMajor_val_two]
    show i.val = u.val * a + i.val
    rw [hu, Nat.zero_mul, Nat.zero_add])

/-! ## The step -/

/-- One product added to a sums block, read at (0, b, d), for any right operand. -/
private theorem add_product_apply (lhs : FVec Ideal S10000x256 .bf16) (rhs : FVec Ideal S10000x128 .bf16)
    (v : FVec Ideal S1x256x128 .f32) (b : Fin 256) (d : Fin 128) :
    shapeCast S1x256x128 (addf (shapeCast S256x128 v Facts₀.shapeCasts_S1x256x128_S256x128)
        (matmul (F := Ideal) dot_S10000x256_S10000x128_S256x128_0_0_1_1_n_n none lhs rhs (constant (F := Ideal) S256x128 .f32 0x00000000#32)))
      Facts₀.shapeCasts_S256x128_S1x256x128 (ix3 (0 : Fin 1) b d)
      = v (ix3 (0 : Fin 1) b d) + ∑ r : Fin 10000, lhs (ix2 r b) * rhs (ix2 r d) := by
  refine (shapeCast_ab_1ab_apply _ Facts₀.shapeCasts_S256x128_S1x256x128 (0 : Fin 1) b d).trans ?_
  refine (addf_apply _ _ _).trans ?_
  exact congrArg₂ (· + ·) (shapeCast_1ab_ab_apply v Facts₀.shapeCasts_S1x256x128_S256x128 b d)
    (matmul_tile_apply lhs rhs b d)

theorem step0S_apply (idx : IVec S10000x1 32) (mask : FVec Ideal S10000x1 .f32) (attr : FVec Ideal S10000x128 .f32)
    (acc : FVec Ideal S1x256x128 .f32)
    (hattr : ∀ (r : Fin 10000) (d : Fin 128), ∃ a : ℝ, attr (ix2 r d) = (a : EReal))
    (hmask : ∀ r : Fin 10000, ∃ a : ℝ, mask (ix2 r (0 : Fin 1)) = (a : EReal))
    (b : Fin 256) (d : Fin 128) :
    k0_pay8 (F := Ideal) idx mask attr (k0_pay7 (F := Ideal) idx mask attr acc) (ix3 (0 : Fin 1) b d)
      = acc (ix3 (0 : Fin 1) b d)
        + ∑ r : Fin 10000, hot (idx (ix2 r (0 : Fin 1))) b * (attr (ix2 r d) * mask (ix2 r (0 : Fin 1))) := by
  -- the first product: the one-hot factor times the masked entry, row by row
  have h7 : k0_pay7 (F := Ideal) idx mask attr acc (ix3 (0 : Fin 1) b d)
      = acc (ix3 (0 : Fin 1) b d)
        + ∑ r : Fin 10000, hot (idx (ix2 r (0 : Fin 1))) b * (attr (ix2 r d) * mask (ix2 r (0 : Fin 1))) := by
    unfold k0_pay7
    refine (add_product_apply _ _ acc b d).trans ?_
    refine congrArg (acc (ix3 (0 : Fin 1) b d) + ·) (Finset.sum_congr rfl fun r _ => ?_)
    show k0_pay4 (F := Ideal) idx (ix2 r b) * k0_pay6 (F := Ideal) mask attr (ix2 r d) = _
    rw [onehot_apply, masked_apply]
  -- the second product: the same factor times `x − x` of a finite `x`, a sum of zeros
  have h8 : ∀ v : FVec Ideal S1x256x128 .f32,
      k0_pay8 (F := Ideal) idx mask attr v (ix3 (0 : Fin 1) b d) = v (ix3 (0 : Fin 1) b d) := by
    intro v
    unfold k0_pay8
    refine (add_product_apply _ _ v b d).trans ?_
    have hz : ∀ r : Fin 10000,
        k0_pay4 (F := Ideal) idx (ix2 r b)
          * (k0_pay6 (F := Ideal) mask attr (ix2 r d) - k0_pay6 (F := Ideal) mask attr (ix2 r d)) = 0 := by
      intro r
      obtain ⟨a, ha⟩ := hattr r d
      obtain ⟨m, hm⟩ := hmask r
      rw [masked_apply, ha, hm, ← EReal.coe_mul, ← EReal.coe_sub, sub_self, EReal.coe_zero, mul_zero]
    have hs : (∑ r : Fin 10000, k0_pay5 (F := Ideal) idx (ix2 r b)
          * (truncf .bf16 (subf (k0_pay6 (F := Ideal) mask attr) (k0_pay6 (F := Ideal) mask attr)) Facts₀.bitsLt_bf16_f32
              : FVec Ideal S10000x128 .bf16) (ix2 r d)) = 0 :=
      (Finset.sum_congr rfl fun r _ => hz r).trans Finset.sum_const_zero
    exact (congrArg (v (ix3 (0 : Fin 1) b d) + ·) hs).trans (add_zero _)
  rw [h8, h7]

theorem step0C_apply (idx : IVec S10000x1 32) (acc : FVec Ideal S1x1x256 .f32) (b : Fin 256) :
    k0_pay1 (F := Ideal) (k0_pay4 (F := Ideal) idx) acc (ix3 (0 : Fin 1) (0 : Fin 1) b)
      = acc (ix3 (0 : Fin 1) (0 : Fin 1) b) + ∑ r : Fin 10000, hot (idx (ix2 r (0 : Fin 1))) b := by
  unfold k0_pay1
  refine (shapeCast_ab_1ab_apply _ Facts₀.shapeCasts_S1x256_S1x1x256 (0 : Fin 1) (0 : Fin 1) b).trans ?_
  refine (addf_apply _ _ _).trans ?_
  refine congrArg₂ (· + ·) (shapeCast_1ab_ab_apply acc Facts₀.shapeCasts_S1x1x256_S1x256 (0 : Fin 1) b) ?_
  refine (shapeCast_a_1a_apply _ Facts₀.shapeCasts_S256_S1x256 (0 : Fin 1) b).trans ?_
  -- the lane sum down the rows, at bucket b
  refine (Ideal.multiReduction_add_single (k0_pay4 (F := Ideal) idx) 0x00000000#32 Facts₀.reduces_S10000x256_S256
    (.inl rfl) rfl (ix1 b)).trans ?_
  show ∑ r : Fin 10000, k0_pay4 (F := Ideal) idx (Shape.Reduces.lift Facts₀.reduces_S10000x256_S256 (ix1 b) r) = _
  refine Finset.sum_congr rfl fun r _ => ?_
  have e : Shape.Reduces.lift Facts₀.reduces_S10000x256_S256 (ix1 b) r = ix2 r b :=
    funext fun a => Fin.ext (by
      match a with
      | ⟨0, _⟩ => rfl
      | ⟨1, _⟩ => rfl)
  rw [e]
  exact onehot_apply idx r b

theorem zero0S_apply (i : S1x256x128.Idx) : k0_pay2 (F := Ideal) i = 0 := by
  obtain ⟨u, b, d, rfl⟩ : ∃ (u : Fin 1) (b : Fin 256) (d : Fin 128), i = ix3 u b d := ⟨i 0, i 1, i 2, eq_ix3 i⟩
  unfold k0_pay2
  refine (shapeCast_ab_1ab_apply _ Facts₀.shapeCasts_S256x128_S1x256x128 u b d).trans ?_
  exact Ideal.ofBits_zero_f32

theorem zero0C_apply (i : S1x1x256.Idx) : k0_pay3 (F := Ideal) i = 0 := by
  obtain ⟨u, v, b, rfl⟩ : ∃ (u : Fin 1) (v : Fin 1) (b : Fin 256), i = ix3 u v b := ⟨i 0, i 1, i 2, eq_ix3 i⟩
  unfold k0_pay3
  refine (shapeCast_ab_1ab_apply _ Facts₀.shapeCasts_S1x256_S1x1x256 u v b).trans ?_
  exact Ideal.ofBits_zero_f32

end Cert.Bridge

end
-- ==== Proof.LibSegSum.lean ====
/-
  General facts about finite sums over the extended reals, as a segmented sum meets them.

  A segment sum written with a one-hot factor, `∑ r, [p r] · g r`, is the sum of `g` over the rows that satisfy
  `p`; a sum over `m · R` consecutive naturals is the sum, block by block, of `R` consecutive terms; a real number
  minus itself is zero in the extended reals (which fails at the infinities: `⊤ - ⊤ = ⊥`). None of these needs
  anything of the addends beyond membership of a commutative additive monoid, except the last, which needs finiteness.
-/
import Mathlib.Data.EReal.Operations
import Mathlib.Algebra.BigOperators.Group.Finset.Basic
import Mathlib.Algebra.BigOperators.Fin

namespace SegSum

open Finset

/-- A finite extended real minus itself is zero. -/
theorem coe_sub_self (a : ℝ) : ((a : EReal) - (a : EReal)) = 0 := by
  rw [← EReal.coe_sub, sub_self, EReal.coe_zero]

/-- A one-hot factor selects: `∑ r, [p r] · g r` is the sum of `g` over the `r` with `p r`. -/
theorem sum_onehot_mul {ι : Type*} [Fintype ι] (p : ι → Prop) [DecidablePred p] (g : ι → EReal) :
    (∑ r, (if p r then (1 : EReal) else 0) * g r) = ∑ r ∈ univ.filter p, g r := by
  rw [Finset.sum_filter]
  refine Finset.sum_congr rfl fun r _ => ?_
  by_cases h : p r
  · rw [if_pos h, if_pos h, one_mul]
  · rw [if_neg h, if_neg h, zero_mul]

/-- A one-hot factor with nothing beside it counts: `∑ r, [p r]` is the sum of ones over the `r` with `p r`. -/
theorem sum_onehot {ι : Type*} [Fintype ι] (p : ι → Prop) [DecidablePred p] :
    (∑ r, (if p r then (1 : EReal) else 0)) = ∑ _r ∈ univ.filter p, (1 : EReal) := by
  rw [Finset.sum_filter]

/-- `m · R` consecutive terms, summed block by block: block `k` holds the terms `k · R … k · R + R - 1`. -/
theorem sum_range_mul {M : Type*} [AddCommMonoid M] (f : ℕ → M) (R : ℕ) :
    ∀ m : ℕ, (∑ n ∈ range (m * R), f n) = ∑ k ∈ range m, ∑ r ∈ range R, f (k * R + r)
  | 0 => by simp
  | m + 1 => by
    rw [Nat.succ_mul, Finset.sum_range_add, sum_range_mul f R m, Finset.sum_range_succ]

/-- The same with the block number itself split in two: `C` groups of `T` blocks of `R` terms. -/
theorem sum_range_mul_mul {M : Type*} [AddCommMonoid M] (f : ℕ → M) (C T R : ℕ) :
    (∑ n ∈ range (C * T * R), f n) = ∑ c ∈ range C, ∑ s ∈ range T, ∑ r ∈ range R, f ((c * T + s) * R + r) := by
  rw [sum_range_mul f R (C * T), sum_range_mul (fun k => ∑ r ∈ range R, f (k * R + r)) T C]

/-- A sum over `Fin n` of a function of the value is the sum over `range n`. -/
theorem sum_fin_eq_sum_range {M : Type*} [AddCommMonoid M] (f : ℕ → M) (n : ℕ) :
    (∑ i : Fin n, f i.val) = ∑ i ∈ range n, f i := (Finset.sum_range f).symm

end SegSum
-- ==== Proof.R0Value.lean ====
/-
  What the edges' reduction leaves in its two result arrays.

  The grid is two core runs of thirty tiles of ten thousand rows. Within a run the sums block and the counts block are
  carried from tile to tile: the run's first tile starts them from zero, every tile adds its own addend — for the sums,
  at bucket `b` and feature `d`, the sum over the tile's rows of the one-hot factor of the row's index against `b`
  times `attr[row, d] · mask[row]`; for the counts the sum of the one-hot factors — and the run's last tile writes the
  blocks back to core slot `k` of the result arrays. So slot `k` holds the sum of its thirty tiles' addends, and the
  two slots added hold the sum over ALL rows: a sum over `2 · 30 · 10000` consecutive row numbers, block by block.
  Tile `t`'s row `r` is row `10000 t + r` of the arrays as the region finds them. That every masked attribute is
  a real number is used once, for the tile's second product (of `x − x`).
-/
import proofs.«425581_j16449724745524_3_alg».proof.Proof.R0Pieces
import proofs.«425581_j16449724745524_3_alg».proof.Proof.R0Step
import proofs.«425581_j16449724745524_3_alg».proof.Proof.LibSegSum
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.R0

open Cert.KernelIdeal Cert.KernelIdeal.Gen Cert.Bridge

variable (V : (c : Dev nD) → (b : Ref sig .tc) → Buf (Elt Ideal) ((c : Thread nD τ).loc b))

/-! ## The index maps, decided over the sixty points -/

theorem index0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem index0_1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem index0_2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem index0_3 : ∀ t : Fin cfg0.N, win0_3.index t (0 : Fin 3) = t.val / 30 ∧ win0_3.index t (1 : Fin 3) = 0 ∧ win0_3.index t (2 : Fin 3) = 0 :=
  (by decide +kernel : ∀ t : Fin grid0.N, win0_3.index t (0 : Fin 3) = t.val / 30 ∧ win0_3.index t (1 : Fin 3) = 0 ∧ win0_3.index t (2 : Fin 3) = 0)
theorem index0_4 : ∀ t : Fin cfg0.N, win0_4.index t (0 : Fin 3) = t.val / 30 ∧ win0_4.index t (1 : Fin 3) = 0 ∧ win0_4.index t (2 : Fin 3) = 0 :=
  (by decide +kernel : ∀ t : Fin grid0.N, win0_4.index t (0 : Fin 3) = t.val / 30 ∧ win0_4.index t (1 : Fin 3) = 0 ∧ win0_4.index t (2 : Fin 3) = 0)

theorem N0 : cfg0.N = 60 := N_0

/-! ## The arrays as the region finds them, and a tile's blocks of them -/

/-- The attribute array, [600000, 128]. -/
abbrev attrA (c : Dev nD) : FVec Ideal S600000x128 .f32 := V c (Pipeline.arrRef spec0 0)
/-- The mask, as a column [600000, 1]. -/
abbrev maskA (c : Dev nD) : FVec Ideal S600000x1 .f32 := V c (Pipeline.arrRef spec0 1)
/-- The bucket indices, as a column [600000, 1]. -/
abbrev idxA (c : Dev nD) : IVec S600000x1 32 := V c (Pipeline.arrRef spec0 2)

/-- Tile `t`'s rows of the attributes. -/
abbrev attrB (c : Dev nD) (t : Fin cfg0.N) : FVec Ideal S10000x128 .f32 := iblk0 V c 0 t
/-- Tile `t`'s rows of the mask. -/
abbrev maskB (c : Dev nD) (t : Fin cfg0.N) : FVec Ideal S10000x1 .f32 := iblk0 V c 1 t
/-- Tile `t`'s rows of the indices. -/
abbrev idxB (c : Dev nD) (t : Fin cfg0.N) : IVec S10000x1 32 := iblk0 V c 2 t

theorem row_lt (t : Fin cfg0.N) (r : Fin 10000) : t.val * 10000 + r.val < 600000 := by
  have h1 := t.isLt; have e : cfg0.N = 60 := N0; have h2 := r.isLt; omega

/-- Row `r` of tile `t` is row `10000 t + r` of the array. -/
theorem attrB_apply (c : Dev nD) (t : Fin cfg0.N) (r : Fin 10000) (d : Fin 128) :
    attrB V c t (ix2 r d) = attrA V c (ix2 (⟨t.val * 10000 + r.val, row_lt t r⟩ : Fin 600000) d) := by
  show V c (Pipeline.arrRef spec0 0) (((cfg0.win 0).blk t).view.emb (ix2 r d)) = V c (Pipeline.arrRef spec0 0) _
  refine congrArg _ (funext fun a => Fin.ext ?_)
  match a with
  | ⟨0, _⟩ => show win0_0.index t 0 * 10000 + 1 * r.val = _; rw [(index0_0 t).1]; show _ = t.val * 10000 + r.val; omega
  | ⟨1, _⟩ => show win0_0.index t 1 * 128 + 1 * d.val = _; rw [(index0_0 t).2]; show _ = d.val; omega

theorem maskB_apply (c : Dev nD) (t : Fin cfg0.N) (r : Fin 10000) :
    maskB V c t (ix2 r (0 : Fin 1)) = maskA V c (ix2 (⟨t.val * 10000 + r.val, row_lt t r⟩ : Fin 600000) (0 : Fin 1)) := by
  show V c (Pipeline.arrRef spec0 1) (((cfg0.win 1).blk t).view.emb (ix2 r (0 : Fin 1))) = V c (Pipeline.arrRef spec0 1) _
  refine congrArg _ (funext fun a => Fin.ext ?_)
  match a with
  | ⟨0, _⟩ => show win0_1.index t 0 * 10000 + 1 * r.val = _; rw [(index0_1 t).1]; show _ = t.val * 10000 + r.val; omega
  | ⟨1, _⟩ => show win0_1.index t 1 * 1 + 1 * 0 = _; rw [(index0_1 t).2]; rfl

theorem idxB_apply (c : Dev nD) (t : Fin cfg0.N) (r : Fin 10000) :
    idxB V c t (ix2 r (0 : Fin 1)) = idxA V c (ix2 (⟨t.val * 10000 + r.val, row_lt t r⟩ : Fin 600000) (0 : Fin 1)) := by
  show V c (Pipeline.arrRef spec0 2) (((cfg0.win 2).blk t).view.emb (ix2 r (0 : Fin 1))) = V c (Pipeline.arrRef spec0 2) _
  refine congrArg _ (funext fun a => Fin.ext ?_)
  match a with
  | ⟨0, _⟩ => show win0_2.index t 0 * 10000 + 1 * r.val = _; rw [(index0_2 t).1]; show _ = t.val * 10000 + r.val; omega
  | ⟨1, _⟩ => show win0_2.index t 1 * 1 + 1 * 0 = _; rw [(index0_2 t).2]; rfl

/-! ## One row's addend, and a tile's -/

section Fold

variable (hattr : ∀ (c : Dev nD) (n : Fin 600000) (d : Fin 128), ∃ a : ℝ, attrA V c (ix2 n d) = (a : EReal))
variable (hmask : ∀ (c : Dev nD) (n : Fin 600000), ∃ a : ℝ, maskA V c (ix2 n (0 : Fin 1)) = (a : EReal))

/-- Row `n`'s addend to bucket `b`, feature `d`: the one-hot factor times the masked attribute (zero past the array). -/
def termS (c : Dev nD) (b : Fin 256) (d : Fin 128) (n : ℕ) : EReal :=
  if h : n < 600000 then
    hot (idxA V c (ix2 (⟨n, h⟩ : Fin 600000) (0 : Fin 1))) b
      * (attrA V c (ix2 (⟨n, h⟩ : Fin 600000) d) * maskA V c (ix2 (⟨n, h⟩ : Fin 600000) (0 : Fin 1)))
  else 0

/-- Row `n`'s addend to bucket `b`'s count. -/
def termC (c : Dev nD) (b : Fin 256) (n : ℕ) : EReal :=
  if h : n < 600000 then hot (idxA V c (ix2 (⟨n, h⟩ : Fin 600000) (0 : Fin 1))) b else 0

/-- Tile `n`'s addend to the sums block: its ten thousand rows'. -/
def tileS (c : Dev nD) (n : ℕ) : S1x256x128.Idx → EReal :=
  fun i => ∑ r ∈ Finset.range 10000, termS V c (i 1 : Fin 256) (i 2 : Fin 128) (n * 10000 + r)

/-- Tile `n`'s addend to the counts block. -/
def tileC (c : Dev nD) (n : ℕ) : S1x1x256.Idx → EReal :=
  fun i => ∑ r ∈ Finset.range 10000, termC V c (i 2 : Fin 256) (n * 10000 + r)

include hattr hmask in
/-- A tile's step adds the tile's addend to the sums block. -/
theorem stepS_at (c : Dev nD) (t : Fin cfg0.N) (acc : FVec Ideal S1x256x128 .f32) (i : S1x256x128.Idx) :
    stepS (F := Ideal) (idxB V c t) (maskB V c t) (attrB V c t) acc i = acc i + tileS V c t.val i := by
  obtain ⟨z, b, d, rfl⟩ : ∃ (z : Fin 1) (b : Fin 256) (d : Fin 128), i = ix3 z b d := ⟨i 0, i 1, i 2, eq_ix3 i⟩
  obtain rfl : z = 0 := Subsingleton.elim _ _
  refine (step0S_apply (idxB V c t) (maskB V c t) (attrB V c t) acc
    (fun r d => by rw [attrB_apply]; exact hattr c _ d) (fun r => by rw [maskB_apply]; exact hmask c _) b d).trans ?_
  refine congrArg (acc (ix3 (0 : Fin 1) b d) + ·) ?_
  show _ = ∑ r ∈ Finset.range 10000, termS V c b d (t.val * 10000 + r)
  rw [← SegSum.sum_fin_eq_sum_range (fun r => termS V c b d (t.val * 10000 + r)) 10000]
  refine Finset.sum_congr rfl fun r _ => ?_
  rw [idxB_apply, attrB_apply, maskB_apply]
  unfold termS
  rw [dif_pos (row_lt t r)]

/-- A tile's step adds the tile's addend to the counts block. -/
theorem stepC_at (c : Dev nD) (t : Fin cfg0.N) (acc : FVec Ideal S1x1x256 .f32) (i : S1x1x256.Idx) :
    stepC (F := Ideal) (idxB V c t) acc i = acc i + tileC V c t.val i := by
  obtain ⟨z, z', b, rfl⟩ : ∃ (z : Fin 1) (z' : Fin 1) (b : Fin 256), i = ix3 z z' b := ⟨i 0, i 1, i 2, eq_ix3 i⟩
  obtain rfl : z = 0 := Subsingleton.elim _ _
  obtain rfl : z' = 0 := Subsingleton.elim _ _
  refine (step0C_apply (idxB V c t) acc b).trans ?_
  refine congrArg (acc (ix3 (0 : Fin 1) (0 : Fin 1) b) + ·) ?_
  show _ = ∑ r ∈ Finset.range 10000, termC V c b (t.val * 10000 + r)
  rw [← SegSum.sum_fin_eq_sum_range (fun r => termC V c b (t.val * 10000 + r)) 10000]
  refine Finset.sum_congr rfl fun r _ => ?_
  rw [idxB_apply]
  unfold termC
  rw [dif_pos (row_lt t r)]

/-! ## The two carried blocks after each point -/

/-- The sums block after point `n`. -/
abbrev blkS (c : Dev nD) (n : ℕ) (h : n < cfg0.N) : FVec Ideal S1x256x128 .f32 := (outsAt0 V c n h).1
/-- The counts block after point `n`. -/
abbrev blkC (c : Dev nD) (n : ℕ) (h : n < cfg0.N) : FVec Ideal S1x1x256 .f32 := (outsAt0 V c n h).2

theorem blkS_reset (c : Dev nD) (n : ℕ) (h : n < cfg0.N) (h0 : n % 30 = 0) :
    blkS V c n h = stepS (F := Ideal) (idxB V c ⟨n, h⟩) (maskB V c ⟨n, h⟩) (attrB V c ⟨n, h⟩) (k0_pay2 (F := Ideal)) := by
  show (outsAt0 V c (⟨n, h⟩ : Fin cfg0.N).val (⟨n, h⟩ : Fin cfg0.N).isLt).1 = _
  rw [outsAt0_A V c ⟨n, h⟩ h0]
  dsimp only
  exact outA_3 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) ((hcond0_0 ⟨n, h⟩).mpr h0) (iblk0 V c 0 ⟨n, h⟩) (iblk0 V c 1 ⟨n, h⟩) (iblk0 V c 2 ⟨n, h⟩)

theorem blkC_reset (c : Dev nD) (n : ℕ) (h : n < cfg0.N) (h0 : n % 30 = 0) :
    blkC V c n h = stepC (F := Ideal) (idxB V c ⟨n, h⟩) (k0_pay3 (F := Ideal)) := by
  show (outsAt0 V c (⟨n, h⟩ : Fin cfg0.N).val (⟨n, h⟩ : Fin cfg0.N).isLt).2 = _
  rw [outsAt0_A V c ⟨n, h⟩ h0]
  dsimp only
  exact outA_4 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) ((hcond0_0 ⟨n, h⟩).mpr h0) (iblk0 V c 0 ⟨n, h⟩) (iblk0 V c 1 ⟨n, h⟩) (iblk0 V c 2 ⟨n, h⟩)

theorem blkS_step (c : Dev nD) (n : ℕ) (h : n + 1 < cfg0.N) (h0 : ¬(n + 1) % 30 = 0) :
    blkS V c (n + 1) h = stepS (F := Ideal) (idxB V c ⟨n + 1, h⟩) (maskB V c ⟨n + 1, h⟩) (attrB V c ⟨n + 1, h⟩) (blkS V c n (Nat.lt_of_succ_lt h)) := by
  show (outsAt0 V c (⟨n + 1, h⟩ : Fin cfg0.N).val (⟨n + 1, h⟩ : Fin cfg0.N).isLt).1 = _
  rw [outsAt0_B V c ⟨n + 1, h⟩ h0]
  dsimp only
  exact outB_3 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hh => h0 ((hcond0_0 ⟨n + 1, h⟩).mp hh)) (iblk0 V c 0 ⟨n + 1, h⟩) (iblk0 V c 1 ⟨n + 1, h⟩) (iblk0 V c 2 ⟨n + 1, h⟩) (outsAt0 V c n (Nat.lt_of_succ_lt h)).1 (outsAt0 V c n (Nat.lt_of_succ_lt h)).2

theorem blkC_step (c : Dev nD) (n : ℕ) (h : n + 1 < cfg0.N) (h0 : ¬(n + 1) % 30 = 0) :
    blkC V c (n + 1) h = stepC (F := Ideal) (idxB V c ⟨n + 1, h⟩) (blkC V c n (Nat.lt_of_succ_lt h)) := by
  show (outsAt0 V c (⟨n + 1, h⟩ : Fin cfg0.N).val (⟨n + 1, h⟩ : Fin cfg0.N).isLt).2 = _
  rw [outsAt0_B V c ⟨n + 1, h⟩ h0]
  dsimp only
  exact outB_4 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hh => h0 ((hcond0_0 ⟨n + 1, h⟩).mp hh)) (iblk0 V c 0 ⟨n + 1, h⟩) (iblk0 V c 1 ⟨n + 1, h⟩) (iblk0 V c 2 ⟨n + 1, h⟩) (outsAt0 V c n (Nat.lt_of_succ_lt h)).1 (outsAt0 V c n (Nat.lt_of_succ_lt h)).2

include hattr hmask in
/-- The sums block after point `t` is the sum of the addends of the tiles of `t`'s run so far. -/
theorem blkS_closed (c : Dev nD) (t : ℕ) (ht : t < cfg0.N) (i : S1x256x128.Idx) :
    blkS V c t ht i = ∑ s ∈ Finset.range (t % 30 + 1), tileS V c (30 * (t / 30) + s) i := by
  have h' : 30 * (t / 30) + t % 30 < cfg0.N := by rw [Nat.div_add_mod]; exact ht
  rw [Pipeline.eq_accAt_of_mod (fun n h => blkS V c n h) 30
    (fun n h => stepS (F := Ideal) (idxB V c ⟨n, h⟩) (maskB V c ⟨n, h⟩) (attrB V c ⟨n, h⟩) (k0_pay2 (F := Ideal)))
    (fun n h acc => stepS (F := Ideal) (idxB V c ⟨n, h⟩) (maskB V c ⟨n, h⟩) (attrB V c ⟨n, h⟩) acc)
    (fun n h h0 => blkS_reset V c n h h0) (fun n h h0 => blkS_step V c n h h0) (by decide) t ht h']
  rw [Pipeline.accAt_add_apply _ _ (fun _ => (0 : EReal)) (tileS V c) (30 * (t / 30)) 29
    (fun h i => by rw [stepS_at V hattr hmask c ⟨_, h⟩ _ i, zero0S_apply])
    (fun n h acc i _ _ => stepS_at V hattr hmask c ⟨n, h⟩ acc i)
    (t % 30) (by have := Nat.mod_lt t (by decide : 0 < 30); omega) h' i, zero_add]

/-- The counts block after point `t` likewise. -/
theorem blkC_closed (c : Dev nD) (t : ℕ) (ht : t < cfg0.N) (i : S1x1x256.Idx) :
    blkC V c t ht i = ∑ s ∈ Finset.range (t % 30 + 1), tileC V c (30 * (t / 30) + s) i := by
  have h' : 30 * (t / 30) + t % 30 < cfg0.N := by rw [Nat.div_add_mod]; exact ht
  rw [Pipeline.eq_accAt_of_mod (fun n h => blkC V c n h) 30
    (fun n h => stepC (F := Ideal) (idxB V c ⟨n, h⟩) (k0_pay3 (F := Ideal)))
    (fun n h acc => stepC (F := Ideal) (idxB V c ⟨n, h⟩) acc)
    (fun n h h0 => blkC_reset V c n h h0) (fun n h h0 => blkC_step V c n h h0) (by decide) t ht h']
  rw [Pipeline.accAt_add_apply _ _ (fun _ => (0 : EReal)) (tileC V c) (30 * (t / 30)) 29
    (fun h i => by rw [stepC_at V c ⟨_, h⟩ _ i, zero0C_apply])
    (fun n h acc i _ _ => stepC_at V c ⟨n, h⟩ acc i)
    (t % 30) (by have := Nat.mod_lt t (by decide : 0 < 30); omega) h' i, zero_add]

end Fold

/-! ## The two result arrays after the run -/

section Final

variable (hattr : ∀ (c : Dev nD) (n : Fin 600000) (d : Fin 128), ∃ a : ℝ, attrA V c (ix2 n d) = (a : EReal))
variable (hmask : ∀ (c : Dev nD) (n : Fin 600000), ∃ a : ℝ, maskA V c (ix2 n (0 : Fin 1)) = (a : EReal))

/-- Core slot `k` of the sums array: the thirty tiles of that core's run, added. -/
def GS (c : Dev nD) : S2x256x128.Idx → EReal :=
  fun i => ∑ s ∈ Finset.range 30, tileS V c (30 * (i 0 : Fin 2).val + s) (ix3 (0 : Fin 1) (i 1 : Fin 256) (i 2 : Fin 128))

/-- Core slot `k` of the counts array likewise. -/
def GC (c : Dev nD) : S2x1x256.Idx → EReal :=
  fun i => ∑ s ∈ Finset.range 30, tileC V c (30 * (i 0 : Fin 2).val + s) (ix3 (0 : Fin 1) (0 : Fin 1) (i 2 : Fin 256))

theorem slot_lt (t : Fin cfg0.N) : t.val / 30 < 2 := by have h1 := t.isLt; have e : cfg0.N = 60 := N0; omega

/-- An element of the block a point writes back sits in core slot `t / 30` of the sums array. -/
theorem emb3 (t : Fin cfg0.N) (z : Fin 1) (b : Fin 256) (d : Fin 128) :
    ((cfg0.win 3).blk t).view.emb (ix3 z b d) = ix3 (⟨t.val / 30, slot_lt t⟩ : Fin 2) b d := by
  funext a
  apply Fin.ext
  obtain ⟨e0, e1, e2⟩ := index0_3 t
  have hz : z.val = 0 := by have := z.isLt; omega
  match a with
  | ⟨0, _⟩ => show win0_3.index t (0 : Fin 3) * 1 + 1 * z.val = t.val / 30; rw [e0, hz]; omega
  | ⟨1, _⟩ => show win0_3.index t (1 : Fin 3) * 256 + 1 * b.val = b.val; rw [e1]; omega
  | ⟨2, _⟩ => show win0_3.index t (2 : Fin 3) * 128 + 1 * d.val = d.val; rw [e2]; omega

theorem emb4 (t : Fin cfg0.N) (z z' : Fin 1) (b : Fin 256) :
    ((cfg0.win 4).blk t).view.emb (ix3 z z' b) = ix3 (⟨t.val / 30, slot_lt t⟩ : Fin 2) (0 : Fin 1) b := by
  funext a
  apply Fin.ext
  obtain ⟨e0, e1, e2⟩ := index0_4 t
  have hz : z.val = 0 := by have := z.isLt; omega
  have hz' : z'.val = 0 := by have := z'.isLt; omega
  match a with
  | ⟨0, _⟩ => show win0_4.index t (0 : Fin 3) * 1 + 1 * z.val = t.val / 30; rw [e0, hz]; omega
  | ⟨1, _⟩ => show win0_4.index t (1 : Fin 3) * 1 + 1 * z'.val = 0; rw [e1, hz']
  | ⟨2, _⟩ => show win0_4.index t (2 : Fin 3) * 256 + 1 * b.val = b.val; rw [e2]; omega

theorem flushedS (c : Dev nD) (t : Fin cfg0.N) : (dat0 V c).flushed 3 t = blkS V c t.val t.isLt := by
  show (cfg0.win 3).cut (grid0.coords t) ((dat0 V c).after 3 t) = _
  rw [after0_3]
  rfl

theorem flushedC (c : Dev nD) (t : Fin cfg0.N) : (dat0 V c).flushed 4 t = blkC V c t.val t.isLt := by
  show (cfg0.win 4).cut (grid0.coords t) ((dat0 V c).after 4 t) = _
  rw [after0_4]
  rfl

include hattr hmask in
/-- The sums array after the run. -/
theorem sumsArr (c : Dev nD) : (dat0 V c).arrAt 3 cfg0.N = GS V c := by
  funext i
  refine (dat0 V c).arrAt_forall_of_cover 3 (fun i v => v = GS V c i) ?_ ?_ i
  · intro t hf y
    have h29 : t.val % 30 = 29 := (flush0_3 t).mp hf
    obtain ⟨z, b, d, rfl⟩ : ∃ (z : Fin 1) (b : Fin 256) (d : Fin 128), y = ix3 z b d := ⟨y 0, y 1, y 2, eq_ix3 y⟩
    show (dat0 V c).flushed 3 t (ix3 z b d) = GS V c (((cfg0.win 3).blk t).view.emb (ix3 z b d))
    rw [emb3, flushedS, blkS_closed V hattr hmask c t.val t.isLt, h29]
    rfl
  · intro i
    have hi0 : (i 0 : Nat) < 2 := (i 0).isLt
    have hi1 : (i 1 : Nat) < 256 := (i 1).isLt
    have hi2 : (i 2 : Nat) < 128 := (i 2).isLt
    have htl : 30 * (i 0 : Nat) + 29 < cfg0.N := by have e : cfg0.N = 60 := N0; omega
    refine ⟨⟨30 * (i 0 : Nat) + 29, htl⟩, (flush0_3 _).mpr (by show (30 * (i 0 : Nat) + 29) % 30 = 29; omega), ?_⟩
    show i ∈ ((View.whole main_v4_0).slice (win0_3.rect ⟨30 * (i 0 : Nat) + 29, htl⟩)).set
    rw [View.set_slice_whole, Rect.mem_set_unit]
    intro a
    obtain ⟨e0, e1, e2⟩ := index0_3 ⟨30 * (i 0 : Nat) + 29, htl⟩
    match a with
    | ⟨0, _⟩ => show win0_3.index ⟨30 * (i 0 : Nat) + 29, htl⟩ (0 : Fin 3) * 1 ≤ (i 0 : Nat) ∧ (i 0 : Nat) < win0_3.index ⟨30 * (i 0 : Nat) + 29, htl⟩ (0 : Fin 3) * 1 + 1
                rw [e0]; show (30 * (i 0 : Nat) + 29) / 30 * 1 ≤ _ ∧ _ < (30 * (i 0 : Nat) + 29) / 30 * 1 + 1; omega
    | ⟨1, _⟩ => show win0_3.index ⟨30 * (i 0 : Nat) + 29, htl⟩ (1 : Fin 3) * 256 ≤ (i 1 : Nat) ∧ (i 1 : Nat) < win0_3.index ⟨30 * (i 0 : Nat) + 29, htl⟩ (1 : Fin 3) * 256 + 256
                rw [e1]; omega
    | ⟨2, _⟩ => show win0_3.index ⟨30 * (i 0 : Nat) + 29, htl⟩ (2 : Fin 3) * 128 ≤ (i 2 : Nat) ∧ (i 2 : Nat) < win0_3.index ⟨30 * (i 0 : Nat) + 29, htl⟩ (2 : Fin 3) * 128 + 128
                rw [e2]; omega

/-- The counts array after the run. -/
theorem cntsArr (c : Dev nD) : (dat0 V c).arrAt 4 cfg0.N = GC V c := by
  funext i
  refine (dat0 V c).arrAt_forall_of_cover 4 (fun i v => v = GC V c i) ?_ ?_ i
  · intro t hf y
    have h29 : t.val % 30 = 29 := (flush0_4 t).mp hf
    obtain ⟨z, z', b, rfl⟩ : ∃ (z z' : Fin 1) (b : Fin 256), y = ix3 z z' b := ⟨y 0, y 1, y 2, eq_ix3 y⟩
    show (dat0 V c).flushed 4 t (ix3 z z' b) = GC V c (((cfg0.win 4).blk t).view.emb (ix3 z z' b))
    rw [emb4, flushedC, blkC_closed V c t.val t.isLt, h29]
    rfl
  · intro i
    have hi0 : (i 0 : Nat) < 2 := (i 0).isLt
    have hi1 : (i 1 : Nat) < 1 := (i 1).isLt
    have hi2 : (i 2 : Nat) < 256 := (i 2).isLt
    have htl : 30 * (i 0 : Nat) + 29 < cfg0.N := by have e : cfg0.N = 60 := N0; omega
    refine ⟨⟨30 * (i 0 : Nat) + 29, htl⟩, (flush0_4 _).mpr (by show (30 * (i 0 : Nat) + 29) % 30 = 29; omega), ?_⟩
    show i ∈ ((View.whole main_v4_1).slice (win0_4.rect ⟨30 * (i 0 : Nat) + 29, htl⟩)).set
    rw [View.set_slice_whole, Rect.mem_set_unit]
    intro a
    obtain ⟨e0, e1, e2⟩ := index0_4 ⟨30 * (i 0 : Nat) + 29, htl⟩
    match a with
    | ⟨0, _⟩ => show win0_4.index ⟨30 * (i 0 : Nat) + 29, htl⟩ (0 : Fin 3) * 1 ≤ (i 0 : Nat) ∧ (i 0 : Nat) < win0_4.index ⟨30 * (i 0 : Nat) + 29, htl⟩ (0 : Fin 3) * 1 + 1
                rw [e0]; show (30 * (i 0 : Nat) + 29) / 30 * 1 ≤ _ ∧ _ < (30 * (i 0 : Nat) + 29) / 30 * 1 + 1; omega
    | ⟨1, _⟩ => show win0_4.index ⟨30 * (i 0 : Nat) + 29, htl⟩ (1 : Fin 3) * 1 ≤ (i 1 : Nat) ∧ (i 1 : Nat) < win0_4.index ⟨30 * (i 0 : Nat) + 29, htl⟩ (1 : Fin 3) * 1 + 1
                rw [e1]; omega
    | ⟨2, _⟩ => show win0_4.index ⟨30 * (i 0 : Nat) + 29, htl⟩ (2 : Fin 3) * 256 ≤ (i 2 : Nat) ∧ (i 2 : Nat) < win0_4.index ⟨30 * (i 0 : Nat) + 29, htl⟩ (2 : Fin 3) * 256 + 256
                rw [e2]; omega

include hattr hmask in
/-- The two core slots of the sums array, added: bucket `b`, feature `d` holds the sum over ALL rows of the one-hot
    factor times the masked attribute. -/
theorem sum2_final (c : Dev nD) (b : Fin 256) (d : Fin 128) :
    sum2 ((dat0 V c).arrAt 3 cfg0.N) (ix2 b d)
      = ∑ n : Fin 600000, hot (idxA V c (ix2 n (0 : Fin 1))) b * (attrA V c (ix2 n d) * maskA V c (ix2 n (0 : Fin 1))) := by
  rw [sumsArr V hattr hmask c]
  have h2 : ∀ g : ℕ → EReal, (∑ k ∈ Finset.range 2, g k) = g 0 + g 1 := fun g => by
    rw [Finset.sum_range_succ, Finset.sum_range_one]
  have hsplit := (SegSum.sum_range_mul_mul (termS V c b d) 2 30 10000).trans (h2 _)
  have hfin : (∑ n : Fin 600000, hot (idxA V c (ix2 n (0 : Fin 1))) b * (attrA V c (ix2 n d) * maskA V c (ix2 n (0 : Fin 1))))
      = ∑ n ∈ Finset.range (2 * 30 * 10000), termS V c b d n := by
    rw [← SegSum.sum_fin_eq_sum_range (termS V c b d) 600000]
    refine Finset.sum_congr rfl fun n _ => ?_
    unfold termS
    rw [dif_pos n.isLt]
  rw [hfin, hsplit]
  show (∑ s ∈ Finset.range 30, ∑ r ∈ Finset.range 10000, termS V c b d ((30 * 0 + s) * 10000 + r))
      + (∑ s ∈ Finset.range 30, ∑ r ∈ Finset.range 10000, termS V c b d ((30 * 1 + s) * 10000 + r)) = _
  simp only [Nat.mul_zero, Nat.mul_one, Nat.zero_mul, Nat.one_mul, Nat.zero_add, Nat.add_comm 30]

/-- The two core slots of the counts array, added: bucket `b` holds the number of rows whose index is `b`. -/
theorem cnt2_final (c : Dev nD) (b : Fin 256) :
    cnt2 ((dat0 V c).arrAt 4 cfg0.N) (ix1 b) = ∑ n : Fin 600000, hot (idxA V c (ix2 n (0 : Fin 1))) b := by
  rw [cntsArr V c]
  have h2 : ∀ g : ℕ → EReal, (∑ k ∈ Finset.range 2, g k) = g 0 + g 1 := fun g => by
    rw [Finset.sum_range_succ, Finset.sum_range_one]
  have hsplit := (SegSum.sum_range_mul_mul (termC V c b) 2 30 10000).trans (h2 _)
  have hfin : (∑ n : Fin 600000, hot (idxA V c (ix2 n (0 : Fin 1))) b) = ∑ n ∈ Finset.range (2 * 30 * 10000), termC V c b n := by
    rw [← SegSum.sum_fin_eq_sum_range (termC V c b) 600000]
    refine Finset.sum_congr rfl fun n _ => ?_
    unfold termC
    rw [dif_pos n.isLt]
  rw [hfin, hsplit]
  show (∑ s ∈ Finset.range 30, ∑ r ∈ Finset.range 10000, termC V c b ((30 * 0 + s) * 10000 + r))
      + (∑ s ∈ Finset.range 30, ∑ r ∈ Finset.range 10000, termC V c b ((30 * 1 + s) * 10000 + r)) = _
  simp only [Nat.mul_zero, Nat.mul_one, Nat.zero_mul, Nat.one_mul, Nat.zero_add, Nat.add_comm 30]

end Final

end Cert.KernelIdeal.R0

end
-- ==== Proof.R1Pieces.lean ====
/-
  What one grid point of the nodes' reduction leaves in its two carried blocks, as pure terms of what the point loads.

  The body adds to the [1,256,128] sums block two matrix products of the one-hot matrix of the tile's index column
  against the tile's masked rows (the rows themselves, then the rows minus themselves), and to the [1,1,256] counts
  block the column sums of the one-hot matrix. At the first tile of a core's run it first stores zeros in both
  blocks and reads them back; elsewhere it reads what the tile before left. Each block's last store is of the whole
  block, so it alone decides what the block holds; a load of a block right after a whole-block store reads that
  store's value.
-/
import proofs.«425581_j16449724745524_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.R1

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The sums block after a tile, from the block before it: both products added. -/
abbrev stepS (idx : Vec F S10000x1 .i32) (mask : Vec F S10000x1 .f32) (attr : Vec F S10000x128 .f32)
    (acc : Vec F S1x256x128 .f32) : Vec F S1x256x128 .f32 :=
  k1_pay8 idx mask attr (k1_pay7 idx mask attr acc)

/-- The counts block after a tile, from the block before it. -/
abbrev stepC (idx : Vec F S10000x1 .i32) (acc : Vec F S1x1x256 .f32) : Vec F S1x1x256 .f32 :=
  k1_pay1 (k1_pay4 idx) acc

/-- First tile of a run, sums: the step from the zero block. -/
theorem outA_3 (c : Dev nD) (i : grid1.Coords) (arg2 : Memref sig .tc .vmem S10000x128 .f32) (harg2 : arg2.IsWhole) (arg3 : Memref sig .tc .vmem S10000x1 .f32) (harg3 : arg3.IsWhole) (arg4 : Memref sig .tc .vmem S10000x1 .i32) (harg4 : arg4.IsWhole) (arg5 : Memref sig .tc .vmem S1x256x128 .f32) (harg5 : arg5.IsWhole) (arg6 : Memref sig .tc .vmem S1x1x256 .f32) (harg6 : arg6.IsWhole) (hc0 : cond1_0 i)
    (x0 : Vec F S10000x128 .f32) (x1 : Vec F S10000x1 .f32) (x2 : Vec F S10000x1 .i32) :
    out1_A_3 c i arg2 harg2 arg3 harg3 arg4 harg4 arg5 harg5 arg6 harg6 hc0 x0 x1 x2 = stepS x2 x1 x0 k1_pay2 := by
  unfold out1_A_3
  rw [View.read_writes_eq_canon _ _ _ (cover1_A_3 c i arg2 harg2 arg3 harg3 arg4 harg4 arg5 harg5 arg6 harg6 hc0 x0 x1 x2)]
  unfold kernelRun1_A
  dsimp only
  sl_unfold_words
  rw [View.canon_cons_unit_zero (S := S1x256x128) hz3]
  simp only [View.readCov_cons_toLoadRect, View.readAt_eq_ld, harg2.read_unread, harg3.read_unread, harg4.read_unread,
    View.ld_unit_zero (S := S10000x1) hz2, View.ld_unit_zero (S := S10000x128) hz2]

/-- First tile of a run, counts: the step from the zero block. -/
theorem outA_4 (c : Dev nD) (i : grid1.Coords) (arg2 : Memref sig .tc .vmem S10000x128 .f32) (harg2 : arg2.IsWhole) (arg3 : Memref sig .tc .vmem S10000x1 .f32) (harg3 : arg3.IsWhole) (arg4 : Memref sig .tc .vmem S10000x1 .i32) (harg4 : arg4.IsWhole) (arg5 : Memref sig .tc .vmem S1x256x128 .f32) (harg5 : arg5.IsWhole) (arg6 : Memref sig .tc .vmem S1x1x256 .f32) (harg6 : arg6.IsWhole) (hc0 : cond1_0 i)
    (x0 : Vec F S10000x128 .f32) (x1 : Vec F S10000x1 .f32) (x2 : Vec F S10000x1 .i32) :
    out1_A_4 c i arg2 harg2 arg3 harg3 arg4 harg4 arg5 harg5 arg6 harg6 hc0 x0 x1 x2 = stepC x2 k1_pay3 := by
  unfold out1_A_4
  rw [View.read_writes_eq_canon _ _ _ (cover1_A_4 c i arg2 harg2 arg3 harg3 arg4 harg4 arg5 harg5 arg6 harg6 hc0 x0 x1 x2)]
  unfold kernelRun1_A
  dsimp only
  sl_unfold_words
  rw [View.canon_cons_unit_zero (S := S1x1x256) hz3]
  simp only [View.readCov_unit_zero (S := S1x1x256) _ hz3, View.readAt_eq_ld, harg4.read_unread,
    View.ld_unit_zero (S := S10000x1) hz2]

/-- A later tile, sums: the step from what the tile before left. -/
theorem outB_3 (c : Dev nD) (i : grid1.Coords) (arg2 : Memref sig .tc .vmem S10000x128 .f32) (harg2 : arg2.IsWhole) (arg3 : Memref sig .tc .vmem S10000x1 .f32) (harg3 : arg3.IsWhole) (arg4 : Memref sig .tc .vmem S10000x1 .i32) (harg4 : arg4.IsWhole) (arg5 : Memref sig .tc .vmem S1x256x128 .f32) (harg5 : arg5.IsWhole) (arg6 : Memref sig .tc .vmem S1x1x256 .f32) (harg6 : arg6.IsWhole) (hc0 : ¬cond1_0 i)
    (x0 : Vec F S10000x128 .f32) (x1 : Vec F S10000x1 .f32) (x2 : Vec F S10000x1 .i32)
    (xo3 : Vec F S1x256x128 .f32) (xo4 : Vec F S1x1x256 .f32) :
    out1_B_3 c i arg2 harg2 arg3 harg3 arg4 harg4 arg5 harg5 arg6 harg6 hc0 x0 x1 x2 xo3 xo4 = stepS x2 x1 x0 xo3 := by
  unfold out1_B_3
  rw [View.read_writes_eq_canon _ _ _ (cover1_B_3 c i arg2 harg2 arg3 harg3 arg4 harg4 arg5 harg5 arg6 harg6 hc0 x0 x1 x2 xo3 xo4)]
  unfold kernelRun1_B
  dsimp only
  sl_unfold_words
  rw [View.canon_cons_unit_zero (S := S1x256x128) hz3]
  simp only [View.readCov_cons_toLoadRect, View.readAt_eq_ld, harg2.read_unread, harg3.read_unread, harg4.read_unread,
    harg5.read_unread, View.ld_unit_zero (S := S10000x1) hz2, View.ld_unit_zero (S := S10000x128) hz2,
    View.ld_unit_zero (S := S1x256x128) hz3]

/-- A later tile, counts: the step from what the tile before left. -/
theorem outB_4 (c : Dev nD) (i : grid1.Coords) (arg2 : Memref sig .tc .vmem S10000x128 .f32) (harg2 : arg2.IsWhole) (arg3 : Memref sig .tc .vmem S10000x1 .f32) (harg3 : arg3.IsWhole) (arg4 : Memref sig .tc .vmem S10000x1 .i32) (harg4 : arg4.IsWhole) (arg5 : Memref sig .tc .vmem S1x256x128 .f32) (harg5 : arg5.IsWhole) (arg6 : Memref sig .tc .vmem S1x1x256 .f32) (harg6 : arg6.IsWhole) (hc0 : ¬cond1_0 i)
    (x0 : Vec F S10000x128 .f32) (x1 : Vec F S10000x1 .f32) (x2 : Vec F S10000x1 .i32)
    (xo3 : Vec F S1x256x128 .f32) (xo4 : Vec F S1x1x256 .f32) :
    out1_B_4 c i arg2 harg2 arg3 harg3 arg4 harg4 arg5 harg5 arg6 harg6 hc0 x0 x1 x2 xo3 xo4 = stepC x2 xo4 := by
  unfold out1_B_4
  rw [View.read_writes_eq_canon _ _ _ (cover1_B_4 c i arg2 harg2 arg3 harg3 arg4 harg4 arg5 harg5 arg6 harg6 hc0 x0 x1 x2 xo3 xo4)]
  unfold kernelRun1_B
  dsimp only
  sl_unfold_words
  rw [View.canon_unit_zero (S := S1x1x256) hz3]
  simp only [View.readAt_eq_ld, harg4.read_unread, harg6.read_unread, View.ld_unit_zero (S := S10000x1) hz2,
    View.ld_unit_zero (S := S1x1x256) hz3]

end Cert.KernelIdeal.R1

end
-- ==== Proof.R1Step.lean ====
/-
  One tile's step of the nodes' reduction, read at an index over the extended reals.

  The one-hot matrix has a 1 at (row r, bucket b) exactly when row r's index word is b, else 0. The sums block gains,
  at bucket b and feature d, the sum over the tile's rows of that factor times `attr[r, d] · mask[r]`: the first
  product contributes exactly this, and the second contributes the same sum with `x − x` in place of `x`, which is a
  sum of zeros because every masked entry is a finite real (at an infinity `x − x` would not be zero: here, and only
  here, finiteness of the inputs is used). The counts block gains at bucket b the number of the tile's rows whose
  index is b. A change of float format is the identity over the extended reals.
-/
import proofs.«425581_j16449724745524_3_alg».proof.Proof.Tail
import proofs.«425581_j16449724745524_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.Bridge

open Idealize.ShloMosaic Idealize.ShloMosaic.ValueIdx
open Cert.KernelIdeal Cert.KernelIdeal.Gen

/-! ## Words: the comparison bit as a number -/

/-- The comparison bit of two words, widened to a word and converted, is 1 when they are equal and 0 otherwise. -/
private theorem sitofp_eq_bit (x y : BitVec 32) :
    (FloatOps.sitofp .f32 ((IntOp.cmpi .eq x y).setWidth 32) : Ideal .f32) = if x = y then (1 : EReal) else 0 := by
  by_cases h : x = y
  · have hb : IntOp.cmpi .eq x y = 1#1 := by
      show BitVec.ofBool (x == y) = 1#1
      rw [beq_iff_eq.mpr h]; rfl
    rw [if_pos h, hb]
    show ((((1#1 : BitVec 1).setWidth 32).toInt : ℝ) : EReal) = 1
    have e : ((1#1 : BitVec 1).setWidth 32).toInt = 1 := by decide
    rw [e]; norm_num
  · have hb : IntOp.cmpi .eq x y = 0#1 := by
      show BitVec.ofBool (x == y) = 0#1
      rw [beq_eq_false_iff_ne.mpr h]; rfl
    rw [if_neg h, hb]
    show ((((0#1 : BitVec 1).setWidth 32).toInt : ℝ) : EReal) = 0
    have e : ((0#1 : BitVec 1).setWidth 32).toInt = 0 := by decide
    rw [e]; norm_num

/-! ## The two operands at an index -/

/-- A column `[n, 1]` laid along `m` lanes reads, at (r, c), the column at (r, 0). -/
private theorem column_apply {α : Type} (x : S10000x1.Idx → α) {m : ℕ}
    (h : S10000x1.Broadcasts ⟨2, ![10000, m]⟩) (r : Fin 10000) (c : Fin m) :
    broadcastTo ⟨2, ![10000, m]⟩ x h (ix2 r c) = x (ix2 r (0 : Fin 1)) := by
  refine broadcastTo_apply x h (ix2 r c) (ix2 r (0 : Fin 1)) ?_
  intro a
  match a with
  | ⟨0, _⟩ => show r.val = if (10000 : ℕ) = 1 then 0 else r.val; rw [if_neg (by decide)]
  | ⟨1, _⟩ => show 0 = if (1 : ℕ) = 1 then 0 else c.val; rw [if_pos rfl]

/-- The one-hot matrix at (row r, bucket b): 1 when row r's index word is the word of b, else 0. -/
private theorem onehot_apply (idx : IVec S10000x1 32) (r : Fin 10000) (b : Fin 256) :
    k1_pay4 (F := Ideal) idx (ix2 r b) = hot (idx (ix2 r (0 : Fin 1))) b := by
  unfold k1_pay4
  have e2 : broadcastTo S10000x256 (shapeCast S10000x1 idx Facts₀.shapeCasts_S10000x1_S10000x1)
      Facts₀.broadcasts_S10000x1_S10000x256 (ix2 r b) = idx (ix2 r (0 : Fin 1)) :=
    (column_apply _ Facts₀.broadcasts_S10000x1_S10000x256 r b).trans
      (congrFun (shapeCast_self idx Facts₀.shapeCasts_S10000x1_S10000x1) _)
  have e3 : iota .tc S10000x256 32 [1] Facts₀.iota_S10000x256_d1_w32 (ix2 r b) = BitVec.ofNat 32 b.val :=
    iota_single_apply .tc S10000x256 32 1 _ (ix2 r b)
  show (FloatOps.sitofp .f32 ((IntOp.cmpi .eq
      (broadcastTo S10000x256 (shapeCast S10000x1 idx Facts₀.shapeCasts_S10000x1_S10000x1)
        Facts₀.broadcasts_S10000x1_S10000x256 (ix2 r b))
      (iota .tc S10000x256 32 [1] Facts₀.iota_S10000x256_d1_w32 (ix2 r b))).setWidth 32) : Ideal .f32) = _
  rw [e2, e3]
  exact sitofp_eq_bit _ _

/-- The masked features at (row r, feature d): `attr[r, d] · mask[r]`. -/
private theorem masked_apply (mask : FVec Ideal S10000x1 .f32) (attr : FVec Ideal S10000x128 .f32) (r : Fin 10000) (d : Fin 128) :
    k1_pay6 (F := Ideal) mask attr (ix2 r d) = attr (ix2 r d) * mask (ix2 r (0 : Fin 1)) := by
  unfold k1_pay6
  refine (mulf_apply _ _ _).trans ?_
  exact congrArg (attr (ix2 r d) * ·)
    ((column_apply _ Facts₀.broadcasts_S10000x1_S10000x128 r d).trans
      (congrFun (shapeCast_self mask Facts₀.shapeCasts_S10000x1_S10000x1) _))

/-! ## The product over the tile's rows, read at an index -/

private theorem lhs_tile_0 (j : S256x128.Idx) (q : dot_S10000x256_S10000x128_S256x128_0_0_1_1_n_n.contr.Idx) :
    (dot_S10000x256_S10000x128_S256x128_0_0_1_1_n_n.lhsIdx j q 0).val = (q ⟨0, by decide⟩).val :=
  dot_S10000x256_S10000x128_S256x128_0_0_1_1_n_n.lhsIdx_val_of_single rfl j q
private theorem lhs_tile_1 (j : S256x128.Idx) (q : dot_S10000x256_S10000x128_S256x128_0_0_1_1_n_n.contr.Idx) :
    (dot_S10000x256_S10000x128_S256x128_0_0_1_1_n_n.lhsIdx j q 1).val = (j 0).val := by
  unfold DotDims.lhsIdx
  rw [dif_neg (show ¬(1 : Fin S10000x256.rank) ∈ dot_S10000x256_S10000x128_S256x128_0_0_1_1_n_n.lhsBatch by decide), dif_pos (show (1 : Fin S10000x256.rank) ∈ dot_S10000x256_S10000x128_S256x128_0_0_1_1_n_n.lhsNonContracting by decide)]
  rfl
private theorem rhs_tile_0 (j : S256x128.Idx) (q : dot_S10000x256_S10000x128_S256x128_0_0_1_1_n_n.contr.Idx) :
    (dot_S10000x256_S10000x128_S256x128_0_0_1_1_n_n.rhsIdx j q 0).val = (q ⟨0, by decide⟩).val :=
  dot_S10000x256_S10000x128_S256x128_0_0_1_1_n_n.rhsIdx_val_of_single rfl j q
private theorem rhs_tile_1 (j : S256x128.Idx) (q : dot_S10000x256_S10000x128_S256x128_0_0_1_1_n_n.contr.Idx) :
    (dot_S10000x256_S10000x128_S256x128_0_0_1_1_n_n.rhsIdx j q 1).val = (j 1).val := by
  unfold DotDims.rhsIdx
  rw [dif_neg (show ¬(1 : Fin S10000x128.rank) ∈ dot_S10000x256_S10000x128_S256x128_0_0_1_1_n_n.rhsBatch by decide), dif_pos (show (1 : Fin S10000x128.rank) ∈ dot_S10000x256_S10000x128_S256x128_0_0_1_1_n_n.rhsNonContracting by decide)]
  rfl

/-- A product contracting the rows of both operands into a zero block, read at bucket b and feature d: the sum over
    the tile's rows r of `lhs[r, b] · rhs[r, d]`. -/
private theorem matmul_tile_apply (lhs : FVec Ideal S10000x256 .bf16) (rhs : FVec Ideal S10000x128 .bf16) (b : Fin 256) (d : Fin 128) :
    matmul (F := Ideal) dot_S10000x256_S10000x128_S256x128_0_0_1_1_n_n none lhs rhs (constant (F := Ideal) S256x128 .f32 0x00000000#32) (ix2 b d)
      = ∑ r : Fin 10000, lhs (ix2 r b) * rhs (ix2 r d) := by
  simp only [matmul]
  rw [Ideal.matmul_constant_zero_apply, ← Equiv.sum_comp (contrEquiv1 dot_S10000x256_S10000x128_S256x128_0_0_1_1_n_n 10000 rfl rfl).symm]
  refine Finset.sum_congr rfl fun k _ => ?_
  have hk := contrEquiv1_symm_val dot_S10000x256_S10000x128_S256x128_0_0_1_1_n_n 10000 rfl rfl k
  have el : dot_S10000x256_S10000x128_S256x128_0_0_1_1_n_n.lhsIdx (ix2 b d) ((contrEquiv1 dot_S10000x256_S10000x128_S256x128_0_0_1_1_n_n 10000 rfl rfl).symm k) = ix2 k b := funext fun a => Fin.ext (by
    match a with
    | ⟨0, _⟩ => exact (lhs_tile_0 _ _).trans hk
    | ⟨1, _⟩ => exact lhs_tile_1 _ _)
  have er : dot_S10000x256_S10000x128_S256x128_0_0_1_1_n_n.rhsIdx (ix2 b d) ((contrEquiv1 dot_S10000x256_S10000x128_S256x128_0_0_1_1_n_n 10000 rfl rfl).symm k) = ix2 k d := funext fun a => Fin.ext (by
    match a with
    | ⟨0, _⟩ => exact (rhs_tile_0 _ _).trans hk
    | ⟨1, _⟩ => exact rhs_tile_1 _ _)
  rw [el, er]

/-! ## A vector viewed as one row -/

/-- An `[a]` vector cast to `[1, a]` reads, at (u, i), the vector at i. -/
private theorem shapeCast_a_1a_apply {α : Type} {a : ℕ} (x : (⟨1, ![a]⟩ : Shape).Idx → α)
    (h : (⟨1, ![a]⟩ : Shape).ShapeCasts ⟨2, ![1, a]⟩) (u : Fin 1) (i : Fin a) :
    shapeCast ⟨2, ![1, a]⟩ x h (ix2 u i) = x (ix1 i) :=
  shapeCast_apply x h _ _ (by
    have hu : u.val = 0 := by omega
    rw [Shape.rowMajor_val_one, Shape.rowMajor_val_two]
    show i.val = u.val * a + i.val
    rw [hu, Nat.zero_mul, Nat.zero_add])

/-! ## The step -/

/-- One product added to a sums block, read at (0, b, d), for any right operand. -/
private theorem add_product_apply (lhs : FVec Ideal S10000x256 .bf16) (rhs : FVec Ideal S10000x128 .bf16)
    (v : FVec Ideal S1x256x128 .f32) (b : Fin 256) (d : Fin 128) :
    shapeCast S1x256x128 (addf (shapeCast S256x128 v Facts₀.shapeCasts_S1x256x128_S256x128)
        (matmul (F := Ideal) dot_S10000x256_S10000x128_S256x128_0_0_1_1_n_n none lhs rhs (constant (F := Ideal) S256x128 .f32 0x00000000#32)))
      Facts₀.shapeCasts_S256x128_S1x256x128 (ix3 (0 : Fin 1) b d)
      = v (ix3 (0 : Fin 1) b d) + ∑ r : Fin 10000, lhs (ix2 r b) * rhs (ix2 r d) := by
  refine (shapeCast_ab_1ab_apply _ Facts₀.shapeCasts_S256x128_S1x256x128 (0 : Fin 1) b d).trans ?_
  refine (addf_apply _ _ _).trans ?_
  exact congrArg₂ (· + ·) (shapeCast_1ab_ab_apply v Facts₀.shapeCasts_S1x256x128_S256x128 b d)
    (matmul_tile_apply lhs rhs b d)

theorem step1S_apply (idx : IVec S10000x1 32) (mask : FVec Ideal S10000x1 .f32) (attr : FVec Ideal S10000x128 .f32)
    (acc : FVec Ideal S1x256x128 .f32)
    (hattr : ∀ (r : Fin 10000) (d : Fin 128), ∃ a : ℝ, attr (ix2 r d) = (a : EReal))
    (hmask : ∀ r : Fin 10000, ∃ a : ℝ, mask (ix2 r (0 : Fin 1)) = (a : EReal))
    (b : Fin 256) (d : Fin 128) :
    k1_pay8 (F := Ideal) idx mask attr (k1_pay7 (F := Ideal) idx mask attr acc) (ix3 (0 : Fin 1) b d)
      = acc (ix3 (0 : Fin 1) b d)
        + ∑ r : Fin 10000, hot (idx (ix2 r (0 : Fin 1))) b * (attr (ix2 r d) * mask (ix2 r (0 : Fin 1))) := by
  -- the first product: the one-hot factor times the masked entry, row by row
  have h7 : k1_pay7 (F := Ideal) idx mask attr acc (ix3 (0 : Fin 1) b d)
      = acc (ix3 (0 : Fin 1) b d)
        + ∑ r : Fin 10000, hot (idx (ix2 r (0 : Fin 1))) b * (attr (ix2 r d) * mask (ix2 r (0 : Fin 1))) := by
    unfold k1_pay7
    refine (add_product_apply _ _ acc b d).trans ?_
    refine congrArg (acc (ix3 (0 : Fin 1) b d) + ·) (Finset.sum_congr rfl fun r _ => ?_)
    show k1_pay4 (F := Ideal) idx (ix2 r b) * k1_pay6 (F := Ideal) mask attr (ix2 r d) = _
    rw [onehot_apply, masked_apply]
  -- the second product: the same factor times `x − x` of a finite `x`, a sum of zeros
  have h8 : ∀ v : FVec Ideal S1x256x128 .f32,
      k1_pay8 (F := Ideal) idx mask attr v (ix3 (0 : Fin 1) b d) = v (ix3 (0 : Fin 1) b d) := by
    intro v
    unfold k1_pay8
    refine (add_product_apply _ _ v b d).trans ?_
    have hz : ∀ r : Fin 10000,
        k1_pay4 (F := Ideal) idx (ix2 r b)
          * (k1_pay6 (F := Ideal) mask attr (ix2 r d) - k1_pay6 (F := Ideal) mask attr (ix2 r d)) = 0 := by
      intro r
      obtain ⟨a, ha⟩ := hattr r d
      obtain ⟨m, hm⟩ := hmask r
      rw [masked_apply, ha, hm, ← EReal.coe_mul, ← EReal.coe_sub, sub_self, EReal.coe_zero, mul_zero]
    have hs : (∑ r : Fin 10000, k1_pay5 (F := Ideal) idx (ix2 r b)
          * (truncf .bf16 (subf (k1_pay6 (F := Ideal) mask attr) (k1_pay6 (F := Ideal) mask attr)) Facts₀.bitsLt_bf16_f32
              : FVec Ideal S10000x128 .bf16) (ix2 r d)) = 0 :=
      (Finset.sum_congr rfl fun r _ => hz r).trans Finset.sum_const_zero
    exact (congrArg (v (ix3 (0 : Fin 1) b d) + ·) hs).trans (add_zero _)
  rw [h8, h7]

theorem step1C_apply (idx : IVec S10000x1 32) (acc : FVec Ideal S1x1x256 .f32) (b : Fin 256) :
    k1_pay1 (F := Ideal) (k1_pay4 (F := Ideal) idx) acc (ix3 (0 : Fin 1) (0 : Fin 1) b)
      = acc (ix3 (0 : Fin 1) (0 : Fin 1) b) + ∑ r : Fin 10000, hot (idx (ix2 r (0 : Fin 1))) b := by
  unfold k1_pay1
  refine (shapeCast_ab_1ab_apply _ Facts₀.shapeCasts_S1x256_S1x1x256 (0 : Fin 1) (0 : Fin 1) b).trans ?_
  refine (addf_apply _ _ _).trans ?_
  refine congrArg₂ (· + ·) (shapeCast_1ab_ab_apply acc Facts₀.shapeCasts_S1x1x256_S1x256 (0 : Fin 1) b) ?_
  refine (shapeCast_a_1a_apply _ Facts₀.shapeCasts_S256_S1x256 (0 : Fin 1) b).trans ?_
  -- the lane sum down the rows, at bucket b
  refine (Ideal.multiReduction_add_single (k1_pay4 (F := Ideal) idx) 0x00000000#32 Facts₀.reduces_S10000x256_S256
    (.inl rfl) rfl (ix1 b)).trans ?_
  show ∑ r : Fin 10000, k1_pay4 (F := Ideal) idx (Shape.Reduces.lift Facts₀.reduces_S10000x256_S256 (ix1 b) r) = _
  refine Finset.sum_congr rfl fun r _ => ?_
  have e : Shape.Reduces.lift Facts₀.reduces_S10000x256_S256 (ix1 b) r = ix2 r b :=
    funext fun a => Fin.ext (by
      match a with
      | ⟨0, _⟩ => rfl
      | ⟨1, _⟩ => rfl)
  rw [e]
  exact onehot_apply idx r b

theorem zero1S_apply (i : S1x256x128.Idx) : k1_pay2 (F := Ideal) i = 0 := by
  obtain ⟨u, b, d, rfl⟩ : ∃ (u : Fin 1) (b : Fin 256) (d : Fin 128), i = ix3 u b d := ⟨i 0, i 1, i 2, eq_ix3 i⟩
  unfold k1_pay2
  refine (shapeCast_ab_1ab_apply _ Facts₀.shapeCasts_S256x128_S1x256x128 u b d).trans ?_
  exact Ideal.ofBits_zero_f32

theorem zero1C_apply (i : S1x1x256.Idx) : k1_pay3 (F := Ideal) i = 0 := by
  obtain ⟨u, v, b, rfl⟩ : ∃ (u : Fin 1) (v : Fin 1) (b : Fin 256), i = ix3 u v b := ⟨i 0, i 1, i 2, eq_ix3 i⟩
  unfold k1_pay3
  refine (shapeCast_ab_1ab_apply _ Facts₀.shapeCasts_S1x256_S1x1x256 u v b).trans ?_
  exact Ideal.ofBits_zero_f32

end Cert.Bridge

end
-- ==== Proof.R1Value.lean ====
/-
  What the nodes' reduction leaves in its two result arrays.

  The grid is two core runs of twenty-five tiles of ten thousand rows. Within a run the sums block and the counts block are
  carried from tile to tile: the run's first tile starts them from zero, every tile adds its own addend — for the sums,
  at bucket `b` and feature `d`, the sum over the tile's rows of the one-hot factor of the row's index against `b`
  times `attr[row, d] · mask[row]`; for the counts the sum of the one-hot factors — and the run's last tile writes the
  blocks back to core slot `k` of the result arrays. So slot `k` holds the sum of its twenty-five tiles' addends, and the
  two slots added hold the sum over ALL rows: a sum over `2 · 25 · 10000` consecutive row numbers, block by block.
  Tile `t`'s row `r` is row `10000 t + r` of the arrays as the region finds them. That every masked attribute is
  a real number is used once, for the tile's second product (of `x − x`).
-/
import proofs.«425581_j16449724745524_3_alg».proof.Proof.R1Pieces
import proofs.«425581_j16449724745524_3_alg».proof.Proof.R1Step
import proofs.«425581_j16449724745524_3_alg».proof.Proof.LibSegSum
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.R1

open Cert.KernelIdeal Cert.KernelIdeal.Gen Cert.Bridge

variable (V : (c : Dev nD) → (b : Ref sig .tc) → Buf (Elt Ideal) ((c : Thread nD τ).loc b))

/-! ## The index maps, decided over the fifty points -/

theorem index1_0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
theorem index1_1 : ∀ t : Fin cfg1.N, win1_1.index t (0 : Fin 2) = t.val ∧ win1_1.index t (1 : Fin 2) = 0 :=
  (by decide +kernel : ∀ t : Fin grid1.N, win1_1.index t (0 : Fin 2) = t.val ∧ win1_1.index t (1 : Fin 2) = 0)
theorem index1_2 : ∀ t : Fin cfg1.N, win1_2.index t (0 : Fin 2) = t.val ∧ win1_2.index t (1 : Fin 2) = 0 :=
  (by decide +kernel : ∀ t : Fin grid1.N, win1_2.index t (0 : Fin 2) = t.val ∧ win1_2.index t (1 : Fin 2) = 0)
theorem index1_3 : ∀ t : Fin cfg1.N, win1_3.index t (0 : Fin 3) = t.val / 25 ∧ win1_3.index t (1 : Fin 3) = 0 ∧ win1_3.index t (2 : Fin 3) = 0 :=
  (by decide +kernel : ∀ t : Fin grid1.N, win1_3.index t (0 : Fin 3) = t.val / 25 ∧ win1_3.index t (1 : Fin 3) = 0 ∧ win1_3.index t (2 : Fin 3) = 0)
theorem index1_4 : ∀ t : Fin cfg1.N, win1_4.index t (0 : Fin 3) = t.val / 25 ∧ win1_4.index t (1 : Fin 3) = 0 ∧ win1_4.index t (2 : Fin 3) = 0 :=
  (by decide +kernel : ∀ t : Fin grid1.N, win1_4.index t (0 : Fin 3) = t.val / 25 ∧ win1_4.index t (1 : Fin 3) = 0 ∧ win1_4.index t (2 : Fin 3) = 0)

theorem N0 : cfg1.N = 50 := N_1

/-! ## The arrays as the region finds them, and a tile's blocks of them -/

/-- The attribute array, [500000, 128]. -/
abbrev attrA (c : Dev nD) : FVec Ideal S500000x128 .f32 := V c (Pipeline.arrRef spec1 0)
/-- The mask, as a column [500000, 1]. -/
abbrev maskA (c : Dev nD) : FVec Ideal S500000x1 .f32 := V c (Pipeline.arrRef spec1 1)
/-- The bucket indices, as a column [500000, 1]. -/
abbrev idxA (c : Dev nD) : IVec S500000x1 32 := V c (Pipeline.arrRef spec1 2)

/-- Tile `t`'s rows of the attributes. -/
abbrev attrB (c : Dev nD) (t : Fin cfg1.N) : FVec Ideal S10000x128 .f32 := iblk1 V c 0 t
/-- Tile `t`'s rows of the mask. -/
abbrev maskB (c : Dev nD) (t : Fin cfg1.N) : FVec Ideal S10000x1 .f32 := iblk1 V c 1 t
/-- Tile `t`'s rows of the indices. -/
abbrev idxB (c : Dev nD) (t : Fin cfg1.N) : IVec S10000x1 32 := iblk1 V c 2 t

theorem row_lt (t : Fin cfg1.N) (r : Fin 10000) : t.val * 10000 + r.val < 500000 := by
  have h1 := t.isLt; have e : cfg1.N = 50 := N0; have h2 := r.isLt; omega

/-- Row `r` of tile `t` is row `10000 t + r` of the array. -/
theorem attrB_apply (c : Dev nD) (t : Fin cfg1.N) (r : Fin 10000) (d : Fin 128) :
    attrB V c t (ix2 r d) = attrA V c (ix2 (⟨t.val * 10000 + r.val, row_lt t r⟩ : Fin 500000) d) := by
  show V c (Pipeline.arrRef spec1 0) (((cfg1.win 0).blk t).view.emb (ix2 r d)) = V c (Pipeline.arrRef spec1 0) _
  refine congrArg _ (funext fun a => Fin.ext ?_)
  match a with
  | ⟨0, _⟩ => show win1_0.index t 0 * 10000 + 1 * r.val = _; rw [(index1_0 t).1]; show _ = t.val * 10000 + r.val; omega
  | ⟨1, _⟩ => show win1_0.index t 1 * 128 + 1 * d.val = _; rw [(index1_0 t).2]; show _ = d.val; omega

theorem maskB_apply (c : Dev nD) (t : Fin cfg1.N) (r : Fin 10000) :
    maskB V c t (ix2 r (0 : Fin 1)) = maskA V c (ix2 (⟨t.val * 10000 + r.val, row_lt t r⟩ : Fin 500000) (0 : Fin 1)) := by
  show V c (Pipeline.arrRef spec1 1) (((cfg1.win 1).blk t).view.emb (ix2 r (0 : Fin 1))) = V c (Pipeline.arrRef spec1 1) _
  refine congrArg _ (funext fun a => Fin.ext ?_)
  match a with
  | ⟨0, _⟩ => show win1_1.index t 0 * 10000 + 1 * r.val = _; rw [(index1_1 t).1]; show _ = t.val * 10000 + r.val; omega
  | ⟨1, _⟩ => show win1_1.index t 1 * 1 + 1 * 0 = _; rw [(index1_1 t).2]; rfl

theorem idxB_apply (c : Dev nD) (t : Fin cfg1.N) (r : Fin 10000) :
    idxB V c t (ix2 r (0 : Fin 1)) = idxA V c (ix2 (⟨t.val * 10000 + r.val, row_lt t r⟩ : Fin 500000) (0 : Fin 1)) := by
  show V c (Pipeline.arrRef spec1 2) (((cfg1.win 2).blk t).view.emb (ix2 r (0 : Fin 1))) = V c (Pipeline.arrRef spec1 2) _
  refine congrArg _ (funext fun a => Fin.ext ?_)
  match a with
  | ⟨0, _⟩ => show win1_2.index t 0 * 10000 + 1 * r.val = _; rw [(index1_2 t).1]; show _ = t.val * 10000 + r.val; omega
  | ⟨1, _⟩ => show win1_2.index t 1 * 1 + 1 * 0 = _; rw [(index1_2 t).2]; rfl

/-! ## One row's addend, and a tile's -/

section Fold

variable (hattr : ∀ (c : Dev nD) (n : Fin 500000) (d : Fin 128), ∃ a : ℝ, attrA V c (ix2 n d) = (a : EReal))
variable (hmask : ∀ (c : Dev nD) (n : Fin 500000), ∃ a : ℝ, maskA V c (ix2 n (0 : Fin 1)) = (a : EReal))

/-- Row `n`'s addend to bucket `b`, feature `d`: the one-hot factor times the masked attribute (zero past the array). -/
def termS (c : Dev nD) (b : Fin 256) (d : Fin 128) (n : ℕ) : EReal :=
  if h : n < 500000 then
    hot (idxA V c (ix2 (⟨n, h⟩ : Fin 500000) (0 : Fin 1))) b
      * (attrA V c (ix2 (⟨n, h⟩ : Fin 500000) d) * maskA V c (ix2 (⟨n, h⟩ : Fin 500000) (0 : Fin 1)))
  else 0

/-- Row `n`'s addend to bucket `b`'s count. -/
def termC (c : Dev nD) (b : Fin 256) (n : ℕ) : EReal :=
  if h : n < 500000 then hot (idxA V c (ix2 (⟨n, h⟩ : Fin 500000) (0 : Fin 1))) b else 0

/-- Tile `n`'s addend to the sums block: its ten thousand rows'. -/
def tileS (c : Dev nD) (n : ℕ) : S1x256x128.Idx → EReal :=
  fun i => ∑ r ∈ Finset.range 10000, termS V c (i 1 : Fin 256) (i 2 : Fin 128) (n * 10000 + r)

/-- Tile `n`'s addend to the counts block. -/
def tileC (c : Dev nD) (n : ℕ) : S1x1x256.Idx → EReal :=
  fun i => ∑ r ∈ Finset.range 10000, termC V c (i 2 : Fin 256) (n * 10000 + r)

include hattr hmask in
/-- A tile's step adds the tile's addend to the sums block. -/
theorem stepS_at (c : Dev nD) (t : Fin cfg1.N) (acc : FVec Ideal S1x256x128 .f32) (i : S1x256x128.Idx) :
    stepS (F := Ideal) (idxB V c t) (maskB V c t) (attrB V c t) acc i = acc i + tileS V c t.val i := by
  obtain ⟨z, b, d, rfl⟩ : ∃ (z : Fin 1) (b : Fin 256) (d : Fin 128), i = ix3 z b d := ⟨i 0, i 1, i 2, eq_ix3 i⟩
  obtain rfl : z = 0 := Subsingleton.elim _ _
  refine (step1S_apply (idxB V c t) (maskB V c t) (attrB V c t) acc
    (fun r d => by rw [attrB_apply]; exact hattr c _ d) (fun r => by rw [maskB_apply]; exact hmask c _) b d).trans ?_
  refine congrArg (acc (ix3 (0 : Fin 1) b d) + ·) ?_
  show _ = ∑ r ∈ Finset.range 10000, termS V c b d (t.val * 10000 + r)
  rw [← SegSum.sum_fin_eq_sum_range (fun r => termS V c b d (t.val * 10000 + r)) 10000]
  refine Finset.sum_congr rfl fun r _ => ?_
  rw [idxB_apply, attrB_apply, maskB_apply]
  unfold termS
  rw [dif_pos (row_lt t r)]

/-- A tile's step adds the tile's addend to the counts block. -/
theorem stepC_at (c : Dev nD) (t : Fin cfg1.N) (acc : FVec Ideal S1x1x256 .f32) (i : S1x1x256.Idx) :
    stepC (F := Ideal) (idxB V c t) acc i = acc i + tileC V c t.val i := by
  obtain ⟨z, z', b, rfl⟩ : ∃ (z : Fin 1) (z' : Fin 1) (b : Fin 256), i = ix3 z z' b := ⟨i 0, i 1, i 2, eq_ix3 i⟩
  obtain rfl : z = 0 := Subsingleton.elim _ _
  obtain rfl : z' = 0 := Subsingleton.elim _ _
  refine (step1C_apply (idxB V c t) acc b).trans ?_
  refine congrArg (acc (ix3 (0 : Fin 1) (0 : Fin 1) b) + ·) ?_
  show _ = ∑ r ∈ Finset.range 10000, termC V c b (t.val * 10000 + r)
  rw [← SegSum.sum_fin_eq_sum_range (fun r => termC V c b (t.val * 10000 + r)) 10000]
  refine Finset.sum_congr rfl fun r _ => ?_
  rw [idxB_apply]
  unfold termC
  rw [dif_pos (row_lt t r)]

/-! ## The two carried blocks after each point -/

/-- The sums block after point `n`. -/
abbrev blkS (c : Dev nD) (n : ℕ) (h : n < cfg1.N) : FVec Ideal S1x256x128 .f32 := (outsAt1 V c n h).1
/-- The counts block after point `n`. -/
abbrev blkC (c : Dev nD) (n : ℕ) (h : n < cfg1.N) : FVec Ideal S1x1x256 .f32 := (outsAt1 V c n h).2

theorem blkS_reset (c : Dev nD) (n : ℕ) (h : n < cfg1.N) (h0 : n % 25 = 0) :
    blkS V c n h = stepS (F := Ideal) (idxB V c ⟨n, h⟩) (maskB V c ⟨n, h⟩) (attrB V c ⟨n, h⟩) (k1_pay2 (F := Ideal)) := by
  show (outsAt1 V c (⟨n, h⟩ : Fin cfg1.N).val (⟨n, h⟩ : Fin cfg1.N).isLt).1 = _
  rw [outsAt1_A V c ⟨n, h⟩ h0]
  dsimp only
  exact outA_3 (F := Ideal) c (grid1.coords ⟨n, h⟩) (ms1_0 ⟨n, h⟩) (hs1_0 ⟨n, h⟩) (ms1_1 ⟨n, h⟩) (hs1_1 ⟨n, h⟩) (ms1_2 ⟨n, h⟩) (hs1_2 ⟨n, h⟩) (ms1_3 ⟨n, h⟩) (hs1_3 ⟨n, h⟩) (ms1_4 ⟨n, h⟩) (hs1_4 ⟨n, h⟩) ((hcond1_0 ⟨n, h⟩).mpr h0) (iblk1 V c 0 ⟨n, h⟩) (iblk1 V c 1 ⟨n, h⟩) (iblk1 V c 2 ⟨n, h⟩)

theorem blkC_reset (c : Dev nD) (n : ℕ) (h : n < cfg1.N) (h0 : n % 25 = 0) :
    blkC V c n h = stepC (F := Ideal) (idxB V c ⟨n, h⟩) (k1_pay3 (F := Ideal)) := by
  show (outsAt1 V c (⟨n, h⟩ : Fin cfg1.N).val (⟨n, h⟩ : Fin cfg1.N).isLt).2 = _
  rw [outsAt1_A V c ⟨n, h⟩ h0]
  dsimp only
  exact outA_4 (F := Ideal) c (grid1.coords ⟨n, h⟩) (ms1_0 ⟨n, h⟩) (hs1_0 ⟨n, h⟩) (ms1_1 ⟨n, h⟩) (hs1_1 ⟨n, h⟩) (ms1_2 ⟨n, h⟩) (hs1_2 ⟨n, h⟩) (ms1_3 ⟨n, h⟩) (hs1_3 ⟨n, h⟩) (ms1_4 ⟨n, h⟩) (hs1_4 ⟨n, h⟩) ((hcond1_0 ⟨n, h⟩).mpr h0) (iblk1 V c 0 ⟨n, h⟩) (iblk1 V c 1 ⟨n, h⟩) (iblk1 V c 2 ⟨n, h⟩)

theorem blkS_step (c : Dev nD) (n : ℕ) (h : n + 1 < cfg1.N) (h0 : ¬(n + 1) % 25 = 0) :
    blkS V c (n + 1) h = stepS (F := Ideal) (idxB V c ⟨n + 1, h⟩) (maskB V c ⟨n + 1, h⟩) (attrB V c ⟨n + 1, h⟩) (blkS V c n (Nat.lt_of_succ_lt h)) := by
  show (outsAt1 V c (⟨n + 1, h⟩ : Fin cfg1.N).val (⟨n + 1, h⟩ : Fin cfg1.N).isLt).1 = _
  rw [outsAt1_B V c ⟨n + 1, h⟩ h0]
  dsimp only
  exact outB_3 (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (fun hh => h0 ((hcond1_0 ⟨n + 1, h⟩).mp hh)) (iblk1 V c 0 ⟨n + 1, h⟩) (iblk1 V c 1 ⟨n + 1, h⟩) (iblk1 V c 2 ⟨n + 1, h⟩) (outsAt1 V c n (Nat.lt_of_succ_lt h)).1 (outsAt1 V c n (Nat.lt_of_succ_lt h)).2

theorem blkC_step (c : Dev nD) (n : ℕ) (h : n + 1 < cfg1.N) (h0 : ¬(n + 1) % 25 = 0) :
    blkC V c (n + 1) h = stepC (F := Ideal) (idxB V c ⟨n + 1, h⟩) (blkC V c n (Nat.lt_of_succ_lt h)) := by
  show (outsAt1 V c (⟨n + 1, h⟩ : Fin cfg1.N).val (⟨n + 1, h⟩ : Fin cfg1.N).isLt).2 = _
  rw [outsAt1_B V c ⟨n + 1, h⟩ h0]
  dsimp only
  exact outB_4 (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (fun hh => h0 ((hcond1_0 ⟨n + 1, h⟩).mp hh)) (iblk1 V c 0 ⟨n + 1, h⟩) (iblk1 V c 1 ⟨n + 1, h⟩) (iblk1 V c 2 ⟨n + 1, h⟩) (outsAt1 V c n (Nat.lt_of_succ_lt h)).1 (outsAt1 V c n (Nat.lt_of_succ_lt h)).2

include hattr hmask in
/-- The sums block after point `t` is the sum of the addends of the tiles of `t`'s run so far. -/
theorem blkS_closed (c : Dev nD) (t : ℕ) (ht : t < cfg1.N) (i : S1x256x128.Idx) :
    blkS V c t ht i = ∑ s ∈ Finset.range (t % 25 + 1), tileS V c (25 * (t / 25) + s) i := by
  have h' : 25 * (t / 25) + t % 25 < cfg1.N := by rw [Nat.div_add_mod]; exact ht
  rw [Pipeline.eq_accAt_of_mod (fun n h => blkS V c n h) 25
    (fun n h => stepS (F := Ideal) (idxB V c ⟨n, h⟩) (maskB V c ⟨n, h⟩) (attrB V c ⟨n, h⟩) (k1_pay2 (F := Ideal)))
    (fun n h acc => stepS (F := Ideal) (idxB V c ⟨n, h⟩) (maskB V c ⟨n, h⟩) (attrB V c ⟨n, h⟩) acc)
    (fun n h h0 => blkS_reset V c n h h0) (fun n h h0 => blkS_step V c n h h0) (by decide) t ht h']
  rw [Pipeline.accAt_add_apply _ _ (fun _ => (0 : EReal)) (tileS V c) (25 * (t / 25)) 24
    (fun h i => by rw [stepS_at V hattr hmask c ⟨_, h⟩ _ i, zero1S_apply])
    (fun n h acc i _ _ => stepS_at V hattr hmask c ⟨n, h⟩ acc i)
    (t % 25) (by have := Nat.mod_lt t (by decide : 0 < 25); omega) h' i, zero_add]

/-- The counts block after point `t` likewise. -/
theorem blkC_closed (c : Dev nD) (t : ℕ) (ht : t < cfg1.N) (i : S1x1x256.Idx) :
    blkC V c t ht i = ∑ s ∈ Finset.range (t % 25 + 1), tileC V c (25 * (t / 25) + s) i := by
  have h' : 25 * (t / 25) + t % 25 < cfg1.N := by rw [Nat.div_add_mod]; exact ht
  rw [Pipeline.eq_accAt_of_mod (fun n h => blkC V c n h) 25
    (fun n h => stepC (F := Ideal) (idxB V c ⟨n, h⟩) (k1_pay3 (F := Ideal)))
    (fun n h acc => stepC (F := Ideal) (idxB V c ⟨n, h⟩) acc)
    (fun n h h0 => blkC_reset V c n h h0) (fun n h h0 => blkC_step V c n h h0) (by decide) t ht h']
  rw [Pipeline.accAt_add_apply _ _ (fun _ => (0 : EReal)) (tileC V c) (25 * (t / 25)) 24
    (fun h i => by rw [stepC_at V c ⟨_, h⟩ _ i, zero1C_apply])
    (fun n h acc i _ _ => stepC_at V c ⟨n, h⟩ acc i)
    (t % 25) (by have := Nat.mod_lt t (by decide : 0 < 25); omega) h' i, zero_add]

end Fold

/-! ## The two result arrays after the run -/

section Final

variable (hattr : ∀ (c : Dev nD) (n : Fin 500000) (d : Fin 128), ∃ a : ℝ, attrA V c (ix2 n d) = (a : EReal))
variable (hmask : ∀ (c : Dev nD) (n : Fin 500000), ∃ a : ℝ, maskA V c (ix2 n (0 : Fin 1)) = (a : EReal))

/-- Core slot `k` of the sums array: the twenty-five tiles of that core's run, added. -/
def GS (c : Dev nD) : S2x256x128.Idx → EReal :=
  fun i => ∑ s ∈ Finset.range 25, tileS V c (25 * (i 0 : Fin 2).val + s) (ix3 (0 : Fin 1) (i 1 : Fin 256) (i 2 : Fin 128))

/-- Core slot `k` of the counts array likewise. -/
def GC (c : Dev nD) : S2x1x256.Idx → EReal :=
  fun i => ∑ s ∈ Finset.range 25, tileC V c (25 * (i 0 : Fin 2).val + s) (ix3 (0 : Fin 1) (0 : Fin 1) (i 2 : Fin 256))

theorem slot_lt (t : Fin cfg1.N) : t.val / 25 < 2 := by have h1 := t.isLt; have e : cfg1.N = 50 := N0; omega

/-- An element of the block a point writes back sits in core slot `t / 25` of the sums array. -/
theorem emb3 (t : Fin cfg1.N) (z : Fin 1) (b : Fin 256) (d : Fin 128) :
    ((cfg1.win 3).blk t).view.emb (ix3 z b d) = ix3 (⟨t.val / 25, slot_lt t⟩ : Fin 2) b d := by
  funext a
  apply Fin.ext
  obtain ⟨e0, e1, e2⟩ := index1_3 t
  have hz : z.val = 0 := by have := z.isLt; omega
  match a with
  | ⟨0, _⟩ => show win1_3.index t (0 : Fin 3) * 1 + 1 * z.val = t.val / 25; rw [e0, hz]; omega
  | ⟨1, _⟩ => show win1_3.index t (1 : Fin 3) * 256 + 1 * b.val = b.val; rw [e1]; omega
  | ⟨2, _⟩ => show win1_3.index t (2 : Fin 3) * 128 + 1 * d.val = d.val; rw [e2]; omega

theorem emb4 (t : Fin cfg1.N) (z z' : Fin 1) (b : Fin 256) :
    ((cfg1.win 4).blk t).view.emb (ix3 z z' b) = ix3 (⟨t.val / 25, slot_lt t⟩ : Fin 2) (0 : Fin 1) b := by
  funext a
  apply Fin.ext
  obtain ⟨e0, e1, e2⟩ := index1_4 t
  have hz : z.val = 0 := by have := z.isLt; omega
  have hz' : z'.val = 0 := by have := z'.isLt; omega
  match a with
  | ⟨0, _⟩ => show win1_4.index t (0 : Fin 3) * 1 + 1 * z.val = t.val / 25; rw [e0, hz]; omega
  | ⟨1, _⟩ => show win1_4.index t (1 : Fin 3) * 1 + 1 * z'.val = 0; rw [e1, hz']
  | ⟨2, _⟩ => show win1_4.index t (2 : Fin 3) * 256 + 1 * b.val = b.val; rw [e2]; omega

theorem flushedS (c : Dev nD) (t : Fin cfg1.N) : (dat1 V c).flushed 3 t = blkS V c t.val t.isLt := by
  show (cfg1.win 3).cut (grid1.coords t) ((dat1 V c).after 3 t) = _
  rw [after1_3]
  rfl

theorem flushedC (c : Dev nD) (t : Fin cfg1.N) : (dat1 V c).flushed 4 t = blkC V c t.val t.isLt := by
  show (cfg1.win 4).cut (grid1.coords t) ((dat1 V c).after 4 t) = _
  rw [after1_4]
  rfl

include hattr hmask in
/-- The sums array after the run. -/
theorem sumsArr (c : Dev nD) : (dat1 V c).arrAt 3 cfg1.N = GS V c := by
  funext i
  refine (dat1 V c).arrAt_forall_of_cover 3 (fun i v => v = GS V c i) ?_ ?_ i
  · intro t hf y
    have h24 : t.val % 25 = 24 := (flush1_3 t).mp hf
    obtain ⟨z, b, d, rfl⟩ : ∃ (z : Fin 1) (b : Fin 256) (d : Fin 128), y = ix3 z b d := ⟨y 0, y 1, y 2, eq_ix3 y⟩
    show (dat1 V c).flushed 3 t (ix3 z b d) = GS V c (((cfg1.win 3).blk t).view.emb (ix3 z b d))
    rw [emb3, flushedS, blkS_closed V hattr hmask c t.val t.isLt, h24]
    rfl
  · intro i
    have hi0 : (i 0 : Nat) < 2 := (i 0).isLt
    have hi1 : (i 1 : Nat) < 256 := (i 1).isLt
    have hi2 : (i 2 : Nat) < 128 := (i 2).isLt
    have htl : 25 * (i 0 : Nat) + 24 < cfg1.N := by have e : cfg1.N = 50 := N0; omega
    refine ⟨⟨25 * (i 0 : Nat) + 24, htl⟩, (flush1_3 _).mpr (by show (25 * (i 0 : Nat) + 24) % 25 = 24; omega), ?_⟩
    show i ∈ ((View.whole main_v5_0).slice (win1_3.rect ⟨25 * (i 0 : Nat) + 24, htl⟩)).set
    rw [View.set_slice_whole, Rect.mem_set_unit]
    intro a
    obtain ⟨e0, e1, e2⟩ := index1_3 ⟨25 * (i 0 : Nat) + 24, htl⟩
    match a with
    | ⟨0, _⟩ => show win1_3.index ⟨25 * (i 0 : Nat) + 24, htl⟩ (0 : Fin 3) * 1 ≤ (i 0 : Nat) ∧ (i 0 : Nat) < win1_3.index ⟨25 * (i 0 : Nat) + 24, htl⟩ (0 : Fin 3) * 1 + 1
                rw [e0]; show (25 * (i 0 : Nat) + 24) / 25 * 1 ≤ _ ∧ _ < (25 * (i 0 : Nat) + 24) / 25 * 1 + 1; omega
    | ⟨1, _⟩ => show win1_3.index ⟨25 * (i 0 : Nat) + 24, htl⟩ (1 : Fin 3) * 256 ≤ (i 1 : Nat) ∧ (i 1 : Nat) < win1_3.index ⟨25 * (i 0 : Nat) + 24, htl⟩ (1 : Fin 3) * 256 + 256
                rw [e1]; omega
    | ⟨2, _⟩ => show win1_3.index ⟨25 * (i 0 : Nat) + 24, htl⟩ (2 : Fin 3) * 128 ≤ (i 2 : Nat) ∧ (i 2 : Nat) < win1_3.index ⟨25 * (i 0 : Nat) + 24, htl⟩ (2 : Fin 3) * 128 + 128
                rw [e2]; omega

/-- The counts array after the run. -/
theorem cntsArr (c : Dev nD) : (dat1 V c).arrAt 4 cfg1.N = GC V c := by
  funext i
  refine (dat1 V c).arrAt_forall_of_cover 4 (fun i v => v = GC V c i) ?_ ?_ i
  · intro t hf y
    have h24 : t.val % 25 = 24 := (flush1_4 t).mp hf
    obtain ⟨z, z', b, rfl⟩ : ∃ (z z' : Fin 1) (b : Fin 256), y = ix3 z z' b := ⟨y 0, y 1, y 2, eq_ix3 y⟩
    show (dat1 V c).flushed 4 t (ix3 z z' b) = GC V c (((cfg1.win 4).blk t).view.emb (ix3 z z' b))
    rw [emb4, flushedC, blkC_closed V c t.val t.isLt, h24]
    rfl
  · intro i
    have hi0 : (i 0 : Nat) < 2 := (i 0).isLt
    have hi1 : (i 1 : Nat) < 1 := (i 1).isLt
    have hi2 : (i 2 : Nat) < 256 := (i 2).isLt
    have htl : 25 * (i 0 : Nat) + 24 < cfg1.N := by have e : cfg1.N = 50 := N0; omega
    refine ⟨⟨25 * (i 0 : Nat) + 24, htl⟩, (flush1_4 _).mpr (by show (25 * (i 0 : Nat) + 24) % 25 = 24; omega), ?_⟩
    show i ∈ ((View.whole main_v5_1).slice (win1_4.rect ⟨25 * (i 0 : Nat) + 24, htl⟩)).set
    rw [View.set_slice_whole, Rect.mem_set_unit]
    intro a
    obtain ⟨e0, e1, e2⟩ := index1_4 ⟨25 * (i 0 : Nat) + 24, htl⟩
    match a with
    | ⟨0, _⟩ => show win1_4.index ⟨25 * (i 0 : Nat) + 24, htl⟩ (0 : Fin 3) * 1 ≤ (i 0 : Nat) ∧ (i 0 : Nat) < win1_4.index ⟨25 * (i 0 : Nat) + 24, htl⟩ (0 : Fin 3) * 1 + 1
                rw [e0]; show (25 * (i 0 : Nat) + 24) / 25 * 1 ≤ _ ∧ _ < (25 * (i 0 : Nat) + 24) / 25 * 1 + 1; omega
    | ⟨1, _⟩ => show win1_4.index ⟨25 * (i 0 : Nat) + 24, htl⟩ (1 : Fin 3) * 1 ≤ (i 1 : Nat) ∧ (i 1 : Nat) < win1_4.index ⟨25 * (i 0 : Nat) + 24, htl⟩ (1 : Fin 3) * 1 + 1
                rw [e1]; omega
    | ⟨2, _⟩ => show win1_4.index ⟨25 * (i 0 : Nat) + 24, htl⟩ (2 : Fin 3) * 256 ≤ (i 2 : Nat) ∧ (i 2 : Nat) < win1_4.index ⟨25 * (i 0 : Nat) + 24, htl⟩ (2 : Fin 3) * 256 + 256
                rw [e2]; omega

include hattr hmask in
/-- The two core slots of the sums array, added: bucket `b`, feature `d` holds the sum over ALL rows of the one-hot
    factor times the masked attribute. -/
theorem sum2_final (c : Dev nD) (b : Fin 256) (d : Fin 128) :
    sum2 ((dat1 V c).arrAt 3 cfg1.N) (ix2 b d)
      = ∑ n : Fin 500000, hot (idxA V c (ix2 n (0 : Fin 1))) b * (attrA V c (ix2 n d) * maskA V c (ix2 n (0 : Fin 1))) := by
  rw [sumsArr V hattr hmask c]
  have h2 : ∀ g : ℕ → EReal, (∑ k ∈ Finset.range 2, g k) = g 0 + g 1 := fun g => by
    rw [Finset.sum_range_succ, Finset.sum_range_one]
  have hsplit := (SegSum.sum_range_mul_mul (termS V c b d) 2 25 10000).trans (h2 _)
  have hfin : (∑ n : Fin 500000, hot (idxA V c (ix2 n (0 : Fin 1))) b * (attrA V c (ix2 n d) * maskA V c (ix2 n (0 : Fin 1))))
      = ∑ n ∈ Finset.range (2 * 25 * 10000), termS V c b d n := by
    rw [← SegSum.sum_fin_eq_sum_range (termS V c b d) 500000]
    refine Finset.sum_congr rfl fun n _ => ?_
    unfold termS
    rw [dif_pos n.isLt]
  rw [hfin, hsplit]
  show (∑ s ∈ Finset.range 25, ∑ r ∈ Finset.range 10000, termS V c b d ((25 * 0 + s) * 10000 + r))
      + (∑ s ∈ Finset.range 25, ∑ r ∈ Finset.range 10000, termS V c b d ((25 * 1 + s) * 10000 + r)) = _
  simp only [Nat.mul_zero, Nat.mul_one, Nat.zero_mul, Nat.one_mul, Nat.zero_add, Nat.add_comm 25]

/-- The two core slots of the counts array, added: bucket `b` holds the number of rows whose index is `b`. -/
theorem cnt2_final (c : Dev nD) (b : Fin 256) :
    cnt2 ((dat1 V c).arrAt 4 cfg1.N) (ix1 b) = ∑ n : Fin 500000, hot (idxA V c (ix2 n (0 : Fin 1))) b := by
  rw [cntsArr V c]
  have h2 : ∀ g : ℕ → EReal, (∑ k ∈ Finset.range 2, g k) = g 0 + g 1 := fun g => by
    rw [Finset.sum_range_succ, Finset.sum_range_one]
  have hsplit := (SegSum.sum_range_mul_mul (termC V c b) 2 25 10000).trans (h2 _)
  have hfin : (∑ n : Fin 500000, hot (idxA V c (ix2 n (0 : Fin 1))) b) = ∑ n ∈ Finset.range (2 * 25 * 10000), termC V c b n := by
    rw [← SegSum.sum_fin_eq_sum_range (termC V c b) 500000]
    refine Finset.sum_congr rfl fun n _ => ?_
    unfold termC
    rw [dif_pos n.isLt]
  rw [hfin, hsplit]
  show (∑ s ∈ Finset.range 25, ∑ r ∈ Finset.range 10000, termC V c b ((25 * 0 + s) * 10000 + r))
      + (∑ s ∈ Finset.range 25, ∑ r ∈ Finset.range 10000, termC V c b ((25 * 1 + s) * 10000 + r)) = _
  simp only [Nat.mul_zero, Nat.mul_one, Nat.zero_mul, Nat.one_mul, Nat.zero_add, Nat.add_comm 25]

end Final

end Cert.KernelIdeal.R1

end
-- ==== Proof.R2Value.lean ====
/-
  What the last kernel leaves in the result array.

  Its grid has one point and every window's block is its whole array, so the body's one store — the perceptron's
  output of the nine arrays it loads — is what the result array holds after the run.
-/
import proofs.«425581_j16449724745524_3_alg».proof.Proof.Gen.KernelIdeal.Frame
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.R2

open Cert.KernelIdeal Cert.KernelIdeal.Gen

variable {F : FTy → Type} [FloatOps F]
variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-! ## The index maps at the one point: every block index is zero -/

theorem index2_0 : ∀ t : Fin cfg2.N, win2_0.index t (0 : Fin 3) = 0 ∧ win2_0.index t (1 : Fin 3) = 0 ∧ win2_0.index t (2 : Fin 3) = 0 :=
  (by decide +kernel : ∀ t : Fin grid2.N, win2_0.index t (0 : Fin 3) = 0 ∧ win2_0.index t (1 : Fin 3) = 0 ∧ win2_0.index t (2 : Fin 3) = 0)
theorem index2_1 : ∀ t : Fin cfg2.N, win2_1.index t (0 : Fin 3) = 0 ∧ win2_1.index t (1 : Fin 3) = 0 ∧ win2_1.index t (2 : Fin 3) = 0 :=
  (by decide +kernel : ∀ t : Fin grid2.N, win2_1.index t (0 : Fin 3) = 0 ∧ win2_1.index t (1 : Fin 3) = 0 ∧ win2_1.index t (2 : Fin 3) = 0)
theorem index2_2 : ∀ t : Fin cfg2.N, win2_2.index t (0 : Fin 3) = 0 ∧ win2_2.index t (1 : Fin 3) = 0 ∧ win2_2.index t (2 : Fin 3) = 0 :=
  (by decide +kernel : ∀ t : Fin grid2.N, win2_2.index t (0 : Fin 3) = 0 ∧ win2_2.index t (1 : Fin 3) = 0 ∧ win2_2.index t (2 : Fin 3) = 0)
theorem index2_3 : ∀ t : Fin cfg2.N, win2_3.index t (0 : Fin 3) = 0 ∧ win2_3.index t (1 : Fin 3) = 0 ∧ win2_3.index t (2 : Fin 3) = 0 :=
  (by decide +kernel : ∀ t : Fin grid2.N, win2_3.index t (0 : Fin 3) = 0 ∧ win2_3.index t (1 : Fin 3) = 0 ∧ win2_3.index t (2 : Fin 3) = 0)
theorem index2_4 : ∀ t : Fin cfg2.N, win2_4.index t (0 : Fin 2) = 0 ∧ win2_4.index t (1 : Fin 2) = 0 :=
  (by decide +kernel : ∀ t : Fin grid2.N, win2_4.index t (0 : Fin 2) = 0 ∧ win2_4.index t (1 : Fin 2) = 0)
theorem index2_5 : ∀ t : Fin cfg2.N, win2_5.index t (0 : Fin 2) = 0 ∧ win2_5.index t (1 : Fin 2) = 0 :=
  (by decide +kernel : ∀ t : Fin grid2.N, win2_5.index t (0 : Fin 2) = 0 ∧ win2_5.index t (1 : Fin 2) = 0)
theorem index2_6 : ∀ t : Fin cfg2.N, win2_6.index t (0 : Fin 2) = 0 ∧ win2_6.index t (1 : Fin 2) = 0 :=
  (by decide +kernel : ∀ t : Fin grid2.N, win2_6.index t (0 : Fin 2) = 0 ∧ win2_6.index t (1 : Fin 2) = 0)
theorem index2_7 : ∀ t : Fin cfg2.N, win2_7.index t (0 : Fin 2) = 0 ∧ win2_7.index t (1 : Fin 2) = 0 :=
  (by decide +kernel : ∀ t : Fin grid2.N, win2_7.index t (0 : Fin 2) = 0 ∧ win2_7.index t (1 : Fin 2) = 0)
theorem index2_8 : ∀ t : Fin cfg2.N, win2_8.index t (0 : Fin 2) = 0 ∧ win2_8.index t (1 : Fin 2) = 0 :=
  (by decide +kernel : ∀ t : Fin grid2.N, win2_8.index t (0 : Fin 2) = 0 ∧ win2_8.index t (1 : Fin 2) = 0)
theorem index2_9 : ∀ t : Fin cfg2.N, win2_9.index t (0 : Fin 2) = 0 ∧ win2_9.index t (1 : Fin 2) = 0 :=
  (by decide +kernel : ∀ t : Fin grid2.N, win2_9.index t (0 : Fin 2) = 0 ∧ win2_9.index t (1 : Fin 2) = 0)

/-! ## The nine arrays the body loads, as the region finds them -/

abbrev A0 (c : Dev nD) : FVec F S2x256x128 .f32 := V c (Pipeline.arrRef spec2 0)
abbrev A1 (c : Dev nD) : FVec F S2x1x256 .f32 := V c (Pipeline.arrRef spec2 1)
abbrev A2 (c : Dev nD) : FVec F S2x256x128 .f32 := V c (Pipeline.arrRef spec2 2)
abbrev A3 (c : Dev nD) : FVec F S2x1x256 .f32 := V c (Pipeline.arrRef spec2 3)
abbrev A4 (c : Dev nD) : FVec F S256x128 .f32 := V c (Pipeline.arrRef spec2 4)
abbrev A5 (c : Dev nD) : FVec F S384x32 .f32 := V c (Pipeline.arrRef spec2 5)
abbrev A6 (c : Dev nD) : FVec F S1x32 .f32 := V c (Pipeline.arrRef spec2 6)
abbrev A7 (c : Dev nD) : FVec F S32x128 .f32 := V c (Pipeline.arrRef spec2 7)
abbrev A8 (c : Dev nD) : FVec F S1x128 .f32 := V c (Pipeline.arrRef spec2 8)

/-- Window 0's one block is its whole array. -/
theorem blk0 (c : Dev nD) (t : Fin cfg2.N) : iblk2 V c 0 t = A0 V c := by
  funext y
  show V c (Pipeline.arrRef spec2 0) (((cfg2.win 0).blk t).view.emb y) = V c (Pipeline.arrRef spec2 0) y
  refine congrArg _ (funext fun a => Fin.ext ?_)
  obtain ⟨e0, e1, e2⟩ := index2_0 t
  match a with
  | ⟨0, _⟩ => show win2_0.index t (0 : Fin 3) * 2 + 1 * (y 0).val = (y 0).val; rw [e0]; omega
  | ⟨1, _⟩ => show win2_0.index t (1 : Fin 3) * 256 + 1 * (y 1).val = (y 1).val; rw [e1]; omega
  | ⟨2, _⟩ => show win2_0.index t (2 : Fin 3) * 128 + 1 * (y 2).val = (y 2).val; rw [e2]; omega

/-- Window 1's one block is its whole array. -/
theorem blk1 (c : Dev nD) (t : Fin cfg2.N) : iblk2 V c 1 t = A1 V c := by
  funext y
  show V c (Pipeline.arrRef spec2 1) (((cfg2.win 1).blk t).view.emb y) = V c (Pipeline.arrRef spec2 1) y
  refine congrArg _ (funext fun a => Fin.ext ?_)
  obtain ⟨e0, e1, e2⟩ := index2_1 t
  match a with
  | ⟨0, _⟩ => show win2_1.index t (0 : Fin 3) * 2 + 1 * (y 0).val = (y 0).val; rw [e0]; omega
  | ⟨1, _⟩ => show win2_1.index t (1 : Fin 3) * 1 + 1 * (y 1).val = (y 1).val; rw [e1]; omega
  | ⟨2, _⟩ => show win2_1.index t (2 : Fin 3) * 256 + 1 * (y 2).val = (y 2).val; rw [e2]; omega

/-- Window 2's one block is its whole array. -/
theorem blk2 (c : Dev nD) (t : Fin cfg2.N) : iblk2 V c 2 t = A2 V c := by
  funext y
  show V c (Pipeline.arrRef spec2 2) (((cfg2.win 2).blk t).view.emb y) = V c (Pipeline.arrRef spec2 2) y
  refine congrArg _ (funext fun a => Fin.ext ?_)
  obtain ⟨e0, e1, e2⟩ := index2_2 t
  match a with
  | ⟨0, _⟩ => show win2_2.index t (0 : Fin 3) * 2 + 1 * (y 0).val = (y 0).val; rw [e0]; omega
  | ⟨1, _⟩ => show win2_2.index t (1 : Fin 3) * 256 + 1 * (y 1).val = (y 1).val; rw [e1]; omega
  | ⟨2, _⟩ => show win2_2.index t (2 : Fin 3) * 128 + 1 * (y 2).val = (y 2).val; rw [e2]; omega

/-- Window 3's one block is its whole array. -/
theorem blk3 (c : Dev nD) (t : Fin cfg2.N) : iblk2 V c 3 t = A3 V c := by
  funext y
  show V c (Pipeline.arrRef spec2 3) (((cfg2.win 3).blk t).view.emb y) = V c (Pipeline.arrRef spec2 3) y
  refine congrArg _ (funext fun a => Fin.ext ?_)
  obtain ⟨e0, e1, e2⟩ := index2_3 t
  match a with
  | ⟨0, _⟩ => show win2_3.index t (0 : Fin 3) * 2 + 1 * (y 0).val = (y 0).val; rw [e0]; omega
  | ⟨1, _⟩ => show win2_3.index t (1 : Fin 3) * 1 + 1 * (y 1).val = (y 1).val; rw [e1]; omega
  | ⟨2, _⟩ => show win2_3.index t (2 : Fin 3) * 256 + 1 * (y 2).val = (y 2).val; rw [e2]; omega

/-- Window 4's one block is its whole array. -/
theorem blk4 (c : Dev nD) (t : Fin cfg2.N) : iblk2 V c 4 t = A4 V c := by
  funext y
  show V c (Pipeline.arrRef spec2 4) (((cfg2.win 4).blk t).view.emb y) = V c (Pipeline.arrRef spec2 4) y
  refine congrArg _ (funext fun a => Fin.ext ?_)
  obtain ⟨e0, e1⟩ := index2_4 t
  match a with
  | ⟨0, _⟩ => show win2_4.index t (0 : Fin 2) * 256 + 1 * (y 0).val = (y 0).val; rw [e0]; omega
  | ⟨1, _⟩ => show win2_4.index t (1 : Fin 2) * 128 + 1 * (y 1).val = (y 1).val; rw [e1]; omega

/-- Window 5's one block is its whole array. -/
theorem blk5 (c : Dev nD) (t : Fin cfg2.N) : iblk2 V c 5 t = A5 V c := by
  funext y
  show V c (Pipeline.arrRef spec2 5) (((cfg2.win 5).blk t).view.emb y) = V c (Pipeline.arrRef spec2 5) y
  refine congrArg _ (funext fun a => Fin.ext ?_)
  obtain ⟨e0, e1⟩ := index2_5 t
  match a with
  | ⟨0, _⟩ => show win2_5.index t (0 : Fin 2) * 384 + 1 * (y 0).val = (y 0).val; rw [e0]; omega
  | ⟨1, _⟩ => show win2_5.index t (1 : Fin 2) * 32 + 1 * (y 1).val = (y 1).val; rw [e1]; omega

/-- Window 6's one block is its whole array. -/
theorem blk6 (c : Dev nD) (t : Fin cfg2.N) : iblk2 V c 6 t = A6 V c := by
  funext y
  show V c (Pipeline.arrRef spec2 6) (((cfg2.win 6).blk t).view.emb y) = V c (Pipeline.arrRef spec2 6) y
  refine congrArg _ (funext fun a => Fin.ext ?_)
  obtain ⟨e0, e1⟩ := index2_6 t
  match a with
  | ⟨0, _⟩ => show win2_6.index t (0 : Fin 2) * 1 + 1 * (y 0).val = (y 0).val; rw [e0]; omega
  | ⟨1, _⟩ => show win2_6.index t (1 : Fin 2) * 32 + 1 * (y 1).val = (y 1).val; rw [e1]; omega

/-- Window 7's one block is its whole array. -/
theorem blk7 (c : Dev nD) (t : Fin cfg2.N) : iblk2 V c 7 t = A7 V c := by
  funext y
  show V c (Pipeline.arrRef spec2 7) (((cfg2.win 7).blk t).view.emb y) = V c (Pipeline.arrRef spec2 7) y
  refine congrArg _ (funext fun a => Fin.ext ?_)
  obtain ⟨e0, e1⟩ := index2_7 t
  match a with
  | ⟨0, _⟩ => show win2_7.index t (0 : Fin 2) * 32 + 1 * (y 0).val = (y 0).val; rw [e0]; omega
  | ⟨1, _⟩ => show win2_7.index t (1 : Fin 2) * 128 + 1 * (y 1).val = (y 1).val; rw [e1]; omega

/-- Window 8's one block is its whole array. -/
theorem blk8 (c : Dev nD) (t : Fin cfg2.N) : iblk2 V c 8 t = A8 V c := by
  funext y
  show V c (Pipeline.arrRef spec2 8) (((cfg2.win 8).blk t).view.emb y) = V c (Pipeline.arrRef spec2 8) y
  refine congrArg _ (funext fun a => Fin.ext ?_)
  obtain ⟨e0, e1⟩ := index2_8 t
  match a with
  | ⟨0, _⟩ => show win2_8.index t (0 : Fin 2) * 1 + 1 * (y 0).val = (y 0).val; rw [e0]; omega
  | ⟨1, _⟩ => show win2_8.index t (1 : Fin 2) * 128 + 1 * (y 1).val = (y 1).val; rw [e1]; omega

/-- The body's output of the nine arrays. -/
abbrev G9 (c : Dev nD) : FVec F S256x128 .f32 :=
  k2_pay1 (k2_pay2 (A0 V c) (A1 V c) (A2 V c) (A3 V c) (A4 V c) (A5 V c) (A6 V c)) (A7 V c) (A8 V c)

/-- What the one point writes back is that output, read through the result's one block. -/
theorem flushed9_eq (c : Dev nD) (t : Fin cfg2.N) :
    (dat2 V c).flushed 9 t = ((cfg2.win 9).blk t).view.read (Elt F) (G9 V c) := by
  show (cfg2.win 9).cut (grid2.coords t) ((dat2 V c).after 9 t) = _
  rw [after2_9]
  unfold out2_9
  rw [View.canon_unit_zero hz2]
  simp only [View.ld_unit_zero (S := S2x256x128) hz3, View.ld_unit_zero (S := S2x1x256) hz3,
    View.ld_unit_zero (S := S256x128) hz2, View.ld_unit_zero (S := S384x32) hz2, View.ld_unit_zero (S := S1x32) hz2,
    View.ld_unit_zero (S := S32x128) hz2, View.ld_unit_zero (S := S1x128) hz2]
  rw [blk0, blk1, blk2, blk3, blk4, blk5, blk6, blk7, blk8]
  funext y
  show G9 V c y = G9 V c (((cfg2.win 9).blk t).view.emb y)
  refine congrArg _ (funext fun a => Fin.ext ?_)
  obtain ⟨e0, e1⟩ := index2_9 t
  match a with
  | ⟨0, _⟩ => show (y 0).val = win2_9.index t (0 : Fin 2) * 256 + 1 * (y 0).val; rw [e0]; omega
  | ⟨1, _⟩ => show (y 1).val = win2_9.index t (1 : Fin 2) * 128 + 1 * (y 1).val; rw [e1]; omega

/-- The result array after the run. -/
theorem final9 (c : Dev nD) : (dat2 V c).arrAt 9 cfg2.N = G9 V c :=
  (dat2 V c).arrAt_eq_of_cover 9 (G9 V c) (fun t _ => flushed9_eq V c t) fun i =>
    ⟨t2_0, flush2_9 t2_0, by
      show i ∈ ((View.whole main_v8).slice (win2_9.rect t2_0)).set
      rw [View.set_slice_whole, Rect.mem_set_unit]
      intro a
      obtain ⟨e0, e1⟩ := index2_9 t2_0
      have h0 : (i 0 : Nat) < 256 := (i 0).isLt
      have h1 : (i 1 : Nat) < 128 := (i 1).isLt
      match a with
      | ⟨0, _⟩ => show win2_9.index t2_0 (0 : Fin 2) * 256 ≤ (i 0 : Nat) ∧ (i 0 : Nat) < win2_9.index t2_0 (0 : Fin 2) * 256 + 256; rw [e0]; omega
      | ⟨1, _⟩ => show win2_9.index t2_0 (1 : Fin 2) * 128 ≤ (i 1 : Nat) ∧ (i 1 : Nat) < win2_9.index t2_0 (1 : Fin 2) * 128 + 128; rw [e1]; omega⟩

end Cert.KernelIdeal.R2

end
-- ==== Proof.Epilogue.lean ====
/-
  The last kernel's body is the perceptron over the two means.

  It adds the two per-core partial sums and partial counts of each reduction, divides each sum by
  `max(count, 1)` laid along the features, lays the global features and the two means side by side, and applies
  `max(x · W1 + b1, 0) · W2 + b2`. Against the reference only the spelling differs: a matrix product into a zero
  accumulator for a product without one, a count row transposed to a column and broadcast for a vector broadcast
  twice, a bias row broadcast down the buckets, a splat zero for a broadcast constant.

  Each difference of spelling is one whole-array equation below; the theorem rewrites the kernel's term by them,
  piece by piece, into the reference's. The concatenation of the three feature blocks is the same operation on
  both sides and is never opened.
-/
import proofs.«425581_j16449724745524_3_alg».proof.Proof.Tail
import proofs.«425581_j16449724745524_3_alg».proof.Proof.Gen.KernelIdeal.Skeleton
import Idealize.ShloMosaic.Lib.KernelVsHost
import Idealize.ShloMosaic.Lib.ValueLayout

noncomputable section

namespace Cert.Bridge

open Idealize.ShloMosaic Idealize.ShloMosaic.ValueIdx
open Cert.KernelIdeal

/-! ## Broadcasts of a column and of a row, read at an index -/
section Generic
variable {α : Type}

/-- A one-column matrix broadcast along `n` columns (the host's spelling), read at (r, t), is the column at (r, 0). -/
theorem broadcastInDim_oneCol_apply {m n : Nat}
    (hbc : (⟨2, ![m, 1]⟩ : Shape).BroadcastsInDim ⟨2, ![m, n]⟩ ![0, 1])
    (y : (⟨2, ![m, 1]⟩ : Shape).Idx → α) (r : Fin m) (t : Fin n) :
    broadcastInDim ⟨2, ![m, n]⟩ ![0, 1] hbc y (ix2 r t) = y (ix2 r (0 : Fin 1)) := by
  refine broadcastInDim_apply ![0, 1] hbc y (ix2 r t) (ix2 r (0 : Fin 1)) ?_
  intro a
  fin_cases a
  · show r.val = if m = 1 then 0 else r.val
    split_ifs with hm
    · have := r.isLt; omega
    · rfl
  · show (0 : ℕ) = if (1 : ℕ) = 1 then 0 else _
    simp

/-- A vector made a one-column matrix (the host's spelling), read at (r, 0), is the vector at r. -/
theorem broadcastInDim_asCol_apply {m : Nat}
    (hbc : (⟨1, ![m]⟩ : Shape).BroadcastsInDim ⟨2, ![m, 1]⟩ ![0])
    (y : (⟨1, ![m]⟩ : Shape).Idx → α) (r : Fin m) (u : Fin 1) :
    broadcastInDim ⟨2, ![m, 1]⟩ ![0] hbc y (ix2 r u) = y (ix1 r) := by
  refine broadcastInDim_apply ![0] hbc y (ix2 r u) (ix1 r) ?_
  intro a
  fin_cases a
  show r.val = if m = 1 then 0 else r.val
  split_ifs with hm
  · have := r.isLt; omega
  · rfl

/-- A vector made a one-row matrix (the host's spelling), read at (0, t), is the vector at t. -/
theorem broadcastInDim_asRow_apply {n : Nat}
    (hbc : (⟨1, ![n]⟩ : Shape).BroadcastsInDim ⟨2, ![1, n]⟩ ![1])
    (y : (⟨1, ![n]⟩ : Shape).Idx → α) (u : Fin 1) (t : Fin n) :
    broadcastInDim ⟨2, ![1, n]⟩ ![1] hbc y (ix2 u t) = y (ix1 t) := by
  refine broadcastInDim_apply ![1] hbc y (ix2 u t) (ix1 t) ?_
  intro a
  fin_cases a
  show t.val = if n = 1 then 0 else t.val
  split_ifs with hn
  · have := t.isLt; omega
  · rfl

/-- A one-column matrix broadcast along `n` columns (the kernel's spelling), read at (r, t), is the column at (r, 0). -/
theorem broadcastTo_oneCol_apply {m n : Nat} (v : (⟨2, ![m, 1]⟩ : Shape).Idx → α)
    (h : (⟨2, ![m, 1]⟩ : Shape).Broadcasts ⟨2, ![m, n]⟩) (r : Fin m) (t : Fin n) :
    broadcastTo ⟨2, ![m, n]⟩ v h (ix2 r t) = v (ix2 r (0 : Fin 1)) := by
  refine broadcastTo_apply v h (ix2 r t) (ix2 r (0 : Fin 1)) fun ax => ?_
  match ax with
  | ⟨0, _⟩ =>
    show r.val = if m = 1 then 0 else r.val
    split
    · have := r.isLt; omega
    · rfl
  | ⟨1, _⟩ => rfl

end Generic

/-! ## The spellings that differ, one equation each -/

/-- The kernel's sum over the leading axis of a two-slot partial, into a zero accumulator, adds the two slots. -/
theorem sum_lead (x : FVec Ideal S2x256x128 .f32) (hc : S2x256x128.ShapeCasts S2x256x128)
    (h : S2x256x128.Reduces [0] S256x128) (hφ : FKind.Formats .f32)
    (hacc : (0x00000000#32 : BitVec 32) = 0x00000000#32) :
    multiReduction (F := Ideal) .add [0] S256x128 (shapeCast S2x256x128 x hc) 0x00000000#32 h hφ hacc = sum2 x := by
  rw [shapeCast_self]
  funext i
  obtain ⟨b, d, rfl⟩ : ∃ (b : Fin 256) (d : Fin 128), i = ix2 b d := ⟨i 0, i 1, eq_ix2 i⟩
  refine (Ideal.multiReduction_add_single x 0x00000000#32 h hφ hacc (ix2 b d)).trans ?_
  show ∑ k : Fin 2, x (h.lift (ix2 b d) k) = _
  rw [Fin.sum_univ_two]
  have e0 : h.lift (ix2 b d) (0 : Fin 2) = ix3 (0 : Fin 2) b d :=
    funext fun a => Fin.ext (match a with | ⟨0, _⟩ => rfl | ⟨1, _⟩ => rfl | ⟨2, _⟩ => rfl)
  have e1 : h.lift (ix2 b d) (1 : Fin 2) = ix3 (1 : Fin 2) b d :=
    funext fun a => Fin.ext (match a with | ⟨0, _⟩ => rfl | ⟨1, _⟩ => rfl | ⟨2, _⟩ => rfl)
  rw [e0, e1]
  rfl

/-- The kernel's sum over the leading axis of a two-slot count row, read at (0, b), adds the two slots. -/
theorem cnt_lead_apply (c : FVec Ideal S2x1x256 .f32) (hc : S2x1x256.ShapeCasts S2x1x256)
    (h : S2x1x256.Reduces [0] S1x256) (hφ : FKind.Formats .f32)
    (hacc : (0x00000000#32 : BitVec 32) = 0x00000000#32) (b : Fin 256) :
    multiReduction (F := Ideal) .add [0] S1x256 (shapeCast S2x1x256 c hc) 0x00000000#32 h hφ hacc (ix2 (0 : Fin 1) b)
      = cnt2 c (ix1 b) := by
  rw [shapeCast_self]
  refine (Ideal.multiReduction_add_single c 0x00000000#32 h hφ hacc (ix2 (0 : Fin 1) b)).trans ?_
  show ∑ k : Fin 2, c (h.lift (ix2 (0 : Fin 1) b) k) = _
  rw [Fin.sum_univ_two]
  have e0 : h.lift (ix2 (0 : Fin 1) b) (0 : Fin 2) = ix3 (0 : Fin 2) (0 : Fin 1) b :=
    funext fun a => Fin.ext (match a with | ⟨0, _⟩ => rfl | ⟨1, _⟩ => rfl | ⟨2, _⟩ => rfl)
  have e1 : h.lift (ix2 (0 : Fin 1) b) (1 : Fin 2) = ix3 (1 : Fin 2) (0 : Fin 1) b :=
    funext fun a => Fin.ext (match a with | ⟨0, _⟩ => rfl | ⟨1, _⟩ => rfl | ⟨2, _⟩ => rfl)
  rw [e0, e1]
  rfl

/-- The divisor: the kernel's count column, clamped below by one and laid along the features, is the reference's
    count vector clamped, made a column and broadcast. -/
theorem divisor_eq (c : FVec Ideal S2x1x256 .f32) (hc : S2x1x256.ShapeCasts S2x1x256)
    (h : S2x1x256.Reduces [0] S1x256) (hφ : FKind.Formats .f32)
    (hacc : (0x00000000#32 : BitVec 32) = 0x00000000#32)
    (ht : S1x256.Transposes [1, 0] S256x1) (hb : S256x1.Broadcasts S256x128)
    (h1 : Cert.ReferenceIdeal.S256x1.BroadcastsInDim Cert.ReferenceIdeal.S256x128 ![0, 1])
    (h2 : Cert.ReferenceIdeal.S256.BroadcastsInDim Cert.ReferenceIdeal.S256x1 ![0])
    (h3 : Cert.ReferenceIdeal.S_.BroadcastsInDim Cert.ReferenceIdeal.S256 ![]) :
    broadcastTo S256x128
        (maximumf (transpose S256x1 [1, 0]
            (multiReduction (F := Ideal) .add [0] S1x256 (shapeCast S2x1x256 c hc) 0x00000000#32 h hφ hacc) ht)
          (broadcast S256x1 (Scalar.ofBits (F := Ideal) .f32 0x3F800000#32))) hb
      = broadcastInDim Cert.ReferenceIdeal.S256x128 ![0, 1] h1
          (broadcastInDim Cert.ReferenceIdeal.S256x1 ![0] h2
            (maximumf (cnt2 c) (broadcastInDim Cert.ReferenceIdeal.S256 ![] h3
              (constant (F := Ideal) Cert.ReferenceIdeal.S_ .f32 0x3F800000#32)))) := by
  funext i
  obtain ⟨b, d, rfl⟩ : ∃ (b : Fin 256) (d : Fin 128), i = ix2 b d := ⟨i 0, i 1, eq_ix2 i⟩
  rw [broadcastTo_oneCol_apply, broadcastInDim_oneCol_apply, broadcastInDim_asCol_apply, maximumf_apply, maximumf_apply,
    transpose_ix2_apply, cnt_lead_apply]
  rfl

/-- A bias row laid down the buckets: the kernel broadcasts the one-row matrix, the reference reads the row back as
    a vector and broadcasts it twice. -/
theorem biasRow_eq {m n : Nat} (x : FVec Ideal (⟨2, ![1, n]⟩ : Shape) .f32)
    (hc : (⟨2, ![1, n]⟩ : Shape).ShapeCasts ⟨2, ![1, n]⟩) (hb : (⟨2, ![1, n]⟩ : Shape).Broadcasts ⟨2, ![m, n]⟩)
    (h1 : (⟨2, ![1, n]⟩ : Shape).BroadcastsInDim ⟨2, ![m, n]⟩ ![0, 1])
    (h2 : (⟨1, ![n]⟩ : Shape).BroadcastsInDim ⟨2, ![1, n]⟩ ![1]) :
    broadcastTo ⟨2, ![m, n]⟩ (shapeCast ⟨2, ![1, n]⟩ x hc) hb
      = broadcastInDim ⟨2, ![m, n]⟩ ![0, 1] h1
          (broadcastInDim ⟨2, ![1, n]⟩ ![1] h2
            (fun i : (⟨1, ![n]⟩ : Shape).Idx => x (ix2 (0 : Fin 1) (i 0 : Fin n)))) := by
  rw [shapeCast_self]
  funext i
  obtain ⟨r, t, rfl⟩ : ∃ (r : Fin m) (t : Fin n), i = ix2 r t := ⟨i 0, i 1, eq_ix2 i⟩
  rw [broadcastTo_1b_ab_apply, broadcastInDim_oneRow_apply, broadcastInDim_asRow_apply]
  rfl

/-- The two programs' dimension numbers of the first product are one record. -/
theorem dot1_eq : Cert.KernelIdeal.dot_S256x384_S384x32_S256x32_1_0_0_1_n_n
    = Cert.ReferenceIdeal.dot_S256x384_S384x32_S256x32_1_0_0_1_n_n := rfl

/-- The two programs' dimension numbers of the second product are one record. -/
theorem dot2_eq : Cert.KernelIdeal.dot_S256x32_S32x128_S256x128_1_0_0_1_n_n
    = Cert.ReferenceIdeal.dot_S256x32_S32x128_S256x128_1_0_0_1_n_n := rfl

/-- At the ideal values the kernel's quotient is the host's. -/
theorem divf_eq_hostDivf {s : Shape} {φ : FTy} (a b : FVec Ideal s φ) : divf a b = Host.divf (F := Ideal) a b := rfl

/-! ## The epilogue -/

theorem epilogue_eq (x0 : FVec Ideal S2x256x128 .f32) (x1 : FVec Ideal S2x1x256 .f32) (x2 : FVec Ideal S2x256x128 .f32)
    (x3 : FVec Ideal S2x1x256 .f32) (x4 : FVec Ideal S256x128 .f32) (x5 : FVec Ideal S384x32 .f32)
    (x6 : FVec Ideal S1x32 .f32) (x7 : FVec Ideal S32x128 .f32) (x8 : FVec Ideal S1x128 .f32) :
    Cert.KernelIdeal.Gen.k2_pay1 (F := Ideal) (Cert.KernelIdeal.Gen.k2_pay2 (F := Ideal) x0 x1 x2 x3 x4 x5 x6) x7 x8
      = tail x4 (agg (sum2 x0) (cnt2 x1)) (agg (sum2 x2) (cnt2 x3)) x5 (row32 x6) x7 (row128 x8) := by
  unfold Cert.KernelIdeal.Gen.k2_pay1 Cert.KernelIdeal.Gen.k2_pay2 tail agg
  dsimp only
  -- the two sums and the two divisors, then the quotients
  rw [sum_lead x0, sum_lead x2,
    divisor_eq x1 _ _ _ _ _ _ Cert.ReferenceIdeal.Facts₀.bcast_S256x1_S256x128_0_1
      Cert.ReferenceIdeal.Facts₀.bcast_S256_S256x1_0 Cert.ReferenceIdeal.Facts₀.bcast_S_S256,
    divisor_eq x3 _ _ _ _ _ _ Cert.ReferenceIdeal.Facts₀.bcast_S256x1_S256x128_0_1
      Cert.ReferenceIdeal.Facts₀.bcast_S256_S256x1_0 Cert.ReferenceIdeal.Facts₀.bcast_S_S256,
    divf_eq_hostDivf, divf_eq_hostDivf]
  -- the two products into a zero accumulator, over one record of dimension numbers
  rw [matmul_zero_eq_dotGeneral, matmul_zero_eq_dotGeneral, dot1_eq, dot2_eq]
  -- the two bias rows and the splat zero
  rw [biasRow_eq x6 _ _ Cert.ReferenceIdeal.Facts₀.bcast_S1x32_S256x32_0_1 Cert.ReferenceIdeal.Facts₀.bcast_S32_S1x32_1,
    biasRow_eq x8 _ _ Cert.ReferenceIdeal.Facts₀.bcast_S1x128_S256x128_0_1 Cert.ReferenceIdeal.Facts₀.bcast_S128_S1x128_1,
    ← broadcastInDim_constant (F := Ideal) (s := Cert.ReferenceIdeal.S_) (φ := .f32) ![]
      Cert.ReferenceIdeal.Facts₀.bcast_S_S256x32 0x00000000#32]
  -- what is left differs by the two programs' names of one shape and by `row32`, `row128` unfolded
  rfl

end Cert.Bridge

end
-- ==== Proof.RefAgg.lean ====
/-
  The reference's four scatters, read at an index.

  A scatter-add of row `n`'s update into bucket `idx[n]` lands on bucket `b` exactly when the index word, read as a
  signed number, is `b`; for `b < 256` that is the word being `b` itself. So bucket `b` (feature `d`) ends at the sum
  over all rows of the one-hot factor times the row's update: an out-of-range index, negative or too large, meets no
  bucket and contributes nothing, exactly as a one-hot row of zeros does.
-/
import proofs.«425581_j16449724745524_3_alg».proof.Proof.Tail
import proofs.«425581_j16449724745524_3_alg».proof.Proof.LibSegSum
import Idealize.ShloMosaic.Lib.IdealHost

noncomputable section

namespace Cert.Bridge

open Idealize.ShloMosaic Idealize.ShloMosaic.ValueIdx
open Cert.ReferenceIdeal Cert.ReferenceIdeal.Facts₀

/-! ## General facts: where an update lands, the signed word, sums over rows -/

/-- A scatter's update lands on operand index `i` exactly when start plus window coordinate is `i`'s coordinate on
    every axis. -/
theorem resultIdx?_eq_some_iff {s si u : Shape} (D : ScatterDims s si u) {w : Nat} (j : u.Idx) (idx : IVec si w)
    (i : s.Idx) :
    D.resultIdx? j idx = some i ↔ ∀ a, D.start j idx a + (D.window j a : ℤ) = ((i a).val : ℤ) := by
  unfold ScatterDims.resultIdx?
  constructor
  · intro h
    split at h
    · rename_i hh
      have h' := Option.some.inj h
      intro a
      have hv := congrArg Fin.val (congrFun h' a)
      simp only at hv
      have := hh a
      omega
    · exact absurd h (by simp)
  · intro h
    have hh : ∀ a, 0 ≤ D.start j idx a + D.window j a ∧ D.start j idx a + D.window j a < s.size a := by
      intro a
      have := h a
      have := (i a).isLt
      constructor <;> omega
    rw [dif_pos hh]
    congr 1
    funext a
    apply Fin.ext
    simp only
    have := h a
    omega

/-- A 32-bit word read signed is the bucket number `b < 256` exactly when it is the word `b`. -/
theorem toInt_eq_iff (w : BitVec 32) (b : Fin 256) : w.toInt = (b.val : ℤ) ↔ w = BitVec.ofNat 32 b.val := by
  have hb := b.isLt
  have h2 : (BitVec.ofNat 32 b.val).toInt = (b.val : ℤ) := by
    rw [BitVec.toInt_ofNat']
    simp only [Int.bmod]
    omega
  constructor
  · intro h
    apply BitVec.eq_of_toInt_eq
    rw [h, h2]
  · intro h
    rw [h, h2]

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Over one row's features, the update that lands on feature `d` under the condition `P` of the row: the one-hot
    factor of `P` times the update at `d`. -/
theorem sum_and_eq {m : Nat} (P : Prop) [Decidable P] (d : Fin m) (f : Fin m → EReal) :
    (∑ x : Fin m, if P ∧ x = d then f x else 0) = (if P then (1 : EReal) else 0) * f d := by
  by_cases hP : P
  · simp [hP]
  · simp [hP]

/-! ## The two scatters over `N` rows

Both scatters send row `n` to the bucket its index word names: the index vector's axis is the unit axis of the
`N × 1` index array, the one operand axis it addresses is the bucket axis, and that axis is inserted (no window
coordinate on it). The feature scatter keeps a window axis for the 128 features; the count scatter has none. -/

section Rows

variable {N : Nat}

theorem seg_start0 (wf : ScatterDims.WF (⟨2, ![256, 128]⟩ : Shape) ⟨2, ![N, 1]⟩ ⟨2, ![N, 128]⟩ [1] [0] [0] 1)
    (idx' : IVec ⟨2, ![N, 1]⟩ 32) (n : Fin N) (d' : Fin 128) :
    (⟨[1], [0], [0], 1, wf⟩ : ScatterDims (⟨2, ![256, 128]⟩ : Shape) ⟨2, ![N, 1]⟩ ⟨2, ![N, 128]⟩).start
      (ix2 n d') idx' (0 : Fin 2) = (idx' (ix2 n (0 : Fin 1))).toInt := by
  unfold ScatterDims.start
  rw [dif_pos (by show (0 : Fin 2) ∈ ([0] : List (Fin 2)); decide)]
  congr 1
  congr 1
  funext a
  match a with
  | ⟨0, _⟩ => rfl
  | ⟨1, _⟩ => rfl

theorem seg_start1 (wf : ScatterDims.WF (⟨2, ![256, 128]⟩ : Shape) ⟨2, ![N, 1]⟩ ⟨2, ![N, 128]⟩ [1] [0] [0] 1)
    (idx' : IVec ⟨2, ![N, 1]⟩ 32) (n : Fin N) (d' : Fin 128) :
    (⟨[1], [0], [0], 1, wf⟩ : ScatterDims (⟨2, ![256, 128]⟩ : Shape) ⟨2, ![N, 1]⟩ ⟨2, ![N, 128]⟩).start
      (ix2 n d') idx' (1 : Fin 2) = 0 := by
  unfold ScatterDims.start
  rw [dif_neg (by show (1 : Fin 2) ∉ ([0] : List (Fin 2)); decide)]

theorem seg_window0 (wf : ScatterDims.WF (⟨2, ![256, 128]⟩ : Shape) ⟨2, ![N, 1]⟩ ⟨2, ![N, 128]⟩ [1] [0] [0] 1)
    (n : Fin N) (d' : Fin 128) :
    (⟨[1], [0], [0], 1, wf⟩ : ScatterDims (⟨2, ![256, 128]⟩ : Shape) ⟨2, ![N, 1]⟩ ⟨2, ![N, 128]⟩).window
      (ix2 n d') (0 : Fin 2) = 0 := by
  unfold ScatterDims.window
  rw [dif_neg (by show (0 : Fin 2) ∉ ([1] : List (Fin 2)); decide)]

theorem seg_window1 (wf : ScatterDims.WF (⟨2, ![256, 128]⟩ : Shape) ⟨2, ![N, 1]⟩ ⟨2, ![N, 128]⟩ [1] [0] [0] 1)
    (n : Fin N) (d' : Fin 128) :
    (⟨[1], [0], [0], 1, wf⟩ : ScatterDims (⟨2, ![256, 128]⟩ : Shape) ⟨2, ![N, 1]⟩ ⟨2, ![N, 128]⟩).window
      (ix2 n d') (1 : Fin 2) = d'.val := by
  unfold ScatterDims.window
  rw [dif_pos (by show (1 : Fin 2) ∈ ([1] : List (Fin 2)); decide)]
  rfl

/-- Row `n`'s update at feature `d'` lands on bucket `b`, feature `d`, exactly when the row's index word is `b`
    and the feature is the same. -/
theorem seg_lands (wf : ScatterDims.WF (⟨2, ![256, 128]⟩ : Shape) ⟨2, ![N, 1]⟩ ⟨2, ![N, 128]⟩ [1] [0] [0] 1)
    (idx' : IVec ⟨2, ![N, 1]⟩ 32) (n : Fin N) (d' : Fin 128) (b : Fin 256) (d : Fin 128) :
    (⟨[1], [0], [0], 1, wf⟩ : ScatterDims (⟨2, ![256, 128]⟩ : Shape) ⟨2, ![N, 1]⟩ ⟨2, ![N, 128]⟩).resultIdx?
      (ix2 n d') idx' = some (ix2 b d) ↔ idx' (ix2 n (0 : Fin 1)) = BitVec.ofNat 32 b.val ∧ d' = d := by
  rw [resultIdx?_eq_some_iff, Fin.forall_fin_two, seg_start0, seg_start1, seg_window0, seg_window1, ← toInt_eq_iff]
  have e0 : ((ix2 b d) (0 : Fin 2)).val = b.val := rfl
  have e1 : ((ix2 b d) (1 : Fin 2)).val = d.val := rfl
  constructor
  · rintro ⟨h0, h1⟩
    refine ⟨?_, Fin.ext ?_⟩
    · omega
    · omega
  · rintro ⟨h0, h1⟩
    have := congrArg Fin.val h1
    refine ⟨?_, ?_⟩
    · omega
    · omega

theorem cnt_start0 (wf : ScatterDims.WF (⟨1, ![256]⟩ : Shape) ⟨2, ![N, 1]⟩ ⟨1, ![N]⟩ [] [0] [0] 1)
    (idx' : IVec ⟨2, ![N, 1]⟩ 32) (n : Fin N) :
    (⟨[], [0], [0], 1, wf⟩ : ScatterDims (⟨1, ![256]⟩ : Shape) ⟨2, ![N, 1]⟩ ⟨1, ![N]⟩).start
      (ix1 n) idx' (0 : Fin 1) = (idx' (ix2 n (0 : Fin 1))).toInt := by
  unfold ScatterDims.start
  rw [dif_pos (by show (0 : Fin 1) ∈ ([0] : List (Fin 1)); decide)]
  congr 1
  congr 1
  funext a
  match a with
  | ⟨0, _⟩ => rfl
  | ⟨1, _⟩ => rfl

theorem cnt_window0 (wf : ScatterDims.WF (⟨1, ![256]⟩ : Shape) ⟨2, ![N, 1]⟩ ⟨1, ![N]⟩ [] [0] [0] 1) (n : Fin N) :
    (⟨[], [0], [0], 1, wf⟩ : ScatterDims (⟨1, ![256]⟩ : Shape) ⟨2, ![N, 1]⟩ ⟨1, ![N]⟩).window
      (ix1 n) (0 : Fin 1) = 0 := by
  unfold ScatterDims.window
  rw [dif_neg (by show (0 : Fin 1) ∉ ([] : List (Fin 1)); decide)]

/-- Row `n`'s one lands on bucket `b` exactly when the row's index word is `b`. -/
theorem cnt_lands (wf : ScatterDims.WF (⟨1, ![256]⟩ : Shape) ⟨2, ![N, 1]⟩ ⟨1, ![N]⟩ [] [0] [0] 1)
    (idx' : IVec ⟨2, ![N, 1]⟩ 32) (n : Fin N) (b : Fin 256) :
    (⟨[], [0], [0], 1, wf⟩ : ScatterDims (⟨1, ![256]⟩ : Shape) ⟨2, ![N, 1]⟩ ⟨1, ![N]⟩).resultIdx?
      (ix1 n) idx' = some (ix1 b) ↔ idx' (ix2 n (0 : Fin 1)) = BitVec.ofNat 32 b.val := by
  rw [resultIdx?_eq_some_iff, Fin.forall_fin_one, cnt_start0, cnt_window0, ← toInt_eq_iff]
  have e0 : ((ix1 b) (0 : Fin 1)).val = b.val := rfl
  constructor
  · intro h0
    omega
  · intro h0
    omega

/-- A vector of `N` rows laid along a unit axis reads, at row `n`, the vector's element `n` (the row count not being
    1, the row axis is not a unit axis of the operand). -/
theorem col_apply {α : Type} (hN : N ≠ 1) (h : (⟨1, ![N]⟩ : Shape).BroadcastsInDim ⟨2, ![N, 1]⟩ ![0])
    (x : (⟨1, ![N]⟩ : Shape).Idx → α) (n : Fin N) :
    broadcastInDim ⟨2, ![N, 1]⟩ ![0] h x (ix2 n (0 : Fin 1)) = x (ix1 n) := by
  unfold broadcastInDim
  refine congrArg x (funext fun a => ?_)
  match a with
  | ⟨0, _⟩ =>
    split
    · rename_i h1
      exact absurd h1 hN
    · rfl

/-- A column of `N` rows laid along 128 features reads, at row `n` and any feature, the column's element `n`. -/
theorem row_apply {α : Type} (hN : N ≠ 1) (h : (⟨2, ![N, 1]⟩ : Shape).BroadcastsInDim ⟨2, ![N, 128]⟩ ![0, 1])
    (y : (⟨2, ![N, 1]⟩ : Shape).Idx → α) (n : Fin N) (d : Fin 128) :
    broadcastInDim ⟨2, ![N, 128]⟩ ![0, 1] h y (ix2 n d) = y (ix2 n (0 : Fin 1)) := by
  unfold broadcastInDim
  refine congrArg y (funext fun a => ?_)
  match a with
  | ⟨0, _⟩ =>
    split
    · rename_i h1
      exact absurd h1 hN
    · rfl
  | ⟨1, _⟩ => rfl

end Rows

/-! ## The two scatters from zero, at a bucket -/

section Core

variable {N : Nat}

/-- The masked segment sum over `N` rows: bucket `b`, feature `d` holds the sum over the rows of the one-hot factor
    times the masked feature. -/
theorem seg_core (hN : N ≠ 1)
    (wf : ScatterDims.WF (⟨2, ![256, 128]⟩ : Shape) ⟨2, ![N, 1]⟩ ⟨2, ![N, 128]⟩ [1] [0] [0] 1)
    (hz : (⟨0, ![]⟩ : Shape).BroadcastsInDim ⟨2, ![256, 128]⟩ ![])
    (hc : (⟨1, ![N]⟩ : Shape).BroadcastsInDim ⟨2, ![N, 1]⟩ ![0])
    (hr : (⟨2, ![N, 1]⟩ : Shape).BroadcastsInDim ⟨2, ![N, 128]⟩ ![0, 1])
    (idx : IVec ⟨1, ![N]⟩ 32) (attr : FVec Ideal ⟨2, ![N, 128]⟩ .f32) (mask : FVec Ideal ⟨1, ![N]⟩ .f32)
    (b : Fin 256) (d : Fin 128) :
    Host.scatterAdd (F := Ideal)
        (⟨[1], [0], [0], 1, wf⟩ : ScatterDims (⟨2, ![256, 128]⟩ : Shape) ⟨2, ![N, 1]⟩ ⟨2, ![N, 128]⟩)
        (broadcastInDim ⟨2, ![256, 128]⟩ ![] hz (constant (F := Ideal) ⟨0, ![]⟩ .f32 0x00000000#32))
        (broadcastInDim ⟨2, ![N, 1]⟩ ![0] hc idx)
        (mulf attr (broadcastInDim ⟨2, ![N, 128]⟩ ![0, 1] hr (broadcastInDim ⟨2, ![N, 1]⟩ ![0] hc mask)))
        (ix2 b d)
      = ∑ n : Fin N, hot (idx (ix1 n)) b * (attr (ix2 n d) * mask (ix1 n)) := by
  unfold Host.scatterAdd
  rw [Ideal.hostScatterAdd_def]
  unfold Ideal.hostScatterAdd
  rw [broadcastInDim_scalar_apply, constant_apply, Ideal.ofBits_zero_f32, zero_add, Finset.sum_filter, sum_idx2]
  refine Finset.sum_congr rfl fun n _ => ?_
  unfold hot
  rw [← sum_and_eq (idx (ix1 n) = BitVec.ofNat 32 b.val) d fun x => attr (ix2 n x) * mask (ix1 n)]
  refine Finset.sum_congr rfl fun d' _ => ?_
  rw [mulf_apply, row_apply hN, col_apply hN, ← col_apply hN hc idx n]
  exact if_congr (seg_lands wf _ n d' b d) rfl rfl

/-- The bucket counts over `N` rows: bucket `b` holds the sum over the rows of the one-hot factor. -/
theorem cnt_core (hN : N ≠ 1)
    (wf : ScatterDims.WF (⟨1, ![256]⟩ : Shape) ⟨2, ![N, 1]⟩ ⟨1, ![N]⟩ [] [0] [0] 1)
    (hz : (⟨0, ![]⟩ : Shape).BroadcastsInDim ⟨1, ![256]⟩ ![])
    (hc : (⟨1, ![N]⟩ : Shape).BroadcastsInDim ⟨2, ![N, 1]⟩ ![0])
    (ho : (⟨0, ![]⟩ : Shape).BroadcastsInDim ⟨1, ![N]⟩ ![])
    (idx : IVec ⟨1, ![N]⟩ 32) (b : Fin 256) :
    Host.scatterAdd (F := Ideal)
        (⟨[], [0], [0], 1, wf⟩ : ScatterDims (⟨1, ![256]⟩ : Shape) ⟨2, ![N, 1]⟩ ⟨1, ![N]⟩)
        (broadcastInDim ⟨1, ![256]⟩ ![] hz (constant (F := Ideal) ⟨0, ![]⟩ .f32 0x00000000#32))
        (broadcastInDim ⟨2, ![N, 1]⟩ ![0] hc idx)
        (broadcastInDim ⟨1, ![N]⟩ ![] ho (constant (F := Ideal) ⟨0, ![]⟩ .f32 0x3F800000#32))
        (ix1 b)
      = ∑ n : Fin N, hot (idx (ix1 n)) b := by
  unfold Host.scatterAdd
  rw [Ideal.hostScatterAdd_def]
  unfold Ideal.hostScatterAdd
  rw [broadcastInDim_scalar_apply, constant_apply, Ideal.ofBits_zero_f32, zero_add, Finset.sum_filter, sum_idx1]
  refine Finset.sum_congr rfl fun n _ => ?_
  unfold hot
  rw [broadcastInDim_scalar_apply, constant_apply, Ideal.ofBits_one_f32, ← col_apply hN hc idx n]
  exact if_congr (cnt_lands wf _ n b) rfl rfl

end Core

/-! ## The four statements -/

theorem segE_apply (idx : IVec S600000 32) (attr : FVec Ideal S600000x128 .f32) (mask : FVec Ideal S600000 .f32)
    (b : Fin 256) (d : Fin 128) :
    segE idx attr mask (ix2 b d) = ∑ n : Fin 600000, hot (idx (ix1 n)) b * (attr (ix2 n d) * mask (ix1 n)) := by
  exact seg_core (by decide) _ _ _ _ idx attr mask b d

theorem cntE_apply (idx : IVec S600000 32) (b : Fin 256) :
    cntE idx (ix1 b) = ∑ n : Fin 600000, hot (idx (ix1 n)) b := by
  exact cnt_core (by decide) _ _ _ _ idx b

theorem segN_apply (idx : IVec S500000 32) (attr : FVec Ideal S500000x128 .f32) (mask : FVec Ideal S500000 .f32)
    (b : Fin 256) (d : Fin 128) :
    segN idx attr mask (ix2 b d) = ∑ n : Fin 500000, hot (idx (ix1 n)) b * (attr (ix2 n d) * mask (ix1 n)) := by
  exact seg_core (by decide) _ _ _ _ idx attr mask b d

theorem cntN_apply (idx : IVec S500000 32) (b : Fin 256) :
    cntN idx (ix1 b) = ∑ n : Fin 500000, hot (idx (ix1 n)) b := by
  exact cnt_core (by decide) _ _ _ _ idx b

end Cert.Bridge

end
-- ==== Proof.Finite.lean ====
/-
  The precondition, read: every entry of the four streamed float arrays is a real number.

  The printed precondition is the conjunction, over the nine float inputs, of "every entry's absolute value is
  below +∞". Over the extended reals `max x (−x) < ⊤` fails exactly at the two infinities, so each conjunct says
  its array's entries are reals. Only the two attribute arrays and the two masks are needed downstream.
-/
import proofs.«425581_j16449724745524_3_alg».proof.Pre_finite_inputs
import proofs.«425581_j16449724745524_3_alg».proof.Proof.Gen.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.Bridge

open Idealize.ShloMosaic Idealize.ShloMosaic.ValueIdx
open Cert.Pre_finite_inputs

/-- An extended real whose absolute value is below +∞ is a real. -/
theorem real_of_abs_lt_inf (x : EReal)
    (h : Ideal.cmp .olt (max x (-x)) (Ideal.ofBits .f32 0x7F800000#32) = 1#1) : ∃ a : ℝ, x = (a : EReal) := by
  have htop : Ideal.ofBits .f32 0x7F800000#32 = ⊤ := by simp [Ideal.ofBits, Ideal.ieee]
  rw [htop] at h
  unfold Ideal.cmp at h
  induction x using EReal.rec with
  | bot => simp at h
  | coe a => exact ⟨a, rfl⟩
  | top => simp at h

instance : Subsingleton S_.Idx := ⟨fun _ _ => funext fun d => d.elim0⟩

/-- Under the precondition the node attributes, the edge attributes, the node mask and the edge mask hold reals. -/
theorem reals_of_pre (a0 : FVec Ideal S500000x128 .f32) (a1 : FVec Ideal S600000x128 .f32) (a2 : FVec Ideal S256x128 .f32)
    (a3 : IVec S500000 32) (a4 : IVec S600000 32) (a5 : FVec Ideal S500000 .f32) (a6 : FVec Ideal S600000 .f32)
    (a7 : FVec Ideal S384x32 .f32) (a8 : FVec Ideal S32 .f32) (a9 : FVec Ideal S32x128 .f32) (a10 : FVec Ideal S128 .f32)
    (h : fn (F := Ideal) a0 a1 a2 a3 a4 a5 a6 a7 a8 a9 a10 = fun _ => 1#1) :
    (∀ i, ∃ a : ℝ, a0 i = (a : EReal)) ∧ (∀ i, ∃ a : ℝ, a1 i = (a : EReal))
      ∧ (∀ i, ∃ a : ℝ, a5 i = (a : EReal)) ∧ (∀ i, ∃ a : ℝ, a6 i = (a : EReal)) := by
  have h0 := congrFun h ix0
  dsimp only [fn, fn_part1, fn_part2] at h0
  obtain ⟨h1, -⟩ := IntOp.andi_eq_one.1 (h0 : IntOp.andi _ _ = 1#1)
  obtain ⟨h2, -⟩ := IntOp.andi_eq_one.1 (h1 : IntOp.andi _ _ = 1#1)
  obtain ⟨h3, -⟩ := IntOp.andi_eq_one.1 (h2 : IntOp.andi _ _ = 1#1)
  obtain ⟨h4, -⟩ := IntOp.andi_eq_one.1 (h3 : IntOp.andi _ _ = 1#1)
  obtain ⟨h5, e6⟩ := IntOp.andi_eq_one.1 (h4 : IntOp.andi _ _ = 1#1)
  obtain ⟨h6, e5⟩ := IntOp.andi_eq_one.1 (h5 : IntOp.andi _ _ = 1#1)
  obtain ⟨h7, -⟩ := IntOp.andi_eq_one.1 (h6 : IntOp.andi _ _ = 1#1)
  obtain ⟨e0, e1⟩ := IntOp.andi_eq_one.1 (h7 : IntOp.andi _ _ = 1#1)
  exact ⟨fun i => real_of_abs_lt_inf (a0 i) (Host.reduce_andi_all _ _ _ _ ix0 e0 i),
    fun i => real_of_abs_lt_inf (a1 i) (Host.reduce_andi_all _ _ _ _ ix0 e1 i),
    fun i => real_of_abs_lt_inf (a5 i) (Host.reduce_andi_all _ _ _ _ ix0 e5 i),
    fun i => real_of_abs_lt_inf (a6 i) (Host.reduce_andi_all _ _ _ _ ix0 e6 i)⟩

end Cert.Bridge

end
-- ==== Proof.Bridge.lean ====
/-
  The idealized kernel's result is the common value.

  Read off the run: the result buffer holds the last kernel's output of its nine operands; that output is the
  perceptron over the two means (the last kernel's body, read); its operands are the launch memory's arguments, the two
  biases as rows, and the two reductions' result arrays; and the two core slots of each reduction's arrays, added,
  are the reference's segment sums and counts of the same arguments (each reduction, read, against each scatter,
  read: both are the sum over all rows of the one-hot factor times the row's term).
-/
import proofs.«425581_j16449724745524_3_alg».proof.Proof.ValueRun
import proofs.«425581_j16449724745524_3_alg».proof.Proof.Thread
import proofs.«425581_j16449724745524_3_alg».proof.Proof.R0Value
import proofs.«425581_j16449724745524_3_alg».proof.Proof.R1Value
import proofs.«425581_j16449724745524_3_alg».proof.Proof.R2Value
import proofs.«425581_j16449724745524_3_alg».proof.Proof.Epilogue
import proofs.«425581_j16449724745524_3_alg».proof.Proof.RefAgg
import proofs.«425581_j16449724745524_3_alg».proof.Proof.Finite
import proofs.«425581_j16449724745524_3_alg».proof.Defs

set_option maxRecDepth 16384

noncomputable section

open Idealize.ShloMosaic Idealize.ShloMosaic.TcCoe Idealize.SL.Sem Idealize.ShloMosaic.ValueIdx

namespace Cert.Bridge

open Cert.KernelIdeal Cert.KernelIdeal.Gen

/-- A vector reshaped to one column, read at row `r`. -/
theorem reshapeCol_apply {α : Type} {n : Nat} (x : (⟨1, ![n]⟩ : Shape).Idx → α) (h : (⟨1, ![n]⟩ : Shape).ShapeCasts ⟨2, ![n, 1]⟩)
    (r : Fin n) : shapeCast ⟨2, ![n, 1]⟩ x h (ix2 r (0 : Fin 1)) = x (ix1 r) :=
  shapeCast_apply x h (ix2 r (0 : Fin 1)) (ix1 r) (by
    rw [Shape.rowMajor_val_two, Shape.rowMajor_val_one]; show r.val = r.val * 1 + 0; omega)

/-- A vector reshaped to one row, read at column `t`. -/
theorem reshapeRow_apply {α : Type} {n : Nat} (x : (⟨1, ![n]⟩ : Shape).Idx → α) (h : (⟨1, ![n]⟩ : Shape).ShapeCasts ⟨2, ![1, n]⟩)
    (t : Fin n) : shapeCast ⟨2, ![1, n]⟩ x h (ix2 (0 : Fin 1) t) = x (ix1 t) :=
  shapeCast_apply x h (ix2 (0 : Fin 1) t) (ix1 t) (by
    rw [Shape.rowMajor_val_two, Shape.rowMajor_val_one]; show t.val = 0 * n + t.val; omega)

variable (m : (ℓ : Loc nD τ sig) → Buf (Elt Ideal) ℓ) (ρ : Dev nD → PrngReg)

/-- The value both programs end with, of the launch memory's arguments. -/
def value (c : Dev nD) : FVec Ideal S256x128 .f32 :=
  tail (m ((c : Thread nD τ).loc main_arg2)) (agg (segE (m ((c : Thread nD τ).loc main_arg4)) (m ((c : Thread nD τ).loc main_arg1)) (m ((c : Thread nD τ).loc main_arg6))) (cntE (m ((c : Thread nD τ).loc main_arg4))))
    (agg (segN (m ((c : Thread nD τ).loc main_arg3)) (m ((c : Thread nD τ).loc main_arg0)) (m ((c : Thread nD τ).loc main_arg5))) (cntN (m ((c : Thread nD τ).loc main_arg3))))
    (m ((c : Thread nD τ).loc main_arg7)) (m ((c : Thread nD τ).loc main_arg8)) (m ((c : Thread nD τ).loc main_arg9)) (m ((c : Thread nD τ).loc main_arg10))

section UnderPre

variable (hpre : Cert.Pre_KernelIdeal m)

include hpre in
theorem reals (c : Dev nD) :
    (∀ i, ∃ a : ℝ, (m ((c : Thread nD τ).loc main_arg0) : FVec Ideal S500000x128 .f32) i = (a : EReal)) ∧ (∀ i, ∃ a : ℝ, (m ((c : Thread nD τ).loc main_arg1) : FVec Ideal S600000x128 .f32) i = (a : EReal))
      ∧ (∀ i, ∃ a : ℝ, (m ((c : Thread nD τ).loc main_arg5) : FVec Ideal S500000 .f32) i = (a : EReal)) ∧ (∀ i, ∃ a : ℝ, (m ((c : Thread nD τ).loc main_arg6) : FVec Ideal S600000 .f32) i = (a : EReal)) :=
  reals_of_pre _ _ _ _ _ _ _ _ _ _ _ (hpre c)

include hpre in
/-- The edges' reduction: its two core slots of sums, added, are the reference's segment sum. -/
theorem sumE_eq (c : Dev nD) :
    sum2 ((dat0 (V1 m ρ) c).arrAt 3 cfg0.N) = segE (m ((c : Thread nD τ).loc main_arg4)) (m ((c : Thread nD τ).loc main_arg1)) (m ((c : Thread nD τ).loc main_arg6)) := by
  funext i
  obtain ⟨b, d, rfl⟩ : ∃ (b : Fin 256) (d : Fin 128), i = ix2 b d := ⟨i 0, i 1, eq_ix2 i⟩
  rw [R0.sum2_final (V1 m ρ)
      (fun c' n d' => by
        show ∃ a : ℝ, (V1 m ρ c' (Pipeline.arrRef spec0 0) : FVec Ideal S600000x128 .f32) (ix2 n d') = (a : EReal)
        rw [Thread.r0_attr]; exact (reals m hpre c').2.1 _)
      (fun c' n => by
        show ∃ a : ℝ, (V1 m ρ c' (Pipeline.arrRef spec0 1) : FVec Ideal S600000x1 .f32) (ix2 n (0 : Fin 1)) = (a : EReal)
        rw [Thread.r0_mask, reshapeCol_apply]; exact (reals m hpre c').2.2.2 _)
      c b d, segE_apply]
  refine Finset.sum_congr rfl fun n _ => ?_
  have eI : R0.idxA (V1 m ρ) c = _ := Thread.r0_idx m ρ c
  have eA : R0.attrA (V1 m ρ) c = _ := Thread.r0_attr m ρ c
  have eM : R0.maskA (V1 m ρ) c = _ := Thread.r0_mask m ρ c
  rw [eI, eA, eM, reshapeCol_apply, reshapeCol_apply]

/-- The edges' reduction: its two core slots of counts, added, are the reference's counts. -/
theorem cntE_eq (c : Dev nD) :
    cnt2 ((dat0 (V1 m ρ) c).arrAt 4 cfg0.N) = cntE (m ((c : Thread nD τ).loc main_arg4)) := by
  funext i
  obtain ⟨b, rfl⟩ : ∃ b : Fin 256, i = ix1 b := ⟨i 0, eq_ix1 i⟩
  rw [R0.cnt2_final (V1 m ρ) c b, cntE_apply]
  refine Finset.sum_congr rfl fun n _ => ?_
  have eI : R0.idxA (V1 m ρ) c = _ := Thread.r0_idx m ρ c
  rw [eI, reshapeCol_apply]

include hpre in
/-- The nodes' reduction, sums. -/
theorem sumN_eq (c : Dev nD) :
    sum2 ((dat1 (V2 m ρ) c).arrAt 3 cfg1.N) = segN (m ((c : Thread nD τ).loc main_arg3)) (m ((c : Thread nD τ).loc main_arg0)) (m ((c : Thread nD τ).loc main_arg5)) := by
  funext i
  obtain ⟨b, d, rfl⟩ : ∃ (b : Fin 256) (d : Fin 128), i = ix2 b d := ⟨i 0, i 1, eq_ix2 i⟩
  rw [R1.sum2_final (V2 m ρ)
      (fun c' n d' => by
        show ∃ a : ℝ, (V2 m ρ c' (Pipeline.arrRef spec1 0) : FVec Ideal S500000x128 .f32) (ix2 n d') = (a : EReal)
        rw [Thread.r1_attr]; exact (reals m hpre c').1 _)
      (fun c' n => by
        show ∃ a : ℝ, (V2 m ρ c' (Pipeline.arrRef spec1 1) : FVec Ideal S500000x1 .f32) (ix2 n (0 : Fin 1)) = (a : EReal)
        rw [Thread.r1_mask, reshapeCol_apply]; exact (reals m hpre c').2.2.1 _)
      c b d, segN_apply]
  refine Finset.sum_congr rfl fun n _ => ?_
  have eI : R1.idxA (V2 m ρ) c = _ := Thread.r1_idx m ρ c
  have eA : R1.attrA (V2 m ρ) c = _ := Thread.r1_attr m ρ c
  have eM : R1.maskA (V2 m ρ) c = _ := Thread.r1_mask m ρ c
  rw [eI, eA, eM, reshapeCol_apply, reshapeCol_apply]

/-- The nodes' reduction, counts. -/
theorem cntN_eq (c : Dev nD) :
    cnt2 ((dat1 (V2 m ρ) c).arrAt 4 cfg1.N) = cntN (m ((c : Thread nD τ).loc main_arg3)) := by
  funext i
  obtain ⟨b, rfl⟩ : ∃ b : Fin 256, i = ix1 b := ⟨i 0, eq_ix1 i⟩
  rw [R1.cnt2_final (V2 m ρ) c b, cntN_apply]
  refine Finset.sum_congr rfl fun n _ => ?_
  have eI : R1.idxA (V2 m ρ) c = _ := Thread.r1_idx m ρ c
  rw [eI, reshapeCol_apply]

theorem row32_b1 (c : Dev nD) : row32 (V4 m ρ c (Pipeline.arrRef spec2 6) : FVec Ideal S1x32 .f32) = m ((c : Thread nD τ).loc main_arg8) := by
  funext i
  obtain ⟨t, rfl⟩ : ∃ t : Fin 32, i = ix1 t := ⟨i 0, eq_ix1 i⟩
  show (V4 m ρ c (Pipeline.arrRef spec2 6) : FVec Ideal S1x32 .f32) (ix2 (0 : Fin 1) t) = _
  rw [Thread.r2_b1, reshapeRow_apply]

theorem row128_b2 (c : Dev nD) : row128 (V4 m ρ c (Pipeline.arrRef spec2 8) : FVec Ideal S1x128 .f32) = m ((c : Thread nD τ).loc main_arg10) := by
  funext i
  obtain ⟨t, rfl⟩ : ∃ t : Fin 128, i = ix1 t := ⟨i 0, eq_ix1 i⟩
  show (V4 m ρ c (Pipeline.arrRef spec2 8) : FVec Ideal S1x128 .f32) (ix2 (0 : Fin 1) t) = _
  rw [Thread.r2_b2, reshapeRow_apply]

include hpre in
/-- The result buffer after the idealized kernel's run is the common value. -/
theorem kernel_value (c : Dev nD) : W5 m ρ c (Proc.devRef .tc main_v8) = value m c := by
  rw [Thread.result, R2.final9]
  show k2_pay1 (F := Ideal) (k2_pay2 (F := Ideal) (R2.A0 (V4 m ρ) c) (R2.A1 (V4 m ρ) c) (R2.A2 (V4 m ρ) c) (R2.A3 (V4 m ρ) c)
      (R2.A4 (V4 m ρ) c) (R2.A5 (V4 m ρ) c) (R2.A6 (V4 m ρ) c)) (R2.A7 (V4 m ρ) c) (R2.A8 (V4 m ρ) c) = _
  rw [epilogue_eq]
  unfold value
  show tail (V4 m ρ c (Pipeline.arrRef spec2 4)) (agg (sum2 (V4 m ρ c (Pipeline.arrRef spec2 0))) (cnt2 (V4 m ρ c (Pipeline.arrRef spec2 1))))
      (agg (sum2 (V4 m ρ c (Pipeline.arrRef spec2 2))) (cnt2 (V4 m ρ c (Pipeline.arrRef spec2 3))))
      (V4 m ρ c (Pipeline.arrRef spec2 5)) (row32 (V4 m ρ c (Pipeline.arrRef spec2 6))) (V4 m ρ c (Pipeline.arrRef spec2 7))
      (row128 (V4 m ρ c (Pipeline.arrRef spec2 8))) = _
  rw [row32_b1, row128_b2, Thread.r2_global, Thread.r2_W1, Thread.r2_W2, Thread.r2_sumsE, Thread.r2_cntsE, Thread.r2_sumsN,
    Thread.r2_cntsN, sumE_eq m ρ hpre c, cntE_eq m ρ c, sumN_eq m ρ hpre c, cntN_eq m ρ c]

end UnderPre

end Cert.Bridge

end
-- ==== Proof.lean ====
/-
  The certificate: a graph network's global block — a masked scatter-mean of the edge attributes and of the node
  attributes into 256 per-graph buckets, laid beside the global features and passed through a two-layer perceptron —
  computed by three kernels, against its plain reference.

  Both programs end with ONE value of the arguments (`Cert.Bridge.value`): for each of the two aggregates the masked
  segment sum divided by `max(count, 1)`, then `max([g, mean_e, mean_n] · W1 + b1, 0) · W2 + b2`. The reference's run
  ends with that term by definition of its pieces. The kernel reaches it in three steps: each reduction kernel splits
  the rows between two cores and each core's rows into tiles, accumulating per tile a product of the tile's one-hot
  index matrix with its masked rows, so the two core partials added are the sum over all rows of the one-hot factor
  times the masked row — which is what the reference's scatter-add computes, an index outside the buckets meeting no
  bucket on either side; the last kernel adds the partials and applies the same perceptron, spelt with the kernel's
  operations. Over the extended reals a change of float format is the identity and sums may be regrouped freely; the
  one step that needs the inputs finite is the kernel's second, residual product (of `x − x`, zero only at finite `x`).

  The three frames are the programs' runs with the result dropped; the idealization's four rewrites are each the
  identity `extf (truncf x) = x` over the extended reals.
-/
import proofs.«425581_j16449724745524_3_alg».proof.Defs
import proofs.«425581_j16449724745524_3_alg».proof.Proof.Gen.Kernel
import proofs.«425581_j16449724745524_3_alg».proof.Proof.Gen.Kernel.Skeleton
import proofs.«425581_j16449724745524_3_alg».proof.Proof.Gen.Kernel.Launch
import proofs.«425581_j16449724745524_3_alg».proof.Proof.Gen.Kernel.Points
import proofs.«425581_j16449724745524_3_alg».proof.Proof.Gen.Kernel.Frame
import proofs.«425581_j16449724745524_3_alg».proof.Proof.Gen.KernelIdeal
import proofs.«425581_j16449724745524_3_alg».proof.Proof.Gen.KernelIdeal.Skeleton
import proofs.«425581_j16449724745524_3_alg».proof.Proof.Gen.KernelIdeal.Launch
import proofs.«425581_j16449724745524_3_alg».proof.Proof.Gen.KernelIdeal.Points
import proofs.«425581_j16449724745524_3_alg».proof.Proof.Gen.KernelIdeal.Frame
import proofs.«425581_j16449724745524_3_alg».proof.Proof.Gen.ReferenceIdeal
import proofs.«425581_j16449724745524_3_alg».proof.Proof.Gen.Pre_finite_inputs
import proofs.«425581_j16449724745524_3_alg».proof.Proof.Gen.ReferenceIdeal.Run
import proofs.«425581_j16449724745524_3_alg».proof.Proof.Gen.ReferenceIdeal.Read
import proofs.«425581_j16449724745524_3_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Each rewrite of the idealization replaced `extf (truncf x)` by `x`: the identity over the extended reals. -/
theorem preserves : Cert.preserves_Kernel_KernelIdeal :=
  ⟨IdealRules.truncf_extf.statement Cert.KernelIdeal.S10000x128 .f32 .bf16,
   IdealRules.truncf_extf.statement Cert.KernelIdeal.S10000x256 .f32 .bf16,
   IdealRules.truncf_extf.statement Cert.KernelIdeal.S10000x128 .f32 .bf16,
   IdealRules.truncf_extf.statement Cert.KernelIdeal.S10000x256 .f32 .bf16⟩

/-- Both idealized programs, run from memories that agree on the arguments, end with the common value. -/
theorem algebraic : Cert.algebraic_KernelIdeal_ReferenceIdeal := by
  intro m ρ m' ρ' hpre hagree
  refine ⟨fun c => Cert.Bridge.value m c, ?_, ?_⟩
  · exact (θ_run Cert.KernelIdeal.defs _ _).mono
      (fun r h c => ⟨(h c).1.trans (Cert.Bridge.kernel_value m ρ hpre c), (h c).2⟩)
      (Cert.KernelIdeal.ValueRun.run_value (F := Ideal) m ρ)
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
